-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S64x24 : Shape := ⟨2, ![64, 24]⟩
abbrev S128x64 : Shape := ⟨2, ![128, 64]⟩
abbrev S64 : Shape := ⟨1, ![64]⟩
abbrev S64x8 : Shape := ⟨2, ![64, 8]⟩
abbrev S8 : Shape := ⟨1, ![8]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x24 : S_.BroadcastsInDim S64x24 (![] : Fin 0 → Fin S64x24.rank)
  reducesTo_S64x24_S_d0_1 : S64x24.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S16 .f32) (main_arg10 : FVec F S16x1 .f32) (main_arg11 : FVec F S1 .f32) (main_v33 : IVec S_ 1) : IVec S_ 1 :=
  let main_v34 : FVec F S16 .f32 := Host.absf main_arg9
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg10
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x8 .f32) (main_arg7 : FVec F S8 .f32) (main_arg8 : FVec F S32x16 .f32) (main_arg9 : FVec F S16 .f32) (main_arg10 : FVec F S16x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x8 .f32 := Host.absf main_arg6
  let main_cst_6 : FVec F S_ .f32 := constant S_ .f32 0x7F800000#32
  let main_v20 : FVec F S64x8 .f32 := broadcastInDim S64x8 ![] bcast_S_S64x8 main_cst_6
  let main_v21 : IVec S64x8 1 := cmpf .olt main_v19 main_v20
  let main_c_7 : IVec S_ 1 := constantI S_ 1 1#1
  let main_v22 : IVec S_ 1 := (fun x v => Host.reduce IntOp.andi x v reducesTo_S64x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S32x16 .f32 := Host.absf main_arg8
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : IVec S100000 32) (main_arg3 : FVec F S64x24 .f32) (main_arg4 : FVec F S128x64 .f32) (main_arg5 : FVec F S64 .f32) (main_arg6 : FVec F S64x8 .f32) (main_arg7 : FVec F S8 .f32) (main_arg8 : FVec F S32x16 .f32) (main_arg9 : FVec F S16 .f32) (main_arg10 : FVec F S16x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x24 .f32 := Host.absf main_arg3
  let main_cst_0 : FVec F S_ .f32 := constant S_ .f32 0x7F800000#32
  let main_v5 : FVec F S64x24 .f32 := broadcastInDim S64x24 ![] bcast_S_S64x24 main_cst_0
  let main_v6 : IVec S64x24 1 := cmpf .olt main_v4 main_v5
  let main_c_1 : IVec S_ 1 := constantI S_ 1 1#1
  let main_v7 : IVec S_ 1 := (fun x v => Host.reduce IntOp.andi x v reducesTo_S64x24_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S64x24 : Shape := ⟨2, ![64, 24]⟩
abbrev S128x64 : Shape := ⟨2, ![128, 64]⟩
abbrev S64 : Shape := ⟨1, ![64]⟩
abbrev S64x8 : Shape := ⟨2, ![64, 8]⟩
abbrev S8 : Shape := ⟨1, ![8]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S100000x65 : Shape := ⟨2, ![100000, 65]⟩
abbrev S1600000x64 : Shape := ⟨2, ![1600000, 64]⟩
abbrev S1x64 : Shape := ⟨2, ![1, 64]⟩
abbrev S100000x8 : Shape := ⟨2, ![100000, 8]⟩
abbrev S2000x64 : Shape := ⟨2, ![2000, 64]⟩
abbrev S2000x65 : Shape := ⟨2, ![2000, 65]⟩
abbrev S2000x8 : Shape := ⟨2, ![2000, 8]⟩
abbrev S2000x1 : Shape := ⟨2, ![2000, 1]⟩
abbrev S100000x9 : Shape := ⟨2, ![100000, 9]⟩
abbrev S1600000x8 : Shape := ⟨2, ![1600000, 8]⟩
abbrev S1x8 : Shape := ⟨2, ![1, 8]⟩
abbrev S64x9 : Shape := ⟨2, ![64, 9]⟩
abbrev S2000x9 : Shape := ⟨2, ![2000, 9]⟩
abbrev S1x16 : Shape := ⟨2, ![1, 16]⟩
abbrev S1x1 : Shape := ⟨2, ![1, 1]⟩
abbrev S64x1 : Shape := ⟨2, ![64, 1]⟩
abbrev S64x32 : Shape := ⟨2, ![64, 32]⟩
abbrev S64x16 : Shape := ⟨2, ![64, 16]⟩

abbrev nBuf : Space → Nat
  | .hbm => 89
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S64x24, .f32⟩
  | .hbm, ⟨4, _⟩ => ⟨S128x64, .f32⟩
  | .hbm, ⟨5, _⟩ => ⟨S64, .f32⟩
  | .hbm, ⟨6, _⟩ => ⟨S64x8, .f32⟩
  | .hbm, ⟨7, _⟩ => ⟨S8, .f32⟩
  | .hbm, ⟨8, _⟩ => ⟨S32x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S1600000x1, .f32⟩
  | .hbm, ⟨48, _⟩ => ⟨S100000x64, .f32⟩
  | .hbm, ⟨49, _⟩ => ⟨S100000x65, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S100000x8, .f32⟩
  | .hbm, ⟨67, _⟩ => ⟨S100000x9, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x8, .f32⟩
  | .hbm, ⟨77, _⟩ => ⟨S1600000x8, .f32⟩
  | .hbm, ⟨78, _⟩ => ⟨S1600000x8, .f32⟩
  | .hbm, ⟨79, _⟩ => ⟨S_, .f32⟩
  | .hbm, ⟨80, _⟩ => ⟨S100000x8, .f32⟩
  | .hbm, ⟨81, _⟩ => ⟨S1600000x1, .i32⟩
  | .hbm, ⟨82, _⟩ => ⟨S100000x8, .f32⟩
  | .hbm, ⟨83, _⟩ => ⟨S100000x1, .i32⟩
  | .hbm, ⟨84, _⟩ => ⟨S1x8, .f32⟩
  | .hbm, ⟨85, _⟩ => ⟨S64x9, .f32⟩
  | .hbm, ⟨86, _⟩ => ⟨S1x16, .f32⟩
  | .hbm, ⟨87, _⟩ => ⟨S1x1, .f32⟩
  | .hbm, ⟨88, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S2000x64, .f32⟩
  | .local _ .vmem, ⟨6, _⟩ => ⟨S2000x64, .f32⟩
  | .local _ .vmem, ⟨7, _⟩ => ⟨S2000x65, .f32⟩
  | .local _ .vmem, ⟨8, _⟩ => ⟨S2000x65, .f32⟩
  | .local _ .vmem, ⟨9, _⟩ => ⟨S1x64, .f32⟩
  | .local _ .vmem, ⟨10, _⟩ => ⟨S64x8, .f32⟩
  | .local _ .vmem, ⟨11, _⟩ => ⟨S2000x8, .f32⟩
  | .local _ .vmem, ⟨12, _⟩ => ⟨S2000x8, .f32⟩
  | .local _ .vmem, ⟨13, _⟩ => ⟨S2000x8, .f32⟩
  | .local _ .vmem, ⟨14, _⟩ => ⟨S2000x8, .f32⟩
  | .local _ .vmem, ⟨15, _⟩ => ⟨S2000x9, .f32⟩
  | .local _ .vmem, ⟨16, _⟩ => ⟨S2000x9, .f32⟩
  | .local _ .vmem, ⟨17, _⟩ => ⟨S1x8, .f32⟩
  | .local _ .vmem, ⟨18, _⟩ => ⟨S2000x1, .i32⟩
  | .local _ .vmem, ⟨19, _⟩ => ⟨S2000x1, .i32⟩
  | .local _ .vmem, ⟨20, _⟩ => ⟨S64x9, .f32⟩
  | .local _ .vmem, ⟨21, _⟩ => ⟨S64x9, .f32⟩
  | .local _ .vmem, ⟨22, _⟩ => ⟨S64x24, .f32⟩
  | .local _ .vmem, ⟨23, _⟩ => ⟨S32x16, .f32⟩
  | .local _ .vmem, ⟨24, _⟩ => ⟨S1x16, .f32⟩
  | .local _ .vmem, ⟨25, _⟩ => ⟨S16x1, .f32⟩
  | .local _ .vmem, ⟨26, _⟩ => ⟨S1x1, .f32⟩
  | .local _ .vmem, ⟨27, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x65 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x9 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x9 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x24 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  concatenates_S100000x64_S100000x1_S100000x65_d1 : Shape.Concatenates [S100000x64, S100000x1] S100000x65 1
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x65_S2000x65_0_0 : ∀ a, (![0, 0] : Fin 2 → Nat) a + S2000x65.size a ≤ S2000x65.size a
  h_S2000x65 : 0 < S2000x65.numel
  shapeCasts_S2000x65_S2000x65 : S2000x65.ShapeCasts S2000x65
  slices_S2000x65_o0_0_S2000x64 : S2000x65.Slices ![0, 0] S2000x64
  slices_S2000x65_o0_64_S2000x1 : S2000x65.Slices ![0, 64] S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x8_S64x8_0_0 : ∀ a, (![0, 0] : Fin 2 → Nat) a + S64x8.size a ≤ S64x8.size a
  h_S64x8 : 0 < S64x8.numel
  inb_S2000x8_S2000x8_0_0 : ∀ a, (![0, 0] : Fin 2 → Nat) a + S2000x8.size a ≤ S2000x8.size a
  h_S2000x8 : 0 < S2000x8.numel
  concatenates_S100000x8_S100000x1_S100000x9_d1 : Shape.Concatenates [S100000x8, S100000x1] S100000x9 1
  bcast_S1600000x1_S1600000x8_0_1 : S1600000x1.BroadcastsInDim S1600000x8 (![0, 1] : Fin 2 → Fin S1600000x8.rank)
  bcast_S_S100000x8 : S_.BroadcastsInDim S100000x8 (![] : Fin 0 → Fin S100000x8.rank)
  shapeCasts_S8_S1x8 : S8.ShapeCasts S1x8
  inb_S64x9_S64x9_0_0 : ∀ a, (![0, 0] : Fin 2 → Nat) a + S64x9.size a ≤ S64x9.size a
  h_S64x9 : 0 < S64x9.numel
  shapeCasts_S2000x8_S2000x8 : S2000x8.ShapeCasts S2000x8
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  slices_S2000x9_o0_0_S2000x8 : S2000x9.Slices ![0, 0] S2000x8
  slices_S2000x9_o0_8_S2000x1 : S2000x9.Slices ![0, 8] S2000x1
  broadcasts_S2000x1_S2000x8 : S2000x1.Broadcasts S2000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  concatenates_S2000x8_S2000x1_S2000x9_d1 : Shape.Concatenates [S2000x8, S2000x1] S2000x9 1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  natLt_1_32 : 1 < 32
  shapeCasts_S64x9_S64x9 : S64x9.ShapeCasts S64x9
  shapeCasts_S16_S1x16 : S16.ShapeCasts S1x16
  shapeCasts_S1_S1x1 : S1.ShapeCasts S1x1
  slices_S64x9_o0_0_S64x8 : S64x9.Slices ![0, 0] S64x8
  slices_S64x9_o0_8_S64x1 : S64x9.Slices ![0, 8] S64x1
  broadcasts_S64x1_S64x8 : S64x1.Broadcasts S64x8
  inb_S64x24_S64x24_0_0 : ∀ a, (![0, 0] : Fin 2 → Nat) a + S64x24.size a ≤ S64x24.size a
  h_S64x24 : 0 < S64x24.numel
  concatenates_S64x8_S64x24_S64x32_d1 : Shape.Concatenates [S64x8, S64x24] S64x32 1
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x8_S2000x8_1_0_0_1_n_n_wf : DotDims.WF S2000x64 S64x8 S2000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S2000x64_S2000x9_S64x9_0_0_1_1_n_n_wf : DotDims.WF S2000x64 S2000x9 S64x9 [0] [0] [1] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x65.size a ≤ S100000x65.size a
  hwx1_1 : ∀ i : grid1.Coords, EltTy.bits .f32 = 32 ∨ (Rect.block (s := S100000x65) S2000x65.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x8.size a ≤ S64x8.size a
  hwx1_3 : ∀ i : grid1.Coords, EltTy.bits .f32 = 32 ∨ (Rect.block (s := S64x8) S64x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x8.size a ≤ S100000x8.size a
  hwx1_4 : ∀ i : grid1.Coords, EltTy.bits .f32 = 32 ∨ (Rect.block (s := S100000x8) S2000x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S100000x8.size a
  hwx2_0 : ∀ i : grid2.Coords, EltTy.bits .f32 = 32 ∨ (Rect.block (s := S100000x8) S2000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x9.size a ≤ S100000x9.size a
  hwx2_1 : ∀ i : grid2.Coords, EltTy.bits .f32 = 32 ∨ (Rect.block (s := S100000x9) S2000x9.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x9.size a ≤ S64x9.size a
  hwx2_4 : ∀ i : grid2.Coords, EltTy.bits .f32 = 32 ∨ (Rect.block (s := S64x9) S64x9.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x9.size a ≤ S64x9.size a
  hwx3_0 : ∀ i : grid3.Coords, EltTy.bits .f32 = 32 ∨ (Rect.block (s := S64x9) S64x9.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x24.size a ≤ S64x24.size a
  hwx3_1 : ∀ i : grid3.Coords, EltTy.bits .f32 = 32 ∨ (Rect.block (s := S64x24) S64x24.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x1.size a ≤ S16x1.size a
  hwx3_4 : ∀ i : grid3.Coords, EltTy.bits .f32 = 32 ∨ (Rect.block (s := S16x1) S16x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x1.size a ≤ S64x1.size a
  hwx3_6 : ∀ i : grid3.Coords, EltTy.bits .f32 = 32 ∨ (Rect.block (s := S64x1) S64x1.size (cc3_transform_6 i) (hinb3_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S2000x64_S2000x9_S64x9_0_0_1_1_n_n : DotDims S2000x64 S2000x9 S64x9 where
  lhsContracting := [0]
  rhsContracting := [0]
  lhsNonContracting := [1]
  rhsNonContracting := [1]
  lhsBatch := []
  rhsBatch := []
  wf := dot_S2000x64_S2000x9_S64x9_0_0_1_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x65.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x9.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v60) S64x9.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v60) S64x9.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x24.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S16x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S64x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S64x24 : Shape := ⟨2, ![64, 24]⟩
abbrev S128x64 : Shape := ⟨2, ![128, 64]⟩
abbrev S64 : Shape := ⟨1, ![64]⟩
abbrev S64x8 : Shape := ⟨2, ![64, 8]⟩
abbrev S8 : Shape := ⟨1, ![8]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x8 : Shape := ⟨2, ![100000, 8]⟩
abbrev S1700000x8 : Shape := ⟨2, ![1700000, 8]⟩
abbrev S1x8 : Shape := ⟨2, ![1, 8]⟩
abbrev S100000x1 : Shape := ⟨2, ![100000, 1]⟩
abbrev S64x1 : Shape := ⟨2, ![64, 1]⟩
abbrev S64x32 : Shape := ⟨2, ![64, 32]⟩
abbrev S64x16 : Shape := ⟨2, ![64, 16]⟩
abbrev S1x16 : Shape := ⟨2, ![1, 16]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S64x24, .f32⟩
  | 4 => ⟨S128x64, .f32⟩
  | 5 => ⟨S64, .f32⟩
  | 6 => ⟨S64x8, .f32⟩
  | 7 => ⟨S8, .f32⟩
  | 8 => ⟨S32x16, .f32⟩
  | 9 => ⟨S16, .f32⟩
  | 10 => ⟨S16x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x64, .f32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x1, .f32⟩
  | 63 => ⟨S1700000x64, .f32⟩
  | 64 => ⟨S1700000x64, .f32⟩
  | 65 => ⟨S_, .f32⟩
  | 66 => ⟨S100000x64, .f32⟩
  | 67 => ⟨S1700000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S_, .f32⟩
  | 74 => ⟨S100000x64, .f32⟩
  | 75 => ⟨S100000x64, .i1⟩
  | 76 => ⟨S_, .f32⟩
  | 77 => ⟨S100000x64, .f32⟩
  | 78 => ⟨S100000x64, .f32⟩
  | 79 => ⟨S100000x64, .f32⟩
  | 80 => ⟨S100000x8, .f32⟩
  | 81 => ⟨S100000, .i32⟩
  | 82 => ⟨S1700000, .i32⟩
  | 83 => ⟨S1700000, .i32⟩
  | 84 => ⟨S_, .f32⟩
  | 85 => ⟨S1700000, .f32⟩
  | 86 => ⟨S_, .f32⟩
  | 87 => ⟨S100000, .f32⟩
  | 88 => ⟨S1700000x1, .i32⟩
  | 89 => ⟨S100000, .f32⟩
  | 90 => ⟨S_, .f32⟩
  | 91 => ⟨S100000, .f32⟩
  | 92 => ⟨S100000, .i1⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x8, .f32⟩
  | 126 => ⟨S1700000x1, .f32⟩
  | 127 => ⟨S1700000x8, .f32⟩
  | _ => ⟨S100000x128, .f32⟩

abbrev hbmTy0_1 (i : Nat) : BufTy := match i % 128 with
  | 0 => ⟨S1700000x8, .f32⟩
  | 1 => ⟨S_, .f32⟩
  | 2 => ⟨S100000x8, .f32⟩
  | 3 => ⟨S1700000x1, .i32⟩
  | 4 => ⟨S100000x8, .f32⟩
  | 5 => ⟨S1x8, .f32⟩
  | 6 => ⟨S100000x8, .f32⟩
  | 7 => ⟨S100000x8, .f32⟩
  | 8 => ⟨S_, .f32⟩
  | 9 => ⟨S_, .f32⟩
  | 10 => ⟨S100000x8, .f32⟩
  | 11 => ⟨S100000x8, .i1⟩
  | 12 => ⟨S_, .f32⟩
  | 13 => ⟨S100000x8, .f32⟩
  | 14 => ⟨S100000x8, .f32⟩
  | 15 => ⟨S100000x8, .f32⟩
  | 16 => ⟨S_, .f32⟩
  | 17 => ⟨S64x8, .f32⟩
  | 18 => ⟨S100000x1, .i32⟩
  | 19 => ⟨S64x8, .f32⟩
  | 20 => ⟨S_, .f32⟩
  | 21 => ⟨S100000, .f32⟩
  | 22 => ⟨S_, .f32⟩
  | 23 => ⟨S64, .f32⟩
  | 24 => ⟨S100000x1, .i32⟩
  | 25 => ⟨S64, .f32⟩
  | 26 => ⟨S_, .f32⟩
  | 27 => ⟨S64, .f32⟩
  | 28 => ⟨S64, .f32⟩
  | 29 => ⟨S64x1, .f32⟩
  | 30 => ⟨S64x8, .f32⟩
  | 31 => ⟨S64x8, .f32⟩
  | 32 => ⟨S64x32, .f32⟩
  | 33 => ⟨S64x16, .f32⟩
  | 34 => ⟨S1x16, .f32⟩
  | 35 => ⟨S64x16, .f32⟩
  | 36 => ⟨S64x16, .f32⟩
  | 37 => ⟨S_, .f32⟩
  | 38 => ⟨S_, .f32⟩
  | 39 => ⟨S64x16, .f32⟩
  | 40 => ⟨S64x16, .i1⟩
  | 41 => ⟨S_, .f32⟩
  | 42 => ⟨S64x16, .f32⟩
  | 43 => ⟨S64x16, .f32⟩
  | 44 => ⟨S64x16, .f32⟩
  | 45 => ⟨S64x1, .f32⟩
  | 46 => ⟨S1x1, .f32⟩
  | 47 => ⟨S64x1, .f32⟩
  | 48 => ⟨S64x1, .f32⟩
  | 49 => ⟨S_, .f32⟩
  | 50 => ⟨S_, .f32⟩
  | 51 => ⟨S64x1, .f32⟩
  | 52 => ⟨S64x1, .i1⟩
  | 53 => ⟨S_, .f32⟩
  | 54 => ⟨S64x1, .f32⟩
  | 55 => ⟨S64x1, .f32⟩
  | 56 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_call2_v0 : Ref sig .tc := ⟨.hbm, 95, rfl⟩
abbrev main_call2_v1 : Ref sig .tc := ⟨.hbm, 96, rfl⟩
abbrev main_v59 : Ref sig .tc := ⟨.hbm, 97, rfl⟩
abbrev main_c_14 : Ref sig .tc := ⟨.hbm, 98, rfl⟩
abbrev main_v60 : Ref sig .tc := ⟨.hbm, 99, rfl⟩
abbrev main_v61 : Ref sig .tc := ⟨.hbm, 100, rfl⟩
abbrev main_c_15 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_c_16 : Ref sig .tc := ⟨.hbm, 107, rfl⟩
abbrev main_v67 : Ref sig .tc := ⟨.hbm, 108, rfl⟩
abbrev main_v68 : Ref sig .tc := ⟨.hbm, 109, rfl⟩
abbrev main_c_17 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_18 : Ref sig .tc := ⟨.hbm, 117, rfl⟩
abbrev main_v75 : Ref sig .tc := ⟨.hbm, 118, rfl⟩
abbrev main_v76 : Ref sig .tc := ⟨.hbm, 119, rfl⟩
abbrev main_c_19 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_21 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v91 : Ref sig .tc := ⟨.hbm, 143, rfl⟩
abbrev main_cst_22 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_23 : Ref sig .tc := ⟨.hbm, 148, rfl⟩
abbrev main_v95 : Ref sig .tc := ⟨.hbm, 149, rfl⟩
abbrev main_cst_24 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_25 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_26 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_27 : Ref sig .tc := ⟨.hbm, 177, rfl⟩
abbrev main_call5_cst : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v114 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  concatenates_S64x8_S64x24_S64x32_d1 : Shape.Concatenates [S64x8, S64x24] S64x32 1
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.KFold.lean ====
/-
  The buffers the idealized kernel program leaves alone. Between the launch and the return the program's buffer
  contents pass eight boundaries: after each stretch of host operations and after each of the four kernels. A buffer
  that no operation of a stretch writes and that is no array of a kernel's windows holds at the later boundary what it
  held at the earlier one. Stated here, buffer by buffer, for the buffers the value of the result is read through:
  the arguments down to the launch contents, and the edge words, the normalisation and the edge weights, computed
  once before the first kernel, down to the first boundary.
-/
import proofs.«419935_j81939386073613_2_alg».proof.Proof.Gen.KernelIdeal.Frame

set_option maxRecDepth 16384

noncomputable section

namespace Cert.KernelIdeal.KFold

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Argument 0 at boundary 1 is as launched. -/
theorem W1_main_arg0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 4 at boundary 1 is as launched. -/
theorem W1_main_arg4 (c : Dev nD) : W1 m ρ c (Proc.devRef .tc main_arg4) = W0 m ρ c (Proc.devRef .tc main_arg4) :=
  calc W1 m ρ c (Proc.devRef .tc main_arg4)
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 5 at boundary 2 is as launched. -/
theorem W2_main_arg5 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 6 at boundary 3 is as launched. -/
theorem W3_main_arg6 (c : Dev nD) : W3 m ρ c (Proc.devRef .tc main_arg6) = W0 m ρ c (Proc.devRef .tc main_arg6) :=
  calc W3 m ρ c (Proc.devRef .tc main_arg6)
    _ = W2 m ρ c (Proc.devRef .tc main_arg6) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 7 at boundary 4 is as launched. -/
theorem W4_main_arg7 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 2 at boundary 4 is as launched. -/
theorem W4_main_arg2 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 9 at boundary 6 is as launched. -/
theorem W6_main_arg9 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 11 at boundary 6 is as launched. -/
theorem W6_main_arg11 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 3 at boundary 7 is as launched. -/
theorem W7_main_arg3 (c : Dev nD) : W7 m ρ c (Proc.devRef .tc main_arg3) = W0 m ρ c (Proc.devRef .tc main_arg3) :=
  calc W7 m ρ c (Proc.devRef .tc main_arg3)
    _ = W6 m ρ c (Proc.devRef .tc main_arg3) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 8 at boundary 7 is as launched. -/
theorem W7_main_arg8 (c : Dev nD) : W7 m ρ c (Proc.devRef .tc main_arg8) = W0 m ρ c (Proc.devRef .tc main_arg8) :=
  calc W7 m ρ c (Proc.devRef .tc main_arg8)
    _ = W6 m ρ c (Proc.devRef .tc main_arg8) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Argument 10 at boundary 7 is as launched. -/
theorem W7_main_arg10 (c : Dev nD) : W7 m ρ c (Proc.devRef .tc main_arg10) = W0 m ρ c (Proc.devRef .tc main_arg10) :=
  calc W7 m ρ c (Proc.devRef .tc main_arg10)
    _ = W6 m ρ c (Proc.devRef .tc main_arg10) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Buffer v1, computed before the first kernel, at boundary 2. -/
theorem W2_main_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- Buffer v1, computed before the first kernel, at boundary 4. -/
theorem W4_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

/-- Buffer v3, computed before the first kernel, at boundary 2. -/
theorem W2_main_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Buffer v3, computed before the first kernel, at boundary 4. -/
theorem W4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

/-- Buffer v12, computed before the first kernel, at boundary 2. -/
theorem W2_main_v12 (c : Dev nD) : W2 m ρ c (Proc.devRef .tc main_v12) = W1 m ρ c (Proc.devRef .tc main_v12) :=
  calc W2 m ρ c (Proc.devRef .tc main_v12)
    _ = W1 m ρ c (Proc.devRef .tc main_v12) := W2_of_ne m ρ c main_v12 (by decide)

/-- Buffer v12, computed before the first kernel, at boundary 4. -/
theorem W4_main_v12 (c : Dev nD) : W4 m ρ c (Proc.devRef .tc main_v12) = W1 m ρ c (Proc.devRef .tc main_v12) :=
  calc W4 m ρ c (Proc.devRef .tc main_v12)
    _ = W3 m ρ c (Proc.devRef .tc main_v12) := W4_of_ne m ρ c main_v12 (by decide)
    _ = W2 m ρ c (Proc.devRef .tc main_v12) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v12) := W2_of_ne m ρ c main_v12 (by decide)

/-- Buffer v28, computed before the first kernel, at boundary 2. -/
theorem W2_main_v28 (c : Dev nD) : W2 m ρ c (Proc.devRef .tc main_v28) = W1 m ρ c (Proc.devRef .tc main_v28) :=
  calc W2 m ρ c (Proc.devRef .tc main_v28)
    _ = W1 m ρ c (Proc.devRef .tc main_v28) := W2_of_ne m ρ c main_v28 (by decide)

/-- Buffer v28, computed before the first kernel, at boundary 4. -/
theorem W4_main_v28 (c : Dev nD) : W4 m ρ c (Proc.devRef .tc main_v28) = W1 m ρ c (Proc.devRef .tc main_v28) :=
  calc W4 m ρ c (Proc.devRef .tc main_v28)
    _ = W3 m ρ c (Proc.devRef .tc main_v28) := W4_of_ne m ρ c main_v28 (by decide)
    _ = W2 m ρ c (Proc.devRef .tc main_v28) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v28) := W2_of_ne m ρ c main_v28 (by decide)

/-- The third kernel's output at boundary 7. -/
theorem W7_main_v60 (c : Dev nD) : W7 m ρ c (Proc.devRef .tc main_v60) = W6 m ρ c (Proc.devRef .tc main_v60) :=
  calc W7 m ρ c (Proc.devRef .tc main_v60)
    _ = W6 m ρ c (Proc.devRef .tc main_v60) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.KFold

end
-- ==== Proof.GcnSpec.lean ====
/-
  The graph-convolution network both programs compute, as functions on the extended reals.

  Nodes are the rows 0 … 99999; an edge list of 1 600 000 edges is a [2, 1600000] array of 32-bit words, row 0 the
  sources and row 1 the destinations. A word names a row in two ways. A GATHER reads it after adding 100000 to a
  negative word, signed, clamped into [0, 99999] (`rowOf`). A SCATTER-ADD lands an update on row n exactly when the
  word, read signed and as it is, equals n; otherwise the update is dropped.

  One convolution layer over a table L of C columns (`pre`): with deg n = 1 + the number of edges landing on n and
  dinv n = (deg n)^(-1/2),
      pre L b (n, c) = Σ_{e lands on n} L[rowOf src e, c] · (dinv[rowOf src e] · dinv[rowOf dst e])
                        + L[n, c] · (dinv n · dinv n) + b c,
  the middle term being the self-loop. The network: x·W1, a layer, the leaky rectifier, ·W2, a layer, the leaky
  rectifier, the mean of the rows of each graph (a row belongs to graph g when its batch word, read signed, is g;
  the divisor is max(count, 1)), the 24 global features appended, and two dense layers with the leaky rectifier.
  Every definition is a plain function: nothing is evaluated at full size.
-/
import Idealize.ShloMosaic.PureOps.Ideal
import Idealize.ShloMosaic.Lib.ValueIdx

noncomputable section

open scoped BigOperators

namespace Gcn

open Idealize.ShloMosaic Idealize.ShloMosaic.ValueIdx

/-- A rank-2 shape from its extents. -/
abbrev Sh2 (a b : Nat) : Shape := ⟨2, ![a, b]⟩
/-- A rank-1 shape from its extent. -/
abbrev Sh1 (a : Nat) : Shape := ⟨1, ![a]⟩

/-- An array of rank 2 from a function of its two coordinates. -/
def arr2 {α : Type} {a b : Nat} (f : Fin a → Fin b → α) : (Sh2 a b).Idx → α :=
  fun i => f ⟨(i 0).val, idx2_lt0 i⟩ ⟨(i 1).val, idx2_lt1 i⟩

@[simp] theorem arr2_ix2 {α : Type} {a b : Nat} (f : Fin a → Fin b → α) (p : Fin a) (q : Fin b) :
    arr2 f (ix2 p q) = f p q := rfl

/-! ## Words as rows -/

/-- The source word of edge e. -/
def srcW (ei : IVec (Sh2 2 1600000) 32) (e : Fin 1600000) : BitVec 32 := ei (ix2 (0 : Fin 2) e)
/-- The destination word of edge e. -/
def dstW (ei : IVec (Sh2 2 1600000) 32) (e : Fin 1600000) : BitVec 32 := ei (ix2 (1 : Fin 2) e)

/-- A negative word is taken from the end of the table: 100000 is added to it. -/
def normW (w : BitVec 32) : BitVec 32 := Scalar.select (IntOp.cmpi .slt w 0#32) (IntOp.addi w 100000#32) w

/-- The row a gather reads for the word w. -/
def rowOf (w : BitVec 32) : Fin 100000 := ⟨min (normW w).toInt.toNat (100000 - 1), by omega⟩

/-- The edges whose update lands on row n. -/
def into (ei : IVec (Sh2 2 1600000) 32) (n : Fin 100000) : Finset (Fin 1600000) :=
  Finset.univ.filter fun e => (dstW ei e).toInt = (n.val : Int)

/-! ## The normalisation -/

/-- One plus the number of edges landing on n. -/
def deg (ei : IVec (Sh2 2 1600000) 32) (n : Fin 100000) : EReal := (∑ _e ∈ into ei n, (1 : EReal)) + 1

def dinv (ei : IVec (Sh2 2 1600000) 32) (n : Fin 100000) : EReal := Ideal.rsqrt (deg ei n)

/-- The weight of edge e: the factors of the two rows its words read. -/
def enorm (ei : IVec (Sh2 2 1600000) 32) (e : Fin 1600000) : EReal :=
  dinv ei (rowOf (srcW ei e)) * dinv ei (rowOf (dstW ei e))

/-! ## One layer -/

/-- The sum over the edges landing on n of the source rows, weighted. -/
def agg {C : Nat} (ei : IVec (Sh2 2 1600000) 32) (L : (Sh2 100000 C).Idx → EReal) (n : Fin 100000) (c : Fin C) : EReal :=
  ∑ e ∈ into ei n, L (ix2 (rowOf (srcW ei e)) c) * enorm ei e

/-- A layer before its rectifier: the aggregated rows, the self-loop, the bias. -/
def pre {C : Nat} (ei : IVec (Sh2 2 1600000) 32) (L : (Sh2 100000 C).Idx → EReal) (b : (Sh1 C).Idx → EReal)
    (n : Fin 100000) (c : Fin C) : EReal :=
  agg ei L n c + L (ix2 n c) * (dinv ei n * dinv ei n) + b (ix1 c)

/-- The rectifier's slope on the negative side: the single-precision number nearest one hundredth. -/
def slope : EReal := Ideal.ofBits .f32 0x3C23D70A#32

/-- The leaky rectifier. -/
def leaky (v : EReal) : EReal := if 0 < v then v else slope * v

/-- The product of two matrices at an entry. -/
def mmAt {a k b : Nat} (A : (Sh2 a k).Idx → EReal) (B : (Sh2 k b).Idx → EReal) (p : Fin a) (q : Fin b) : EReal :=
  ∑ c : Fin k, A (ix2 p c) * B (ix2 c q)

/-! ## The network, stage by stage -/

section Net
variable (x : (Sh2 100000 128).Idx → EReal) (ei : IVec (Sh2 2 1600000) 32) (bt : IVec (Sh1 100000) 32)
  (gf : (Sh2 64 24).Idx → EReal) (W1 : (Sh2 128 64).Idx → EReal) (b1 : (Sh1 64).Idx → EReal)
  (W2 : (Sh2 64 8).Idx → EReal) (b2 : (Sh1 8).Idx → EReal) (fW1 : (Sh2 32 16).Idx → EReal)
  (fb1 : (Sh1 16).Idx → EReal) (fW2 : (Sh2 16 1).Idx → EReal) (fb2 : (Sh1 1).Idx → EReal)

/-- The first projection x·W1. -/
def hp1 : (Sh2 100000 64).Idx → EReal := arr2 (mmAt x W1)

/-- The first layer's output. -/
def h1 : (Sh2 100000 64).Idx → EReal := arr2 fun n c => leaky (pre ei (hp1 x W1) b1 n c)

/-- The second projection h1·W2. -/
def hp2 : (Sh2 100000 8).Idx → EReal := arr2 (mmAt (h1 x ei W1 b1) W2)

/-- The second layer's output. -/
def h2 : (Sh2 100000 8).Idx → EReal := arr2 fun n c => leaky (pre ei (hp2 x ei W1 b1 W2) b2 n c)

/-- The rows of graph g. -/
def members (g : Fin 64) : Finset (Fin 100000) :=
  Finset.univ.filter fun n => (bt (ix1 n)).toInt = (g.val : Int)

/-- The sum of a table's rows over a graph. -/
def psum (H : (Sh2 100000 8).Idx → EReal) (g : Fin 64) (j : Fin 8) : EReal := ∑ n ∈ members bt g, H (ix2 n j)

/-- The number of rows of a graph. -/
def pcnt (g : Fin 64) : EReal := ∑ _n ∈ members bt g, (1 : EReal)

/-- The mean of a table's rows over a graph, an empty graph dividing by one. -/
def pool (H : (Sh2 100000 8).Idx → EReal) (g : Fin 64) (j : Fin 8) : EReal :=
  Ideal.div (psum bt H g j) (max (pcnt bt g) 1)

/-- The pooled features with the global features appended. -/
def zcat (H : (Sh2 100000 8).Idx → EReal) : (Sh2 64 32).Idx → EReal :=
  arr2 fun g q => if h : q.val < 8 then pool bt H g ⟨q.val, h⟩ else gf (ix2 g ⟨q.val - 8, by omega⟩)

/-- The two dense layers on a [64, 32] table. -/
def head (Z : (Sh2 64 32).Idx → EReal) : (Sh2 64 1).Idx → EReal :=
  arr2 fun g o => leaky (mmAt (arr2 fun g' k => leaky (mmAt Z fW1 g' k + fb1 (ix1 k))) fW2 g o + fb2 (ix1 o))

/-- THE RESULT. -/
def out : (Sh2 64 1).Idx → EReal :=
  head fW1 fb1 fW2 fb2 (zcat bt gf (h2 x ei W1 b1 W2 b2))

end Net

/-! ## The four kernels as functions of the arrays they are given -/

/-- Kernel 2 of 4 at an entry: the layer's value from the aggregate A, the table U whose last column holds
    dinv·dinv, and the bias row, rectified and multiplied by W. -/
def reg1 (A : (Sh2 100000 64).Idx → EReal) (U : (Sh2 100000 65).Idx → EReal) (b : (Sh2 1 64).Idx → EReal)
    (W : (Sh2 64 8).Idx → EReal) : (Sh2 100000 8).Idx → EReal :=
  arr2 fun n j => ∑ k : Fin 64,
    leaky (A (ix2 n k) + U (ix2 n ⟨k.val, by omega⟩) * U (ix2 n (64 : Fin 65)) + b (ix2 (0 : Fin 1) k)) * W (ix2 k j)

/-- Whether the word w names graph g, as the number 1 or 0. -/
def hot (w : BitVec 32) (g : Fin 64) : EReal :=
  (((((IntOp.cmpi .eq w (BitVec.ofNat 32 g.val)).setWidth 32).toInt : ℝ)) : EReal)

/-- The second layer's output row with a one appended. -/
def aug2 (A : (Sh2 100000 8).Idx → EReal) (U : (Sh2 100000 9).Idx → EReal) (b : (Sh2 1 8).Idx → EReal)
    (n : Fin 100000) (q : Fin 9) : EReal :=
  if h : q.val < 8 then
    leaky (A (ix2 n ⟨q.val, h⟩) + U (ix2 n ⟨q.val, by omega⟩) * U (ix2 n (8 : Fin 9)) + b (ix2 (0 : Fin 1) ⟨q.val, h⟩))
  else 1

/-- Kernel 3 of 4 at an entry: the sum over all rows of the row's indicator for graph g times its augmented row. -/
def reg2 (A : (Sh2 100000 8).Idx → EReal) (U : (Sh2 100000 9).Idx → EReal) (b : (Sh2 1 8).Idx → EReal)
    (B : IVec (Sh2 100000 1) 32) : (Sh2 64 9).Idx → EReal :=
  arr2 fun g q => ∑ n : Fin 100000, hot (B (ix2 n (0 : Fin 1))) g * aug2 A U b n q

/-- Kernel 4 of 4: the mean from the sums and the count in column 8, the global features appended, the dense layers. -/
def reg3 (S : (Sh2 64 9).Idx → EReal) (gf : (Sh2 64 24).Idx → EReal) (fW1 : (Sh2 32 16).Idx → EReal)
    (fb1 : (Sh2 1 16).Idx → EReal) (fW2 : (Sh2 16 1).Idx → EReal) (fb2 : (Sh2 1 1).Idx → EReal) : (Sh2 64 1).Idx → EReal :=
  arr2 fun g o => leaky (mmAt (arr2 fun g' k => leaky (mmAt
      (arr2 fun g'' q => if h : q.val < 8 then Ideal.div (S (ix2 g'' ⟨q.val, by omega⟩)) (max (S (ix2 g'' (8 : Fin 9))) 1)
        else gf (ix2 g'' ⟨q.val - 8, by omega⟩)) fW1 g' k + fb1 (ix2 (0 : Fin 1) k))) fW2 g o + fb2 (ix2 (0 : Fin 1) o))

end Gcn

end
-- ==== Proof.GcnBridge.lean ====
/-
  The four kernel functions of GcnSpec, fed the arrays built between the kernels, are the network's stages.

  Each kernel is given, besides the aggregate A of a table L, a widened copy U of L whose extra last column holds the
  self-loop weight dinv·dinv, the bias as a one-row table, and (for the pooling kernel) the batch words as a one-column
  table. Entry by entry these hypotheses turn the kernel's summand into the layer's value pre, and the indicator of
  "word names graph g" times a term, summed over all rows, into the sum over the graph's members.
-/
import proofs.«419935_j81939386073613_2_alg».proof.Proof.GcnSpec
import Mathlib.Data.EReal.Operations
import Mathlib.Algebra.BigOperators.Group.Finset.Basic

noncomputable section

open scoped BigOperators

namespace Gcn

open Idealize.ShloMosaic Idealize.ShloMosaic.ValueIdx

/-- A graph number below 64, as a 32-bit word, reads signed as itself. -/
theorem toInt_ofNat_graph (g : Fin 64) : (BitVec.ofNat 32 g.val).toInt = (g.val : Int) := by
  have hg := g.isLt
  rw [BitVec.toInt_eq_toNat_of_lt (by rw [BitVec.toNat_ofNat]; omega), BitVec.toNat_ofNat]
  congr 1
  omega

/-- The indicator of "the word w names graph g": the comparison bit, widened to 32 bits and read as a number, is 1
    when w read signed is g and 0 otherwise. -/
theorem hot_eq (w : BitVec 32) (g : Fin 64) : hot w g = if w.toInt = (g.val : Int) then 1 else 0 := by
  unfold hot IntOp.cmpi
  by_cases h : w = BitVec.ofNat 32 g.val
  · have h1 : w.toInt = (g.val : Int) := by rw [h]; exact toInt_ofNat_graph g
    have hb : (w == BitVec.ofNat 32 g.val) = true := by simpa using h
    have e : ((BitVec.ofBool true).setWidth 32).toInt = 1 := by decide
    rw [if_pos h1]
    simp only [hb]
    rw [e, Int.cast_one, EReal.coe_one]
  · have h1 : ¬ w.toInt = (g.val : Int) := fun h' =>
      h (BitVec.eq_of_toInt_eq (h'.trans (toInt_ofNat_graph g).symm))
    have hb : (w == BitVec.ofNat 32 g.val) = false := by simpa using h
    have e : ((BitVec.ofBool false).setWidth 32).toInt = 0 := by decide
    rw [if_neg h1]
    simp only [hb]
    rw [e, Int.cast_zero, EReal.coe_zero]

/-- Kernel 2 of 4 on the aggregate of L, the widened copy of L and the bias row is (the rectified first layer)·W2. -/
theorem reg1_eq {ei : IVec (Sh2 2 1600000) 32} (L : (Sh2 100000 64).Idx → EReal) (b1 : (Sh1 64).Idx → EReal)
    (W2 : (Sh2 64 8).Idx → EReal)
    (A : (Sh2 100000 64).Idx → EReal) (U : (Sh2 100000 65).Idx → EReal) (br : (Sh2 1 64).Idx → EReal)
    (hA : ∀ (n : Fin 100000) (k : Fin 64), A (ix2 n k) = agg ei L n k)
    (hU : ∀ (n : Fin 100000) (k : Fin 64), U (ix2 n ⟨k.val, by omega⟩) = L (ix2 n k))
    (hD : ∀ n : Fin 100000, U (ix2 n (64 : Fin 65)) = dinv ei n * dinv ei n)
    (hb : ∀ k : Fin 64, br (ix2 (0 : Fin 1) k) = b1 (ix1 k)) :
    reg1 A U br W2 = arr2 (mmAt (arr2 fun n c => leaky (pre ei L b1 n c)) W2) := by
  funext i
  obtain ⟨n, j, rfl⟩ : ∃ p q, i = ix2 p q := ⟨i 0, i 1, eq_ix2 i⟩
  simp only [reg1, arr2_ix2, mmAt]
  refine Finset.sum_congr rfl fun k _ => ?_
  rw [hA, hU, hD, hb]
  rfl

/-- The augmented row of kernel 3 at a column below 8 is the rectified second layer. -/
theorem aug2_lt {ei : IVec (Sh2 2 1600000) 32} (L : (Sh2 100000 8).Idx → EReal) (b2 : (Sh1 8).Idx → EReal)
    (A : (Sh2 100000 8).Idx → EReal) (U : (Sh2 100000 9).Idx → EReal) (br : (Sh2 1 8).Idx → EReal)
    (hA : ∀ (n : Fin 100000) (k : Fin 8), A (ix2 n k) = agg ei L n k)
    (hU : ∀ (n : Fin 100000) (k : Fin 8), U (ix2 n ⟨k.val, by omega⟩) = L (ix2 n k))
    (hD : ∀ n : Fin 100000, U (ix2 n (8 : Fin 9)) = dinv ei n * dinv ei n)
    (hb : ∀ k : Fin 8, br (ix2 (0 : Fin 1) k) = b2 (ix1 k)) (n : Fin 100000) (j : Fin 8) :
    aug2 A U br n ⟨j.val, by omega⟩ = leaky (pre ei L b2 n j) := by
  unfold aug2
  rw [dif_pos j.isLt]
  have e1 := hA n j
  have e2 := hU n j
  have e3 := hD n
  have e4 := hb j
  unfold pre
  rw [← e1, ← e2, ← e3, ← e4]

/-- The augmented row of kernel 3 at column 8 is one. -/
theorem aug2_last (A : (Sh2 100000 8).Idx → EReal) (U : (Sh2 100000 9).Idx → EReal) (br : (Sh2 1 8).Idx → EReal)
    (n : Fin 100000) : aug2 A U br n (8 : Fin 9) = 1 := by
  unfold aug2
  rw [dif_neg (by decide)]

/-- Kernel 3 of 4: columns 0 … 7 hold the sums of the rectified second layer over each graph, column 8 the count. -/
theorem reg2_eq {ei : IVec (Sh2 2 1600000) 32} (bt : IVec (Sh1 100000) 32) (L : (Sh2 100000 8).Idx → EReal)
    (b2 : (Sh1 8).Idx → EReal)
    (A : (Sh2 100000 8).Idx → EReal) (U : (Sh2 100000 9).Idx → EReal) (br : (Sh2 1 8).Idx → EReal)
    (B : IVec (Sh2 100000 1) 32)
    (hA : ∀ (n : Fin 100000) (k : Fin 8), A (ix2 n k) = agg ei L n k)
    (hU : ∀ (n : Fin 100000) (k : Fin 8), U (ix2 n ⟨k.val, by omega⟩) = L (ix2 n k))
    (hD : ∀ n : Fin 100000, U (ix2 n (8 : Fin 9)) = dinv ei n * dinv ei n)
    (hb : ∀ k : Fin 8, br (ix2 (0 : Fin 1) k) = b2 (ix1 k))
    (hB : ∀ n : Fin 100000, B (ix2 n (0 : Fin 1)) = bt (ix1 n)) :
    (∀ (g : Fin 64) (j : Fin 8), reg2 A U br B (ix2 g ⟨j.val, by omega⟩)
        = psum bt (arr2 fun n c => leaky (pre ei L b2 n c)) g j)
      ∧ (∀ g : Fin 64, reg2 A U br B (ix2 g (8 : Fin 9)) = pcnt bt g) := by
  refine ⟨fun g j => ?_, fun g => ?_⟩
  · simp only [reg2, arr2_ix2, psum, members]
    rw [Finset.sum_filter]
    refine Finset.sum_congr rfl fun n _ => ?_
    rw [hB, hot_eq, aug2_lt L b2 A U br hA hU hD hb n j]
    by_cases h : (bt (ix1 n)).toInt = (g.val : Int)
    · rw [if_pos h, if_pos h, one_mul]
    · rw [if_neg h, if_neg h, zero_mul]
  · simp only [reg2, arr2_ix2, pcnt, members]
    rw [Finset.sum_filter]
    refine Finset.sum_congr rfl fun n _ => ?_
    rw [hB, hot_eq, aug2_last, mul_one]

/-- Kernel 4 of 4 on the pooled sums and counts is the two dense layers on the means with the global features. -/
theorem reg3_eq (bt : IVec (Sh1 100000) 32) (gf : (Sh2 64 24).Idx → EReal) (fW1 : (Sh2 32 16).Idx → EReal)
    (fb1 : (Sh1 16).Idx → EReal) (fW2 : (Sh2 16 1).Idx → EReal) (fb2 : (Sh1 1).Idx → EReal)
    (H : (Sh2 100000 8).Idx → EReal) (S : (Sh2 64 9).Idx → EReal) (b1r : (Sh2 1 16).Idx → EReal)
    (b2r : (Sh2 1 1).Idx → EReal)
    (hS : ∀ (g : Fin 64) (j : Fin 8), S (ix2 g ⟨j.val, by omega⟩) = psum bt H g j)
    (hC : ∀ g : Fin 64, S (ix2 g (8 : Fin 9)) = pcnt bt g)
    (hb1 : ∀ k : Fin 16, b1r (ix2 (0 : Fin 1) k) = fb1 (ix1 k))
    (hb2 : ∀ o : Fin 1, b2r (ix2 (0 : Fin 1) o) = fb2 (ix1 o)) :
    reg3 S gf fW1 b1r fW2 b2r = head fW1 fb1 fW2 fb2 (zcat bt gf H) := by
  have hZ : (arr2 fun (g'' : Fin 64) (q : Fin 32) =>
        if h : q.val < 8 then Ideal.div (S (ix2 g'' ⟨q.val, by omega⟩)) (max (S (ix2 g'' (8 : Fin 9))) 1)
        else gf (ix2 g'' ⟨q.val - 8, by omega⟩)) = zcat bt gf H := by
    funext i
    obtain ⟨g, q, rfl⟩ : ∃ p q, i = ix2 p q := ⟨i 0, i 1, eq_ix2 i⟩
    simp only [zcat, arr2_ix2, pool]
    by_cases h : q.val < 8
    · rw [dif_pos h, dif_pos h, hS g ⟨q.val, h⟩, hC g]
    · rw [dif_neg h, dif_neg h]
  have hB1 : (fun k : Fin 16 => b1r (ix2 (0 : Fin 1) k)) = fun k => fb1 (ix1 k) := funext hb1
  funext i
  obtain ⟨g, o, rfl⟩ : ∃ p q, i = ix2 p q := ⟨i 0, i 1, eq_ix2 i⟩
  unfold reg3 head
  rw [hZ, arr2_ix2, arr2_ix2, hb2 o]
  simp only [hb1]

end Gcn

end
-- ==== Proof.KValue.lean ====
/-
  What the idealized kernel program computes. Its result buffer after the run holds what the fourth kernel writes
  back; read through the eight boundaries of the program — a stretch of host operations, a kernel, and so on — this
  is the network of the specification applied to the twelve argument arrays. Each kernel's output array is a function
  of the arrays it is given; each stretch of host operations between two kernels builds those arrays from the ones
  before: the edge words, the degree normalisation and the edge weights once before the first kernel, then for each
  layer the aggregate over the edges, the table with the self-loop factor appended as a last column, and the bias as
  a row. Every buffer is followed back to the arguments' launch contents.
-/
import proofs.«419935_j81939386073613_2_alg».proof.Proof.Gen.KernelIdeal.Frame
import proofs.«419935_j81939386073613_2_alg».proof.Proof.KFold
import proofs.«419935_j81939386073613_2_alg».proof.Proof.GcnSpec
import proofs.«419935_j81939386073613_2_alg».proof.Proof.GcnBridge

set_option maxRecDepth 16384

noncomputable section

open scoped BigOperators

namespace Cert.KernelIdeal.KValue

open Cert.KernelIdeal Cert.KernelIdeal.Gen Cert.KernelIdeal.KFold
open Idealize.ShloMosaic Idealize.ShloMosaic.TcCoe Idealize.SL.Sem Idealize.ShloMosaic.ValueIdx
open Gcn (Sh1 Sh2)

/-- The contents of every TensorCore buffer of one core, as a region's proof data take them. -/
abbrev VT : Type := (c : Dev nD) → (b : Ref sig .tc) → Buf (Elt Ideal) ((c : Thread nD τ).loc b)

/-- A buffer's contents read at the array type its shape and element type unfold to. -/
abbrev asT (T : Type) (x : T) : T := x

variable (m : (ℓ : Loc nD τ sig) → Buf (Elt Ideal) ℓ) (ρ : Dev nD → PrngReg) (c : Dev nD)

/-! ## The arguments' launch contents -/

abbrev ax : (Sh2 100000 128).Idx → EReal := m ((c : Thread nD τ).loc main_arg0)
abbrev aei : IVec (Sh2 2 1600000) 32 := m ((c : Thread nD τ).loc main_arg1)
abbrev abt : IVec (Sh1 100000) 32 := m ((c : Thread nD τ).loc main_arg2)
abbrev agf : (Sh2 64 24).Idx → EReal := m ((c : Thread nD τ).loc main_arg3)
abbrev aW1 : (Sh2 128 64).Idx → EReal := m ((c : Thread nD τ).loc main_arg4)
abbrev ab1 : (Sh1 64).Idx → EReal := m ((c : Thread nD τ).loc main_arg5)
abbrev aW2 : (Sh2 64 8).Idx → EReal := m ((c : Thread nD τ).loc main_arg6)
abbrev ab2 : (Sh1 8).Idx → EReal := m ((c : Thread nD τ).loc main_arg7)
abbrev afW1 : (Sh2 32 16).Idx → EReal := m ((c : Thread nD τ).loc main_arg8)
abbrev afb1 : (Sh1 16).Idx → EReal := m ((c : Thread nD τ).loc main_arg9)
abbrev afW2 : (Sh2 16 1).Idx → EReal := m ((c : Thread nD τ).loc main_arg10)
abbrev afb2 : (Sh1 1).Idx → EReal := m ((c : Thread nD τ).loc main_arg11)

/-! ## The kernels' outputs and the host stretches, as they are proved elsewhere -/

/-- What each of the four kernels leaves in its output array, from the arrays it is entered with. -/
structure Kernels : Prop where
  k0 : ∀ (V : VT) (c : Dev nD), (dat0 (F := Ideal) V c).arrAt 2 cfg0.N
      = Gcn.hp1 (V c (Pipeline.arrRef spec0 0)) (V c (Pipeline.arrRef spec0 1))
  k1 : ∀ (V : VT) (c : Dev nD), (dat1 (F := Ideal) V c).arrAt 4 cfg1.N
      = Gcn.reg1 (V c (Pipeline.arrRef spec1 0)) (V c (Pipeline.arrRef spec1 1)) (V c (Pipeline.arrRef spec1 2)) (V c (Pipeline.arrRef spec1 3))
  k2 : ∀ (V : VT) (c : Dev nD), (dat2 (F := Ideal) V c).arrAt 4 cfg2.N
      = Gcn.reg2 (V c (Pipeline.arrRef spec2 0)) (V c (Pipeline.arrRef spec2 1)) (V c (Pipeline.arrRef spec2 2)) (V c (Pipeline.arrRef spec2 3))
  k3 : ∀ (V : VT) (c : Dev nD), (dat3 (F := Ideal) V c).arrAt 6 cfg3.N
      = Gcn.reg3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))

/-- What the host operations of the four stretches leave in the buffers the kernels read, at an entry, from any
    contents `W` at the stretch's start. -/
structure Host : Prop where
  v1 : ∀ (W : Valuation τ sig (Elt Ideal)) (e : Fin 1600000),
      asT (IVec (Sh1 1600000) 32) (StableHlo.after hostOps0 W (Proc.devRef .tc main_v1)) (ix1 e) = Gcn.srcW (W (Proc.devRef .tc main_arg1)) e
  v3 : ∀ (W : Valuation τ sig (Elt Ideal)) (e : Fin 1600000),
      asT (IVec (Sh1 1600000) 32) (StableHlo.after hostOps0 W (Proc.devRef .tc main_v3)) (ix1 e) = Gcn.dstW (W (Proc.devRef .tc main_arg1)) e
  v12 : ∀ (W : Valuation τ sig (Elt Ideal)) (n : Fin 100000),
      asT ((Sh2 100000 1).Idx → EReal) (StableHlo.after hostOps0 W (Proc.devRef .tc main_v12)) (ix2 n (0 : Fin 1))
        = Gcn.dinv (W (Proc.devRef .tc main_arg1)) n * Gcn.dinv (W (Proc.devRef .tc main_arg1)) n
  v28 : ∀ (W : Valuation τ sig (Elt Ideal)) (e : Fin 1600000),
      asT ((Sh2 1600000 1).Idx → EReal) (StableHlo.after hostOps0 W (Proc.devRef .tc main_v28)) (ix2 e (0 : Fin 1))
        = Gcn.enorm (W (Proc.devRef .tc main_arg1)) e
  v30lt : ∀ (W : Valuation τ sig (Elt Ideal)) (n : Fin 100000) (k : Fin 64),
      asT ((Sh2 100000 65).Idx → EReal) (StableHlo.after hostOps1 W (Proc.devRef .tc main_v30)) (ix2 n ⟨k.val, by omega⟩)
        = asT ((Sh2 100000 64).Idx → EReal) (W (Proc.devRef .tc main_v29)) (ix2 n k)
  v30last : ∀ (W : Valuation τ sig (Elt Ideal)) (n : Fin 100000),
      asT ((Sh2 100000 65).Idx → EReal) (StableHlo.after hostOps1 W (Proc.devRef .tc main_v30)) (ix2 n (64 : Fin 65))
        = asT ((Sh2 100000 1).Idx → EReal) (W (Proc.devRef .tc main_v12)) (ix2 n (0 : Fin 1))
  v42 : ∀ (W : Valuation τ sig (Elt Ideal)) (n : Fin 100000) (k : Fin 64),
      asT ((Sh2 100000 64).Idx → EReal) (StableHlo.after hostOps1 W (Proc.devRef .tc main_v42)) (ix2 n k)
        = ∑ e ∈ Finset.univ.filter (fun e : Fin 1600000 =>
              (asT (IVec (Sh1 1600000) 32) (W (Proc.devRef .tc main_v3)) (ix1 e)).toInt = (n.val : Int)),
            asT ((Sh2 100000 64).Idx → EReal) (W (Proc.devRef .tc main_v29))
                (ix2 (Gcn.rowOf (asT (IVec (Sh1 1600000) 32) (W (Proc.devRef .tc main_v1)) (ix1 e))) k)
              * asT ((Sh2 1600000 1).Idx → EReal) (W (Proc.devRef .tc main_v28)) (ix2 e (0 : Fin 1))
  v43 : ∀ (W : Valuation τ sig (Elt Ideal)) (k : Fin 64),
      asT ((Sh2 1 64).Idx → EReal) (StableHlo.after hostOps1 W (Proc.devRef .tc main_v43)) (ix2 (0 : Fin 1) k)
        = asT ((Sh1 64).Idx → EReal) (W (Proc.devRef .tc main_arg5)) (ix1 k)
  v45lt : ∀ (W : Valuation τ sig (Elt Ideal)) (n : Fin 100000) (k : Fin 8),
      asT ((Sh2 100000 9).Idx → EReal) (StableHlo.after hostOps2 W (Proc.devRef .tc main_v45)) (ix2 n ⟨k.val, by omega⟩)
        = asT ((Sh2 100000 8).Idx → EReal) (W (Proc.devRef .tc main_v44)) (ix2 n k)
  v45last : ∀ (W : Valuation τ sig (Elt Ideal)) (n : Fin 100000),
      asT ((Sh2 100000 9).Idx → EReal) (StableHlo.after hostOps2 W (Proc.devRef .tc main_v45)) (ix2 n (8 : Fin 9))
        = asT ((Sh2 100000 1).Idx → EReal) (W (Proc.devRef .tc main_v12)) (ix2 n (0 : Fin 1))
  v57 : ∀ (W : Valuation τ sig (Elt Ideal)) (n : Fin 100000) (k : Fin 8),
      asT ((Sh2 100000 8).Idx → EReal) (StableHlo.after hostOps2 W (Proc.devRef .tc main_v57)) (ix2 n k)
        = ∑ e ∈ Finset.univ.filter (fun e : Fin 1600000 =>
              (asT (IVec (Sh1 1600000) 32) (W (Proc.devRef .tc main_v3)) (ix1 e)).toInt = (n.val : Int)),
            asT ((Sh2 100000 8).Idx → EReal) (W (Proc.devRef .tc main_v44))
                (ix2 (Gcn.rowOf (asT (IVec (Sh1 1600000) 32) (W (Proc.devRef .tc main_v1)) (ix1 e))) k)
              * asT ((Sh2 1600000 1).Idx → EReal) (W (Proc.devRef .tc main_v28)) (ix2 e (0 : Fin 1))
  v58 : ∀ (W : Valuation τ sig (Elt Ideal)) (n : Fin 100000),
      asT (IVec (Sh2 100000 1) 32) (StableHlo.after hostOps2 W (Proc.devRef .tc main_v58)) (ix2 n (0 : Fin 1))
        = asT (IVec (Sh1 100000) 32) (W (Proc.devRef .tc main_arg2)) (ix1 n)
  v59 : ∀ (W : Valuation τ sig (Elt Ideal)) (k : Fin 8),
      asT ((Sh2 1 8).Idx → EReal) (StableHlo.after hostOps2 W (Proc.devRef .tc main_v59)) (ix2 (0 : Fin 1) k)
        = asT ((Sh1 8).Idx → EReal) (W (Proc.devRef .tc main_arg7)) (ix1 k)
  v61 : ∀ (W : Valuation τ sig (Elt Ideal)) (k : Fin 16),
      asT ((Sh2 1 16).Idx → EReal) (StableHlo.after hostOps3 W (Proc.devRef .tc main_v61)) (ix2 (0 : Fin 1) k)
        = asT ((Sh1 16).Idx → EReal) (W (Proc.devRef .tc main_arg9)) (ix1 k)
  v62 : ∀ (W : Valuation τ sig (Elt Ideal)) (o : Fin 1),
      asT ((Sh2 1 1).Idx → EReal) (StableHlo.after hostOps3 W (Proc.devRef .tc main_v62)) (ix2 (0 : Fin 1) o)
        = asT ((Sh1 1).Idx → EReal) (W (Proc.devRef .tc main_arg11)) (ix1 o)

variable (K : Kernels) (H : Host)
include K H

/-! ## Before the first kernel: the edge words, the self-loop factor, the edge weights (boundary 1) -/

theorem w1_v1 (e : Fin 1600000) :
    asT (IVec (Sh1 1600000) 32) (W1 m ρ c (Proc.devRef .tc main_v1)) (ix1 e) = Gcn.srcW (aei m c) e := H.v1 (W0 m ρ c) e
theorem w1_v3 (e : Fin 1600000) :
    asT (IVec (Sh1 1600000) 32) (W1 m ρ c (Proc.devRef .tc main_v3)) (ix1 e) = Gcn.dstW (aei m c) e := H.v3 (W0 m ρ c) e
theorem w1_v12 (n : Fin 100000) :
    asT ((Sh2 100000 1).Idx → EReal) (W1 m ρ c (Proc.devRef .tc main_v12)) (ix2 n (0 : Fin 1))
      = Gcn.dinv (aei m c) n * Gcn.dinv (aei m c) n := H.v12 (W0 m ρ c) n
theorem w1_v28 (e : Fin 1600000) :
    asT ((Sh2 1600000 1).Idx → EReal) (W1 m ρ c (Proc.devRef .tc main_v28)) (ix2 e (0 : Fin 1)) = Gcn.enorm (aei m c) e :=
  H.v28 (W0 m ρ c) e

/-- The aggregate a stretch builds from a table at a boundary where the edge words and weights are boundary 1's: the
    specification's sum over the edges landing on the row. -/
theorem agg_of {C : Nat} (L : (Sh2 100000 C).Idx → EReal) (Wv : Valuation τ sig (Elt Ideal))
    (h1 : Wv (Proc.devRef .tc main_v1) = W1 m ρ c (Proc.devRef .tc main_v1))
    (h3 : Wv (Proc.devRef .tc main_v3) = W1 m ρ c (Proc.devRef .tc main_v3))
    (h28 : Wv (Proc.devRef .tc main_v28) = W1 m ρ c (Proc.devRef .tc main_v28)) (n : Fin 100000) (k : Fin C) :
    (∑ e ∈ Finset.univ.filter (fun e : Fin 1600000 =>
          (asT (IVec (Sh1 1600000) 32) (Wv (Proc.devRef .tc main_v3)) (ix1 e)).toInt = (n.val : Int)),
        L (ix2 (Gcn.rowOf (asT (IVec (Sh1 1600000) 32) (Wv (Proc.devRef .tc main_v1)) (ix1 e))) k)
          * asT ((Sh2 1600000 1).Idx → EReal) (Wv (Proc.devRef .tc main_v28)) (ix2 e (0 : Fin 1)))
      = Gcn.agg (aei m c) L n k := by
  rw [h1, h3, h28]
  unfold Gcn.agg Gcn.into
  refine Finset.sum_congr (Finset.filter_congr fun e _ => by rw [w1_v3 m ρ c K H e]) fun e _ => ?_
  rw [w1_v1 m ρ c K H e, w1_v28 m ρ c K H e]

/-! ## The first kernel (boundary 2) -/

theorem w2_v29 : asT ((Sh2 100000 64).Idx → EReal) (W2 m ρ c (Proc.devRef .tc main_v29)) = Gcn.hp1 (ax m c) (aW1 m c) := by
  have h : W2 m ρ c (Proc.devRef .tc main_v29) = (dat0 (V1 m ρ) c).arrAt 2 cfg0.N := W2_arr m ρ c 2
  rw [h, K.k0 (V1 m ρ) c]
  have e0 : V1 m ρ c (Pipeline.arrRef spec0 0) = m ((c : Thread nD τ).loc main_arg0) := W1_main_arg0 m ρ c
  have e1 : V1 m ρ c (Pipeline.arrRef spec0 1) = m ((c : Thread nD τ).loc main_arg4) := W1_main_arg4 m ρ c
  rw [e0, e1]

/-! ## The second kernel (boundaries 3 and 4) -/

theorem w4_v44 : asT ((Sh2 100000 8).Idx → EReal) (W4 m ρ c (Proc.devRef .tc main_v44))
    = Gcn.hp2 (ax m c) (aei m c) (aW1 m c) (ab1 m c) (aW2 m c) := by
  have h : W4 m ρ c (Proc.devRef .tc main_v44) = (dat1 (V3 m ρ) c).arrAt 4 cfg1.N := W4_arr m ρ c 4
  rw [h, K.k1 (V3 m ρ) c]
  have e3 : V3 m ρ c (Pipeline.arrRef spec1 3) = m ((c : Thread nD τ).loc main_arg6) := W3_main_arg6 m ρ c
  rw [e3]
  refine Gcn.reg1_eq (ei := aei m c) (Gcn.hp1 (ax m c) (aW1 m c)) (ab1 m c) (aW2 m c) _ _ _ ?_ ?_ ?_ ?_
  · intro n k
    refine (H.v42 (W2 m ρ c) n k).trans ?_
    rw [w2_v29 m ρ c K H]
    exact agg_of m ρ c K H _ (W2 m ρ c) (W2_main_v1 m ρ c) (W2_main_v3 m ρ c) (W2_main_v28 m ρ c) n k
  · intro n k
    refine (H.v30lt (W2 m ρ c) n k).trans ?_
    rw [w2_v29 m ρ c K H]
  · intro n
    refine (H.v30last (W2 m ρ c) n).trans ?_
    rw [W2_main_v12 m ρ c]
    exact w1_v12 m ρ c K H n
  · intro k
    refine (H.v43 (W2 m ρ c) k).trans ?_
    rw [W2_main_arg5 m ρ c]

/-! ## The third kernel (boundaries 5 and 6) -/

theorem w6_v60 :
    (∀ (g : Fin 64) (j : Fin 8), asT ((Sh2 64 9).Idx → EReal) (W6 m ρ c (Proc.devRef .tc main_v60)) (ix2 g ⟨j.val, by omega⟩)
        = Gcn.psum (abt m c) (Gcn.h2 (ax m c) (aei m c) (aW1 m c) (ab1 m c) (aW2 m c) (ab2 m c)) g j)
      ∧ (∀ g : Fin 64, asT ((Sh2 64 9).Idx → EReal) (W6 m ρ c (Proc.devRef .tc main_v60)) (ix2 g (8 : Fin 9)) = Gcn.pcnt (abt m c) g) := by
  have h : W6 m ρ c (Proc.devRef .tc main_v60) = (dat2 (V5 m ρ) c).arrAt 4 cfg2.N := W6_arr m ρ c 4
  rw [h, K.k2 (V5 m ρ) c]
  refine Gcn.reg2_eq (ei := aei m c) (abt m c) (Gcn.hp2 (ax m c) (aei m c) (aW1 m c) (ab1 m c) (aW2 m c)) (ab2 m c) _ _ _ _ ?_ ?_ ?_ ?_ ?_
  · intro n k
    refine (H.v57 (W4 m ρ c) n k).trans ?_
    rw [w4_v44 m ρ c K H]
    exact agg_of m ρ c K H _ (W4 m ρ c) (W4_main_v1 m ρ c) (W4_main_v3 m ρ c) (W4_main_v28 m ρ c) n k
  · intro n k
    refine (H.v45lt (W4 m ρ c) n k).trans ?_
    rw [w4_v44 m ρ c K H]
  · intro n
    refine (H.v45last (W4 m ρ c) n).trans ?_
    rw [W4_main_v12 m ρ c]
    exact w1_v12 m ρ c K H n
  · intro k
    refine (H.v59 (W4 m ρ c) k).trans ?_
    rw [W4_main_arg7 m ρ c]
  · intro n
    refine (H.v58 (W4 m ρ c) n).trans ?_
    rw [W4_main_arg2 m ρ c]

/-! ## The fourth kernel (boundaries 7 and 8): the result -/

theorem w8_v63 : asT ((Sh2 64 1).Idx → EReal) (W8 m ρ c (Proc.devRef .tc main_v63))
    = Gcn.out (ax m c) (aei m c) (abt m c) (agf m c) (aW1 m c) (ab1 m c) (aW2 m c) (ab2 m c) (afW1 m c) (afb1 m c) (afW2 m c) (afb2 m c) := by
  have h : W8 m ρ c (Proc.devRef .tc main_v63) = (dat3 (V7 m ρ) c).arrAt 6 cfg3.N := W8_arr m ρ c 6
  rw [h, K.k3 (V7 m ρ) c]
  have e0 : V7 m ρ c (Pipeline.arrRef spec3 0) = W6 m ρ c (Proc.devRef .tc main_v60) := W7_main_v60 m ρ c
  have e1 : V7 m ρ c (Pipeline.arrRef spec3 1) = m ((c : Thread nD τ).loc main_arg3) := W7_main_arg3 m ρ c
  have e2 : V7 m ρ c (Pipeline.arrRef spec3 2) = m ((c : Thread nD τ).loc main_arg8) := W7_main_arg8 m ρ c
  have e4 : V7 m ρ c (Pipeline.arrRef spec3 4) = m ((c : Thread nD τ).loc main_arg10) := W7_main_arg10 m ρ c
  rw [e0, e1, e2, e4]
  unfold Gcn.out
  obtain ⟨hS, hC⟩ := w6_v60 m ρ c K H
  refine Gcn.reg3_eq (abt m c) (agf m c) (afW1 m c) (afb1 m c) (afW2 m c) (afb2 m c) _ _ _ _ hS hC ?_ ?_
  · intro k
    refine (H.v61 (W6 m ρ c) k).trans ?_
    rw [W6_main_arg9 m ρ c]
  · intro o
    refine (H.v62 (W6 m ρ c) o).trans ?_
    rw [W6_main_arg11 m ρ c]

end Cert.KernelIdeal.KValue

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.KReg0.lean ====
/-
  REGION 0: THE FIRST PROJECTION x·W1, BLOCK BY BLOCK.

  The region walks the 100000 rows of x in 20 blocks of 5000 rows. At each block it multiplies the block of x, a
  5000×128 matrix, by the whole of W1, a 128×64 matrix, into a zero block: entry (a, b) of the result is
  Σ_k x[5000·t + a, k] · W1[k, b]. The block lands on rows 5000·t … 5000·t + 4999 of the output. Every row n of the output
  lies in exactly the block t = n / 5000, so the output array ends holding, at (n, b), Σ_k x[n, k] · W1[k, b]: the
  product x·W1.
-/
import proofs.«419935_j81939386073613_2_alg».proof.Proof.Gen.KernelIdeal.Frame
import proofs.«419935_j81939386073613_2_alg».proof.Proof.GcnSpec
import proofs.«419935_j81939386073613_2_alg».proof.Proof.LibBlockOps
import Idealize.ShloMosaic.Lib.Pipeline.Value
import Idealize.ShloMosaic.PureOps.Ideal.Laws
import Idealize.ShloMosaic.Lib.ValueIdx
import Idealize.ShloMosaic.Lib.ValueLayout

noncomputable section

open scoped BigOperators

namespace Cert.KernelIdeal.KReg0

open Cert.KernelIdeal Cert.KernelIdeal.Gen Idealize.ShloMosaic Idealize.ShloMosaic.TcCoe Idealize.SL.Sem
open Idealize.ShloMosaic.Pipeline (Dat)
open Idealize.ShloMosaic.ValueIdx

/-- The block product at an entry: the sum over the 128 contracted coordinates of the products of the entries. -/
theorem pay_apply (x0 : Vec Ideal S5000x128 .f32) (x1 : Vec Ideal S128x64 .f32) (a : Fin 5000) (b : Fin 64) :
    k0_pay1 (F := Ideal) x0 x1 (ix2 a b) = ∑ k : Fin 128, x0 (ix2 a k) * x1 (ix2 k b) := by
  unfold k0_pay1
  exact BlockOps.matmul_zero_apply dot_S5000x128_S128x64_S5000x64_1_0_0_1_n_n_wf none
    (truncf .bf16 x0 bitsLt_bf16_f32) (truncf .bf16 x1 bitsLt_bf16_f32) a b

section Region
variable (V : (c : Dev nD) → (b : Ref sig .tc) → Buf (Elt Ideal) ((c : Thread nD τ).loc b))

theorem hz : (![0, 0] : Fin 2 → Nat) = fun _ => 0 := funext fun a => by fin_cases a <;> rfl

/-- The index maps over the 20 points: the blocks of x and of the output move down the rows with the point, the block of
    W1 is the whole matrix at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row a of the block of x at point t is row 5000·t + a of x. -/
theorem iblk_x (c : Dev nD) (t : Fin cfg0.N) (a : Fin 5000) (k : Fin 128) (n : Fin 100000)
    (hn : n.val = 5000 * t.val + a.val) :
    (iblk0 V c 0 t : Vec Ideal S5000x128 .f32) (ix2 a k)
      = (V c (Pipeline.arrRef spec0 0) : S100000x128.Idx → EReal) (ix2 n k) := by
  obtain ⟨e0, e1, -⟩ := idx_facts t
  unfold iblk0
  rw [View.read_apply]
  show (V c (Pipeline.arrRef spec0 0) : S100000x128.Idx → EReal) _ = _
  congr 1
  funext ax
  apply Fin.ext
  match ax with
  | ⟨0, _⟩ => show win0_0.index t (0 : Fin 2) * 5000 + 1 * a.val = n.val; rw [e0, hn]; omega
  | ⟨1, _⟩ => show win0_0.index t (1 : Fin 2) * 128 + 1 * k.val = k.val; rw [e1]; omega

/-- The block of W1 at every point is W1. -/
theorem iblk_w (c : Dev nD) (t : Fin cfg0.N) (k : Fin 128) (b : Fin 64) :
    (iblk0 V c 1 t : Vec Ideal S128x64 .f32) (ix2 k b)
      = (V c (Pipeline.arrRef spec0 1) : S128x64.Idx → EReal) (ix2 k b) := by
  obtain ⟨-, -, e2, e3, -⟩ := idx_facts t
  unfold iblk0
  rw [View.read_apply]
  show (V c (Pipeline.arrRef spec0 1) : S128x64.Idx → EReal) _ = _
  congr 1
  funext ax
  apply Fin.ext
  match ax with
  | ⟨0, _⟩ => show win0_1.index t (0 : Fin 2) * 128 + 1 * k.val = k.val; rw [e2]; omega
  | ⟨1, _⟩ => show win0_1.index t (1 : Fin 2) * 64 + 1 * b.val = b.val; rw [e3]; omega

/-- The product at an index whose coordinates are (n, b). -/
theorem hp1_at (x : (Gcn.Sh2 100000 128).Idx → EReal) (W : (Gcn.Sh2 128 64).Idx → EReal) (i : (Gcn.Sh2 100000 64).Idx)
    (n : Fin 100000) (b : Fin 64) (h0 : (i 0).val = n.val) (h1 : (i 1).val = b.val) :
    Gcn.hp1 x W i = Gcn.mmAt x W n b := by
  have hi : i = ix2 n b := by
    funext ax
    apply Fin.ext
    match ax with
    | ⟨0, _⟩ => exact h0
    | ⟨1, _⟩ => exact h1
  rw [hi]; rfl

/-- Entry (a, b) of what point t computes is entry (5000·t + a, b) of x·W1. -/
theorem blk_entry (c : Dev nD) (t : Fin cfg0.N) (a : Fin 5000) (b : Fin 64) (n : Fin 100000)
    (hn : n.val = 5000 * t.val + a.val) :
    k0_pay1 (F := Ideal) (iblk0 V c 0 t) (iblk0 V c 1 t) (ix2 a b)
      = Gcn.mmAt (V c (Pipeline.arrRef spec0 0)) (V c (Pipeline.arrRef spec0 1)) n b := by
  rw [pay_apply]
  unfold Gcn.mmAt
  refine Finset.sum_congr rfl fun k _ => ?_
  rw [iblk_x V c t a k n hn, iblk_w V c t k b]

/-- What point t writes back is block t of x·W1. -/
theorem flushed_eq (c : Dev nD) (t : Fin cfg0.N) :
    (dat0 (F := Ideal) V c).flushed 2 t
      = ((cfg0.win 2).blk t).view.read (Elt Ideal)
          (Gcn.hp1 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idx_facts t
  have hN : cfg0.N = 20 := N_0
  have ht : t.val < 20 := hN ▸ t.isLt
  funext j
  have ha : (j 0).val < 5000 := (j 0).isLt
  have hb : (j 1).val < 64 := (j 1).isLt
  obtain ⟨a, b, rfl⟩ : ∃ (a : Fin 5000) (b : Fin 64), j = ix2 a b :=
    ⟨⟨(j 0).val, ha⟩, ⟨(j 1).val, hb⟩, by funext ax; match ax with | ⟨0, _⟩ => rfl | ⟨1, _⟩ => rfl⟩
  show k0_pay1 (F := Ideal) (iblk0 V c 0 t) (iblk0 V c 1 t) (ix2 a b)
    = Gcn.hp1 (V c (Pipeline.arrRef spec0 0)) (V c (Pipeline.arrRef spec0 1)) (((cfg0.win 2).blk t).view.emb (ix2 a b))
  refine (blk_entry V c t a b ⟨5000 * t.val + a.val, by have := a.isLt; omega⟩ rfl).trans ?_
  refine (hp1_at _ _ _ _ _ ?_ ?_).symm
  · show win0_2.index t (0 : Fin 2) * 5000 + 1 * a.val = 5000 * t.val + a.val
    rw [e4]; omega
  · show win0_2.index t (1 : Fin 2) * 64 + 1 * b.val = b.val
    rw [e5]; omega

/-- Every index of the output lies in the block of the point its row falls in. -/
theorem covered (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  obtain ⟨-, -, -, -, e4, e5⟩ := idx_facts t
  have e4' : win0_2.index t (0 : Fin 2) = (i 0).val / 5000 := e4
  refine ⟨t, flush0_2 t, ?_⟩
  show i ∈ ((View.whole main_v29).slice (win0_2.rect t)).set
  rw [View.set_slice_whole, Rect.mem_set_unit]
  intro ax
  match ax with
  | ⟨0, _⟩ =>
    show win0_2.index t (0 : Fin 2) * 5000 ≤ (i 0).val ∧ (i 0).val < win0_2.index t (0 : Fin 2) * 5000 + 5000
    rw [e4']; omega
  | ⟨1, _⟩ =>
    show win0_2.index t (1 : Fin 2) * 64 ≤ (i 1).val ∧ (i 1).val < win0_2.index t (1 : Fin 2) * 64 + 64
    rw [e5]; omega

/-- THE REGION'S VALUE: its output array ends holding x·W1. -/
theorem val (c : Dev nD) :
    (Gen.dat0 (F := Ideal) V c).arrAt 2 cfg0.N
      = Gcn.hp1 (V c (Pipeline.arrRef spec0 0)) (V c (Pipeline.arrRef spec0 1)) :=
  (dat0 (F := Ideal) V c).arrAt_eq_of_cover 2 _ (fun t _ => flushed_eq V c t) covered

end Region

end Cert.KernelIdeal.KReg0

end
-- ==== Proof.KReg1.lean ====
/-
  What the second of the four kernels leaves in its output array, as one function of the arrays it is given, on the
  extended reals.

  Per row n of the 100000 and output column j of the 8: with v(n, k) = A[n, k] + U[n, k] · U[n, 64] + b[0, k] for the 64
  columns k, the result is Σ_k leaky(v(n, k)) · W[k, j]. The kernel works on blocks of 2000 rows; the 50 blocks tile the
  rows, the bias row and W are read whole at every block, and each block's result is the corresponding block of the one
  whole-array function.
-/
import proofs.«419935_j81939386073613_2_alg».proof.Proof.Gen.KernelIdeal.Frame
import proofs.«419935_j81939386073613_2_alg».proof.Proof.GcnSpec
import proofs.«419935_j81939386073613_2_alg».proof.Proof.LibBlockOps
import Idealize.ShloMosaic.Lib.Pipeline.Value
import Idealize.ShloMosaic.PureOps.Ideal.Laws
import Idealize.ShloMosaic.Lib.ValueIdx
import Idealize.ShloMosaic.Lib.ValueLayout

noncomputable section

open scoped BigOperators

namespace Cert.KernelIdeal.KReg1

open Cert.KernelIdeal Cert.KernelIdeal.Gen Idealize.ShloMosaic Idealize.ShloMosaic.TcCoe Idealize.SL.Sem
open Idealize.ShloMosaic.Pipeline (Dat)
open Idealize.ShloMosaic.ValueIdx

/-! ## The body's arithmetic at an entry -/

/-- The rectifier as the kernel spells it — keep v where v > 0, else the slope times v — is the leaky rectifier. -/
theorem select_eq_leaky (v : EReal) :
    Scalar.select (Ideal.cmp .ogt v (Ideal.ofBits .f32 0x00000000#32)) v (Ideal.ofBits .f32 0x3C23D70A#32 * v) = Gcn.leaky v := by
  unfold Gcn.leaky Gcn.slope Scalar.select Ideal.cmp
  rw [Ideal.ofBits_zero_f32]
  by_cases h : (0 : EReal) < v
  · rw [if_pos h]
    show (if BitVec.ofBool (decide (0 < v)) = 1 then v else _) = v
    rw [decide_eq_true h]; rfl
  · rw [if_neg h]
    show (if BitVec.ofBool (decide (0 < v)) = 1 then v else _) = _
    rw [decide_eq_false h]; rfl

/-- The value before the rectifier, as the body builds it from its three blocks. -/
def preBlk (x0 : Vec Ideal S2000x64 .f32) (x1 : Vec Ideal S2000x65 .f32) (x2 : Vec Ideal S1x64 .f32) : FVec Ideal S2000x64 .f32 :=
  addf (addf (shapeCast S2000x64 x0 shapeCasts_S2000x64_S2000x64)
      (mulf (extractStridedSlice S2000x64 ![0, 0] (shapeCast S2000x65 x1 shapeCasts_S2000x65_S2000x65) slices_S2000x65_o0_0_S2000x64)
        (broadcastTo S2000x64 (extractStridedSlice S2000x1 ![0, 64] (shapeCast S2000x65 x1 shapeCasts_S2000x65_S2000x65) slices_S2000x65_o0_64_S2000x1)
          broadcasts_S2000x1_S2000x64)))
    (broadcastTo S2000x64 (shapeCast S1x64 x2 shapeCasts_S1x64_S1x64) broadcasts_S1x64_S2000x64)

/-- At row p and column k it is A[p, k] + U[p, k] · U[p, 64] + b[0, k]. -/
theorem preBlk_apply (x0 : Vec Ideal S2000x64 .f32) (x1 : Vec Ideal S2000x65 .f32) (x2 : Vec Ideal S1x64 .f32)
    (p : Fin 2000) (k : Fin 64) :
    preBlk x0 x1 x2 (ix2 p k)
      = x0 (ix2 p k) + x1 (ix2 p (⟨k.val, by omega⟩ : Fin 65)) * x1 (ix2 p (64 : Fin 65)) + x2 (ix2 (0 : Fin 1) k) := by
  unfold preBlk
  rw [addf_apply, addf_apply, mulf_apply, shapeCast_self, shapeCast_self, shapeCast_self,
    BlockOps.broadcastTo_a1_ab_apply, broadcastTo_1b_ab_apply,
    slice2_axis1_apply 0 x1 slices_S2000x65_o0_0_S2000x64 p k (⟨k.val, by omega⟩ : Fin 65) (by simp),
    slice2_axis1_apply 64 x1 slices_S2000x65_o0_64_S2000x1 p (0 : Fin 1) (64 : Fin 65) (by rfl)]

/-- The body's result as the product of the rectified block with W into the zero block. -/
theorem pay_eq (x0 : Vec Ideal S2000x64 .f32) (x1 : Vec Ideal S2000x65 .f32) (x2 : Vec Ideal S1x64 .f32) (x3 : Vec Ideal S64x8 .f32) :
    k1_pay1 (F := Ideal) x0 x1 x2 x3
      = matmul dot_S2000x64_S64x8_S2000x8_1_0_0_1_n_n none
          (truncf .bf16 (select (cmpf .ogt (preBlk x0 x1 x2) (broadcast S2000x64 (Scalar.ofBits .f32 0x00000000#32)))
            (preBlk x0 x1 x2) (mulf (broadcast S2000x64 (Scalar.ofBits .f32 0x3C23D70A#32)) (preBlk x0 x1 x2))) bitsLt_bf16_f32)
          (truncf .bf16 x3 bitsLt_bf16_f32) (constant (F := Ideal) S2000x8 .f32 0x00000000#32) := rfl

/-- Row p, column q of the body's result is Σ_k leaky(A[p, k] + U[p, k] · U[p, 64] + b[0, k]) · W[k, q], the sum over the 64
    columns k of the blocks it is given. -/
theorem pay_apply (x0 : Vec Ideal S2000x64 .f32) (x1 : Vec Ideal S2000x65 .f32) (x2 : Vec Ideal S1x64 .f32) (x3 : Vec Ideal S64x8 .f32)
    (p : Fin 2000) (q : Fin 8) :
    k1_pay1 (F := Ideal) x0 x1 x2 x3 (ix2 p q)
      = ∑ k : Fin 64, Gcn.leaky (x0 (ix2 p k) + x1 (ix2 p (⟨k.val, by omega⟩ : Fin 65)) * x1 (ix2 p (64 : Fin 65)) + x2 (ix2 (0 : Fin 1) k))
          * x3 (ix2 k q) := by
  rw [pay_eq]
  refine (BlockOps.matmul_zero_apply dot_S2000x64_S64x8_S2000x8_1_0_0_1_n_n_wf none _ _ p q).trans ?_
  refine Finset.sum_congr rfl fun k _ => ?_
  rw [truncf_apply, truncf_apply, select_apply, cmpf_apply, mulf_apply, broadcast_apply, broadcast_apply, preBlk_apply]
  exact congrArg (· * x3 (ix2 k q)) (select_eq_leaky _)

/-! ## The fifty blocks of rows make up the array -/

/-- The offset (0, 0) is the zero offset. -/
theorem zero_off : (![0, 0] : Fin 2 → Nat) = fun _ => 0 := funext fun a => by fin_cases a <;> rfl

/-- Where each block sits at grid point t: the aggregate's, the table's and the output's blocks at block row t and column
    block 0; the bias row and W at block (0, 0), whole. Checked over the 50 points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point's number is below 50. -/
theorem t_lt (t : Fin cfg1.N) : t.val < 50 := lt_of_lt_of_eq t.isLt N_1

/-- Row p of block t is row 2000·t + p of the array. -/
abbrev rowAt (t : Fin cfg1.N) (p : Fin 2000) : Fin 100000 := ⟨t.val * 2000 + p.val, by have := t_lt t; have := p.isLt; omega⟩

/-- Entry (p, k) of the aggregate's block at point t is entry (2000·t + p, k) of the aggregate. -/
theorem emb0 (t : Fin cfg1.N) (p : Fin 2000) (k : Fin 64) :
    ((cfg1.win 0).blk t).view.emb (ix2 p k) = ix2 (rowAt t p) k := by
  obtain ⟨e00, e01, e10, e11, e20, e21, e30, e31, e40, e41⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 64 + 1 * k.val = k.val; omega

/-- Entry (p, k) of the table's block at point t is entry (2000·t + p, k) of the table. -/
theorem emb1 (t : Fin cfg1.N) (p : Fin 2000) (k : Fin 65) :
    ((cfg1.win 1).blk t).view.emb (ix2 p k) = ix2 (rowAt t p) k := by
  obtain ⟨e00, e01, e10, e11, e20, e21, e30, e31, e40, e41⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 65 + 1 * k.val = k.val; omega

/-- The bias row's block is the bias row itself. -/
theorem emb2 (t : Fin cfg1.N) (z : Fin 1) (k : Fin 64) :
    ((cfg1.win 2).blk t).view.emb (ix2 z k) = ix2 (0 : Fin 1) k := by
  obtain ⟨e00, e01, e10, e11, e20, e21, e30, e31, e40, e41⟩ := idx_facts t
  funext a; apply Fin.ext
  match a with
  | ⟨0, _⟩ => show win1_2.index t (0 : Fin 2) * 1 + 1 * z.val = 0; have := z.isLt; omega
  | ⟨1, _⟩ => show win1_2.index t (1 : Fin 2) * 64 + 1 * k.val = k.val; omega

/-- W's block is W itself. -/
theorem emb3 (t : Fin cfg1.N) (k : Fin 64) (q : Fin 8) :
    ((cfg1.win 3).blk t).view.emb (ix2 k q) = ix2 k q := by
  obtain ⟨e00, e01, e10, e11, e20, e21, e30, e31, e40, e41⟩ := idx_facts t
  funext a; apply Fin.ext
  match a with
  | ⟨0, _⟩ => show win1_3.index t (0 : Fin 2) * 64 + 1 * k.val = k.val; omega
  | ⟨1, _⟩ => show win1_3.index t (1 : Fin 2) * 8 + 1 * q.val = q.val; omega

/-- Entry (p, q) of the output's block at point t is entry (2000·t + p, q) of the output array. -/
theorem emb4 (t : Fin cfg1.N) (p : Fin 2000) (q : Fin 8) :
    ((cfg1.win 4).blk t).view.emb (ix2 p q) = ix2 (rowAt t p) q := by
  obtain ⟨e00, e01, e10, e11, e20, e21, e30, e31, e40, e41⟩ := idx_facts t
  funext a; apply Fin.ext
  match a with
  | ⟨0, _⟩ => show win1_4.index t (0 : Fin 2) * 2000 + 1 * p.val = t.val * 2000 + p.val; omega
  | ⟨1, _⟩ => show win1_4.index t (1 : Fin 2) * 8 + 1 * q.val = q.val; omega

variable (V : (c : Dev nD) → (b : Ref sig .tc) → Buf (Elt Ideal) ((c : Thread nD τ).loc b))

/-- The four arrays the region reads, as tables of extended reals: the aggregate, the table with the extra column, the
    bias row, W. -/
abbrev inA (c : Dev nD) : (Gcn.Sh2 100000 64).Idx → EReal := V c (Pipeline.arrRef spec1 0)
abbrev inU (c : Dev nD) : (Gcn.Sh2 100000 65).Idx → EReal := V c (Pipeline.arrRef spec1 1)
abbrev inB (c : Dev nD) : (Gcn.Sh2 1 64).Idx → EReal := V c (Pipeline.arrRef spec1 2)
abbrev inW (c : Dev nD) : (Gcn.Sh2 64 8).Idx → EReal := V c (Pipeline.arrRef spec1 3)

/-- The 2000 rows that grid point t sends to the output array are rows 2000·t … 2000·t + 1999 of the one whole-array function
    of the four arrays the region is given. -/
theorem flushed_eq (c : Dev nD) (t : Fin cfg1.N) :
    (Gen.dat1 (F := Ideal) V c).flushed 4 t
      = ((cfg1.win 4).blk t).view.read (Elt Ideal)
          (Gcn.reg1 (V c (Pipeline.arrRef spec1 0)) (V c (Pipeline.arrRef spec1 1)) (V c (Pipeline.arrRef spec1 2)) (V c (Pipeline.arrRef spec1 3))) := by
  show (cfg1.win 4).cut (grid1.coords t) ((Gen.dat1 (F := Ideal) V c).after 4 t) = _
  rw [after1_4]
  unfold out1_4
  rw [View.canon_unit_zero zero_off]
  simp only [View.ld_unit_zero (S := S2000x64) zero_off, View.ld_unit_zero (S := S2000x65) zero_off,
    View.ld_unit_zero (S := S1x64) zero_off, View.ld_unit_zero (S := S64x8) zero_off]
  funext j
  obtain ⟨p, q, rfl⟩ : ∃ (p : Fin 2000) (q : Fin 8), j = ix2 p q := ⟨j 0, j 1, eq_ix2 j⟩
  show k1_pay1 (F := Ideal) (iblk1 V c 0 t) (iblk1 V c 1 t) (iblk1 V c 2 t) (iblk1 V c 3 t) (ix2 p q)
    = Gcn.reg1 (V c (Pipeline.arrRef spec1 0)) (V c (Pipeline.arrRef spec1 1)) (V c (Pipeline.arrRef spec1 2)) (V c (Pipeline.arrRef spec1 3))
        (((cfg1.win 4).blk t).view.emb (ix2 p q))
  rw [emb4]
  refine (pay_apply (iblk1 V c 0 t) (iblk1 V c 1 t) (iblk1 V c 2 t) (iblk1 V c 3 t) p q).trans ?_
  show _ = ∑ k : Fin 64, Gcn.leaky (inA V c (ix2 (rowAt t p) k)
      + inU V c (ix2 (rowAt t p) (⟨k.val, by omega⟩ : Fin 65)) * inU V c (ix2 (rowAt t p) (64 : Fin 65))
      + inB V c (ix2 (0 : Fin 1) k)) * inW V c (ix2 k q)
  refine Finset.sum_congr rfl fun k _ => ?_
  show Gcn.leaky (inA V c (((cfg1.win 0).blk t).view.emb (ix2 p k))
      + inU V c (((cfg1.win 1).blk t).view.emb (ix2 p (⟨k.val, by omega⟩ : Fin 65)))
        * inU V c (((cfg1.win 1).blk t).view.emb (ix2 p (64 : Fin 65)))
      + inB V c (((cfg1.win 2).blk t).view.emb (ix2 (0 : Fin 1) k)))
      * inW V c (((cfg1.win 3).blk t).view.emb (ix2 k q)) = _
  rw [emb0, emb1, emb1, emb2, emb3]

/-- Membership in the rows and columns of point t's output block, as two inequalities per axis. -/
theorem mem_blk (t : Fin cfg1.N) (i : S100000x8.Idx) :
    i ∈ ((cfg1.win 4).blk t).view.set
      ↔ ∀ a : Fin 2, win1_4.index t a * S2000x8.size a ≤ (i a).val ∧ (i a).val < win1_4.index t a * S2000x8.size a + S2000x8.size a := by
  show i ∈ ((View.whole main_v44).slice (win1_4.rect t)).set ↔ _
  rw [View.set_slice_whole, Rect.mem_set_unit]
  exact Iff.rfl

/-- Each of the numbers 0 … 49 is the number of a grid point. -/
theorem pt_onto : ∀ q : Fin 50, ∃ t : Fin cfg1.N, t.val = q.val :=
  (by decide +kernel : ∀ q : Fin 50, ∃ t : Fin grid1.N, t.val = q.val)

/-- No row of the output array is left out: row r lies in the block of grid point r / 2000, and every column in its one
    column block. -/
theorem cover (i : S100000x8.Idx) :
    ∃ t : Fin cfg1.N, (cfg1.win 4).flush t = true ∧ i ∈ ((cfg1.win 4).blk t).view.set := by
  have hi0 : (i 0).val < 100000 := (i 0).isLt
  have hi1 : (i 1).val < 8 := (i 1).isLt
  obtain ⟨t, ht⟩ := pt_onto ⟨(i 0).val / 2000, by omega⟩
  have ht' : t.val = (i 0).val / 2000 := ht
  obtain ⟨e00, e01, e10, e11, e20, e21, e30, e31, e40, e41⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 8 ≤ (i 1).val ∧ (i 1).val < win1_4.index t (1 : Fin 2) * 8 + 8; omega

/-- After the 50 grid points the output array holds, at row n and column j, Σ_k leaky(A[n, k] + U[n, k] · U[n, 64] + b[0, k]) · W[k, j]:
    the layer's value from the aggregate A, the table U with its extra column and the bias row b, rectified and multiplied by W. -/
theorem val (c : Dev nD) :
    (Gen.dat1 (F := Ideal) V c).arrAt 4 cfg1.N
      = Gcn.reg1 (V c (Pipeline.arrRef spec1 0)) (V c (Pipeline.arrRef spec1 1)) (V c (Pipeline.arrRef spec1 2)) (V c (Pipeline.arrRef spec1 3)) :=
  (Gen.dat1 (F := Ideal) V c).arrAt_eq_of_cover 4 _ (fun t _ => flushed_eq V c t) cover

end Cert.KernelIdeal.KReg1

end
-- ==== Proof.KReg2.lean ====
/-
  The pooling region: what it leaves in its [64, 9] output array, as one function of the four arrays it is given.

  The region walks the 100000 rows in 50 blocks of 2000. For a block it forms, per row, the second layer's rectified
  output row — aggregate + table entry · the table's last column + bias, through the leaky rectifier — with a one
  appended (9 columns), and the 0/1 indicator of the row's batch word against each of the 64 graph numbers; it then
  contracts the 2000 rows of the two: entry (g, q) of the block's product is the sum over the block's rows of
  indicator(row, g) · augmented(row, q). The product is added onto a [64, 9] block that is zeroed at the first block
  and carried from block to block, and written to the array once, after the last.

  So after block t the carried block holds, at (g, q), the sum over the rows below 2000·(t + 1) of the row's term
  (induction on t; zero plus a sum is the sum; a sum over a longer range splits into the shorter range and the new
  block's 2000 terms), and after the last block the sum over all 100000 rows, which is the pooled sum Gcn.reg2:
  columns 0 … 7 the per-graph sums of the rectified rows, column 8 the per-graph row counts. Only re-association of
  sums over the extended reals is used; no finiteness is needed.
-/
import proofs.«419935_j81939386073613_2_alg».proof.Proof.Gen.KernelIdeal.Frame
import proofs.«419935_j81939386073613_2_alg».proof.Proof.GcnSpec
import proofs.«419935_j81939386073613_2_alg».proof.Proof.LibBlockOps
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic
import Idealize.ShloMosaic.Lib.IdealHost

noncomputable section

open scoped BigOperators
open Idealize.ShloMosaic Idealize.ShloMosaic.TcCoe Idealize.SL.Sem
open Idealize.ShloMosaic.Pipeline (Dat)

namespace Cert.KernelIdeal.KReg2

open Cert.KernelIdeal Cert.KernelIdeal.Gen Idealize.ShloMosaic.ValueIdx

/-! ## What one grid point leaves in the carried block

The body at a point stores, in the [64, 9] block, its one sum-and-add term over the blocks it is given; at the first point
it has first stored the zero block and reads that back. -/

section Pieces
variable {F : FTy → Type} [FloatOps F]

theorem hz : (![0, 0] : Fin 2 → Nat) = fun _ => 0 := funext fun a => by fin_cases a <;> rfl

/-- A later point: the block holding `xo` ends at the update of `xo` by this point's 2000 rows. -/
theorem out_B (c : Dev nD) (i : grid2.Coords)
    (a1 : Memref sig .tc .vmem S2000x8 .f32) (h1 : a1.IsWhole) (a2 : Memref sig .tc .vmem S2000x9 .f32) (h2 : a2.IsWhole)
    (a3 : Memref sig .tc .vmem S1x8 .f32) (h3 : a3.IsWhole) (a4 : Memref sig .tc .vmem S2000x1 .i32) (h4 : a4.IsWhole)
    (a5 : Memref sig .tc .vmem S64x9 .f32) (h5 : a5.IsWhole) (hc : ¬cond2_0 i)
    (x0 : Vec F S2000x8 .f32) (x1 : Vec F S2000x9 .f32) (x2 : Vec F S1x8 .f32) (x3 : Vec F S2000x1 .i32)
    (xo : Vec F S64x9 .f32) :
    out2_B_4 c i a1 h1 a2 h2 a3 h3 a4 h4 a5 h5 hc x0 x1 x2 x3 xo = k2_pay2 x0 x1 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  sl_unfold_words
  rw [View.canon_unit_zero hz]
  simp only [View.readAt_eq_ld, h1.read_unread, h2.read_unread, h3.read_unread, h4.read_unread, h5.read_unread,
    View.ld_unit_zero (S := S2000x8) hz, View.ld_unit_zero (S := S2000x9) hz, View.ld_unit_zero (S := S1x8) hz,
    View.ld_unit_zero (S := S2000x1) hz, View.ld_unit_zero (S := S64x9) hz]

/-- The first point: the block is zeroed, and ends at the update of the zero block by this point's 2000 rows. -/
theorem out_A (c : Dev nD) (i : grid2.Coords)
    (a1 : Memref sig .tc .vmem S2000x8 .f32) (h1 : a1.IsWhole) (a2 : Memref sig .tc .vmem S2000x9 .f32) (h2 : a2.IsWhole)
    (a3 : Memref sig .tc .vmem S1x8 .f32) (h3 : a3.IsWhole) (a4 : Memref sig .tc .vmem S2000x1 .i32) (h4 : a4.IsWhole)
    (a5 : Memref sig .tc .vmem S64x9 .f32) (h5 : a5.IsWhole) (hc : cond2_0 i)
    (x0 : Vec F S2000x8 .f32) (x1 : Vec F S2000x9 .f32) (x2 : Vec F S1x8 .f32) (x3 : Vec F S2000x1 .i32) :
    out2_A_4 c i a1 h1 a2 h2 a3 h3 a4 h4 a5 h5 hc x0 x1 x2 x3 = k2_pay2 x0 x1 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x9) hz, View.readCov_unit_zero (S := S64x9) _ hz]
  simp only [View.readAt_eq_ld, h1.read_unread, h2.read_unread, h3.read_unread, h4.read_unread,
    View.ld_unit_zero (S := S2000x8) hz, View.ld_unit_zero (S := S2000x9) hz, View.ld_unit_zero (S := S1x8) hz,
    View.ld_unit_zero (S := S2000x1) hz]

end Pieces

/-! ## A product contracting the rows of both factors

The block product here sums over the FIRST axis of both factors: entry (a, b) of the [m, n] result is the sum over the
k rows c of L[c, a] · R[c, b]. -/

section RowsProduct
variable {m k n : Nat}

/-- Its dimension numbers: contract axis 0 of both factors; the columns of each survive. -/
abbrev rowsDims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left factor's index at result entry (a, b) and contracted row c is (c, a). -/
theorem rowsDims_lhsIdx (w : DotDims.WF ⟨2, ![k, m]⟩ ⟨2, ![k, n]⟩ ⟨2, ![m, n]⟩ [0] [0] [1] [1] [] [])
    (a : Fin m) (b : Fin n) (c : Fin k) :
    (rowsDims w).lhsIdx (ix2 a b) ((contrEquiv1 (rowsDims w) k rfl rfl).symm c) = ix2 c a := by
  have c2 := contrEquiv1_symm_val (rowsDims w) k rfl rfl c
  funext ax; apply Fin.ext
  match ax with
  | ⟨0, _⟩ => simp [DotDims.lhsIdx]; exact c2
  | ⟨1, _⟩ => simp [DotDims.lhsIdx]; rfl

/-- The right factor's index there is (c, b). -/
theorem rowsDims_rhsIdx (w : DotDims.WF ⟨2, ![k, m]⟩ ⟨2, ![k, n]⟩ ⟨2, ![m, n]⟩ [0] [0] [1] [1] [] [])
    (a : Fin m) (b : Fin n) (c : Fin k) :
    (rowsDims w).rhsIdx (ix2 a b) ((contrEquiv1 (rowsDims w) k rfl rfl).symm c) = ix2 c b := by
  have c2 := contrEquiv1_symm_val (rowsDims w) k rfl rfl c
  funext ax; apply Fin.ext
  match ax with
  | ⟨0, _⟩ => simp [DotDims.rhsIdx]; exact c2
  | ⟨1, _⟩ => simp [DotDims.rhsIdx]; rfl

/-- The product into the zero block at entry (a, b): the sum over the rows c of L[c, a] · R[c, b]. -/
theorem rows_matmul_zero_apply {φ₁ φ₂ : FTy}
    (w : DotDims.WF ⟨2, ![k, m]⟩ ⟨2, ![k, n]⟩ ⟨2, ![m, n]⟩ [0] [0] [1] [1] [] [])
    (prec : Option ContractPrecision) (L : FVec Ideal ⟨2, ![k, m]⟩ φ₁) (R : FVec Ideal ⟨2, ![k, n]⟩ φ₂)
    (a : Fin m) (b : Fin n) :
    FloatOps.matmul (rowsDims w) prec L R (constant (F := Ideal) ⟨2, ![m, n]⟩ .f32 0x00000000#32) (ix2 a b)
      = ∑ c : Fin k, L (ix2 c a) * R (ix2 c b) := by
  rw [Ideal.matmul_constant_zero_apply, ← Equiv.sum_comp (contrEquiv1 (rowsDims w) k rfl rfl).symm]
  refine Finset.sum_congr rfl fun c _ => ?_
  rw [rowsDims_lhsIdx, rowsDims_rhsIdx]

end RowsProduct

/-! ## The point's term at an entry

At the extended reals the update of the carried block at entry (g, q) adds, over the 2000 rows r of the point's blocks,
the indicator that row r's batch word names graph g times entry q of row r's rectified layer row with a one appended. -/

section Payload

/-- A block's rectified layer row with a one appended: row r of the 2000 rows, column q of 9. -/
def augB (x0 : S2000x8.Idx → EReal) (x1 : S2000x9.Idx → EReal) (x2 : S1x8.Idx → EReal) (r : Fin 2000) (q : Fin 9) : EReal :=
  if h : q.val < 8 then
    Gcn.leaky (x0 (ix2 r ⟨q.val, h⟩) + x1 (ix2 r ⟨q.val, by omega⟩) * x1 (ix2 r (8 : Fin 9)) + x2 (ix2 (0 : Fin 1) ⟨q.val, h⟩))
  else 1

/-- The rectifier as the body spells it: where z > 0 it is z, elsewhere the slope times z. -/
theorem leaky_select (z : EReal) :
    Scalar.select (FloatOps.cmpf (F := Ideal) (φ := .f32) .ogt z (FloatOps.ofBits .f32 0x00000000#32)) z
        (FloatOps.mulf (F := Ideal) (φ := .f32) (FloatOps.ofBits .f32 0x3C23D70A#32) z) = Gcn.leaky z := by
  unfold Gcn.leaky Gcn.slope
  show Scalar.select (Ideal.cmp .ogt z (Ideal.ofBits .f32 0x00000000#32)) z (Ideal.ofBits .f32 0x3C23D70A#32 * z) = _
  rw [Ideal.ofBits_zero_f32]
  unfold Scalar.select Ideal.cmp
  by_cases h : 0 < z
  · simp [h]
  · simp [h]

/-- The update at entry (g, q): the carried entry plus the sum over the block's rows of indicator times augmented row. -/
theorem pay2_apply (x0 : S2000x8.Idx → EReal) (x1 : S2000x9.Idx → EReal) (x2 : S1x8.Idx → EReal)
    (x3 : S2000x1.Idx → BitVec 32) (xo : S64x9.Idx → EReal) (g : Fin 64) (q : Fin 9) :
    k2_pay2 (F := Ideal) x0 x1 x2 x3 xo (ix2 g q)
      = xo (ix2 g q) + ∑ r : Fin 2000, Gcn.hot (x3 (ix2 r (0 : Fin 1))) g * augB x0 x1 x2 r q := by
  unfold k2_pay2
  simp only [shapeCast_self]
  refine (congrArg (xo (ix2 g q) + ·) (rows_matmul_zero_apply dot_S2000x64_S2000x9_S64x9_0_0_1_1_n_n_wf none _ _ g q)).trans ?_
  refine congrArg (xo (ix2 g q) + ·) (Finset.sum_congr rfl fun r _ => ?_)
  refine congrArg₂ (· * ·) ?_ ?_
  · -- the indicator: the row's word against the column's number
    have e1 : broadcastTo S2000x64 x3 broadcasts_S2000x1_S2000x64 (ix2 r g) = x3 (ix2 r (0 : Fin 1)) :=
      BlockOps.broadcastTo_a1_ab_apply x3 broadcasts_S2000x1_S2000x64 r g
    have e2 : iota .tc S2000x64 32 [1] iota_S2000x64_d1_w32 (ix2 r g) = BitVec.ofNat 32 g.val :=
      iota_single_apply .tc S2000x64 32 1 iota_S2000x64_d1_w32 (ix2 r g)
    show ((((IntOp.cmpi .eq (broadcastTo S2000x64 x3 broadcasts_S2000x1_S2000x64 (ix2 r g))
      (iota .tc S2000x64 32 [1] iota_S2000x64_d1_w32 (ix2 r g))).setWidth 32).toInt : ℝ) : EReal) = _
    rw [e1, e2]
    rfl
  · unfold augB
    show concatenate S2000x9 1 [⟨S2000x8, _⟩, ⟨S2000x1, _⟩] concatenates_S2000x8_S2000x1_S2000x9_d1 (ix2 r q) = _
    by_cases h : q.val < 8
    · rw [dif_pos h]
      refine (concatenate_pair_apply_left (t := S2000x9) (s₁ := S2000x8) (s₂ := S2000x1) (1 : Fin 2) _ _ concatenates_S2000x8_S2000x1_S2000x9_d1 (ix2 r q) rfl
        (ix2 r (⟨q.val, h⟩ : Fin 8)) (fun b => by match b with | ⟨0, _⟩ => rfl | ⟨1, _⟩ => rfl)).trans ?_
      simp only [shapeCast_self]
      refine (leaky_select _).trans (congrArg Gcn.leaky ?_)
      have s1 : extractStridedSlice S2000x8 ![0, 0] x1 slices_S2000x9_o0_0_S2000x8 (ix2 r (⟨q.val, h⟩ : Fin 8))
          = x1 (ix2 r (⟨q.val, by omega⟩ : Fin 9)) :=
        extractStridedSlice_apply ![0, 0] x1 slices_S2000x9_o0_0_S2000x8 (ix2 r (⟨q.val, h⟩ : Fin 8)) (ix2 r (⟨q.val, by omega⟩ : Fin 9))
          (fun a => by match a with | ⟨0, _⟩ => exact (Nat.zero_add _).symm | ⟨1, _⟩ => exact (Nat.zero_add _).symm)
      have s2 : broadcastTo S2000x8 (extractStridedSlice S2000x1 ![0, 8] x1 slices_S2000x9_o0_8_S2000x1) broadcasts_S2000x1_S2000x8
          (ix2 r (⟨q.val, h⟩ : Fin 8)) = x1 (ix2 r (8 : Fin 9)) :=
        (BlockOps.broadcastTo_a1_ab_apply _ broadcasts_S2000x1_S2000x8 r (⟨q.val, h⟩ : Fin 8)).trans
          (extractStridedSlice_apply ![0, 8] x1 slices_S2000x9_o0_8_S2000x1 (ix2 r (0 : Fin 1)) (ix2 r (8 : Fin 9))
            (fun a => by match a with | ⟨0, _⟩ => exact (Nat.zero_add _).symm | ⟨1, _⟩ => rfl))
      have s3 : broadcastTo S2000x8 x2 broadcasts_S1x8_S2000x8 (ix2 r (⟨q.val, h⟩ : Fin 8)) = x2 (ix2 (0 : Fin 1) (⟨q.val, h⟩ : Fin 8)) :=
        broadcastTo_1b_ab_apply x2 broadcasts_S1x8_S2000x8 r (⟨q.val, h⟩ : Fin 8)
      show x0 (ix2 r (⟨q.val, h⟩ : Fin 8))
          + extractStridedSlice S2000x8 ![0, 0] x1 slices_S2000x9_o0_0_S2000x8 (ix2 r (⟨q.val, h⟩ : Fin 8))
            * broadcastTo S2000x8 (extractStridedSlice S2000x1 ![0, 8] x1 slices_S2000x9_o0_8_S2000x1) broadcasts_S2000x1_S2000x8 (ix2 r (⟨q.val, h⟩ : Fin 8))
          + broadcastTo S2000x8 x2 broadcasts_S1x8_S2000x8 (ix2 r (⟨q.val, h⟩ : Fin 8)) = _
      rw [s1, s2, s3]
    · rw [dif_neg h]
      have hq : q.val = 8 := by have := q.isLt; omega
      refine (concatenate_pair_apply_right (t := S2000x9) (s₁ := S2000x8) (s₂ := S2000x1) (1 : Fin 2) _ _ concatenates_S2000x8_S2000x1_S2000x9_d1 (ix2 r q) rfl rfl
        (ix2 r (0 : Fin 1)) (fun b hb => by match b with | ⟨0, _⟩ => rfl | ⟨1, _⟩ => exact absurd rfl hb)
        (by show 0 + 8 = q.val; omega)).trans ?_
      show Ideal.ofBits .f32 0x3F800000#32 = 1
      exact Ideal.ofBits_one_f32

end Payload

/-! ## The point's blocks, read off the arrays

Point t's block of the aggregate, of the table and of the batch words is rows 2000·t … 2000·t + 1999 of its array; the bias
row's block is the whole row at every point. -/

section Blocks
variable (V : (c : Dev nD) → (b : Ref sig .tc) → Buf (Elt Ideal) ((c : Thread nD τ).loc b))

/-- The four arrays the region is given, at their literal types. -/
abbrev arrA (c : Dev nD) : S100000x8.Idx → EReal := V c (Pipeline.arrRef spec2 0)
abbrev arrU (c : Dev nD) : S100000x9.Idx → EReal := V c (Pipeline.arrRef spec2 1)
abbrev arrb (c : Dev nD) : S1x8.Idx → EReal := V c (Pipeline.arrRef spec2 2)
abbrev arrB (c : Dev nD) : S100000x1.Idx → BitVec 32 := V c (Pipeline.arrRef spec2 3)

/-- Their blocks at point t. -/
abbrev blkA (c : Dev nD) (t : Fin cfg2.N) : S2000x8.Idx → EReal := iblk2 V c 0 t
abbrev blkU (c : Dev nD) (t : Fin cfg2.N) : S2000x9.Idx → EReal := iblk2 V c 1 t
abbrev blkb (c : Dev nD) (t : Fin cfg2.N) : S1x8.Idx → EReal := iblk2 V c 2 t
abbrev blkB (c : Dev nD) (t : Fin cfg2.N) : S2000x1.Idx → BitVec 32 := iblk2 V c 3 t

/-- The index maps over the grid: the three row-blocked windows move one block of rows per point, the bias row and the
    output block stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-- Row r of point t's block is row 2000·t + r of the array (the aggregate; then the table, the bias row, the words). -/
theorem blkA_apply (c : Dev nD) (t : Fin cfg2.N) (r : Fin 2000) (j : Fin 8) (n : Fin 100000)
    (hn : n.val = 2000 * t.val + r.val) : blkA V c t (ix2 r j) = arrA V c (ix2 n j) := by
  obtain ⟨e0, e1, -⟩ := idx_facts t
  show V c (Pipeline.arrRef spec2 0) (((cfg2.win 0).blk t).view.emb (ix2 r j)) = V c (Pipeline.arrRef spec2 0) (ix2 n j)
  refine congrArg (V c (Pipeline.arrRef spec2 0)) (funext fun a => Fin.ext ?_)
  match a with
  | ⟨0, _⟩ => show win2_0.index t (0 : Fin 2) * 2000 + 1 * r.val = n.val; rw [e0]; omega
  | ⟨1, _⟩ => show win2_0.index t (1 : Fin 2) * 8 + 1 * j.val = j.val; rw [e1]; omega

theorem blkU_apply (c : Dev nD) (t : Fin cfg2.N) (r : Fin 2000) (j : Fin 9) (n : Fin 100000)
    (hn : n.val = 2000 * t.val + r.val) : blkU V c t (ix2 r j) = arrU V c (ix2 n j) := by
  obtain ⟨-, -, e0, e1, -⟩ := idx_facts t
  show V c (Pipeline.arrRef spec2 1) (((cfg2.win 1).blk t).view.emb (ix2 r j)) = V c (Pipeline.arrRef spec2 1) (ix2 n j)
  refine congrArg (V c (Pipeline.arrRef spec2 1)) (funext fun a => Fin.ext ?_)
  match a with
  | ⟨0, _⟩ => show win2_1.index t (0 : Fin 2) * 2000 + 1 * r.val = n.val; rw [e0]; omega
  | ⟨1, _⟩ => show win2_1.index t (1 : Fin 2) * 9 + 1 * j.val = j.val; rw [e1]; omega

theorem blkb_apply (c : Dev nD) (t : Fin cfg2.N) (j : Fin 8) :
    blkb V c t (ix2 (0 : Fin 1) j) = arrb V c (ix2 (0 : Fin 1) j) := by
  obtain ⟨-, -, -, -, e0, e1, -⟩ := idx_facts t
  show V c (Pipeline.arrRef spec2 2) (((cfg2.win 2).blk t).view.emb (ix2 (0 : Fin 1) j)) = V c (Pipeline.arrRef spec2 2) (ix2 (0 : Fin 1) j)
  refine congrArg (V c (Pipeline.arrRef spec2 2)) (funext fun a => Fin.ext ?_)
  match a with
  | ⟨0, _⟩ => show win2_2.index t (0 : Fin 2) * 1 + 1 * 0 = 0; rw [e0]
  | ⟨1, _⟩ => show win2_2.index t (1 : Fin 2) * 8 + 1 * j.val = j.val; rw [e1]; omega

theorem blkB_apply (c : Dev nD) (t : Fin cfg2.N) (r : Fin 2000) (n : Fin 100000)
    (hn : n.val = 2000 * t.val + r.val) : blkB V c t (ix2 r (0 : Fin 1)) = arrB V c (ix2 n (0 : Fin 1)) := by
  obtain ⟨-, -, -, -, -, -, e0, e1, -⟩ := idx_facts t
  show V c (Pipeline.arrRef spec2 3) (((cfg2.win 3).blk t).view.emb (ix2 r (0 : Fin 1))) = V c (Pipeline.arrRef spec2 3) (ix2 n (0 : Fin 1))
  refine congrArg (V c (Pipeline.arrRef spec2 3)) (funext fun a => Fin.ext ?_)
  match a with
  | ⟨0, _⟩ => show win2_3.index t (0 : Fin 2) * 2000 + 1 * r.val = n.val; rw [e0]; omega
  | ⟨1, _⟩ => show win2_3.index t (1 : Fin 2) * 1 + 1 * 0 = 0; rw [e1]

end Blocks

/-! ## The carried block is the sum over the rows seen so far -/

section Sums
variable (V : (c : Dev nD) → (b : Ref sig .tc) → Buf (Elt Ideal) ((c : Thread nD τ).loc b))

/-- Row n's term of entry (g, q): the indicator that row n's batch word names graph g, times entry q of row n's rectified
    layer row with a one appended; nothing past the last row. -/
def term (A : S100000x8.Idx → EReal) (U : S100000x9.Idx → EReal) (b : S1x8.Idx → EReal) (B : S100000x1.Idx → BitVec 32)
    (g : Fin 64) (q : Fin 9) (n : ℕ) : EReal :=
  if h : n < 100000 then Gcn.hot (B (ix2 (⟨n, h⟩ : Fin 100000) (0 : Fin 1))) g * Gcn.aug2 A U b ⟨n, h⟩ q else 0

/-- A block's augmented row is the array's, at the block's row in the array. -/
theorem augB_eq (c : Dev nD) (t : Fin cfg2.N) (r : Fin 2000) (q : Fin 9) (n : Fin 100000)
    (hn : n.val = 2000 * t.val + r.val) :
    augB (blkA V c t) (blkU V c t) (blkb V c t) r q = Gcn.aug2 (arrA V c) (arrU V c) (arrb V c) n q := by
  unfold augB Gcn.aug2
  by_cases h : q.val < 8
  · rw [dif_pos h, dif_pos h, blkA_apply V c t r ⟨q.val, h⟩ n hn, blkU_apply V c t r ⟨q.val, by omega⟩ n hn,
      blkU_apply V c t r (8 : Fin 9) n hn, blkb_apply V c t ⟨q.val, h⟩]
  · rw [dif_neg h, dif_neg h]

/-- Point t's sum over its 2000 rows is the sum of the terms of rows 2000·t … 2000·t + 1999. -/
theorem blk_sum (c : Dev nD) (t : Fin cfg2.N) (g : Fin 64) (q : Fin 9) :
    ∑ r : Fin 2000, Gcn.hot (blkB V c t (ix2 r (0 : Fin 1))) g * augB (blkA V c t) (blkU V c t) (blkb V c t) r q
      = ∑ r ∈ Finset.range 2000, term (arrA V c) (arrU V c) (arrb V c) (arrB V c) g q (2000 * t.val + r) := by
  have hN : t.val < 50 := lt_of_lt_of_eq t.isLt (show cfg2.N = 50 from N_2)
  rw [← Fin.sum_univ_eq_sum_range (fun r => term (arrA V c) (arrU V c) (arrb V c) (arrB V c) g q (2000 * t.val + r)) 2000]
  refine Finset.sum_congr rfl fun r _ => ?_
  have hr : r.val < 2000 := r.isLt
  have hn : 2000 * t.val + r.val < 100000 := by omega
  unfold term
  rw [dif_pos hn, blkB_apply V c t r ⟨2000 * t.val + r.val, hn⟩ rfl, augB_eq V c t r q ⟨2000 * t.val + r.val, hn⟩ rfl]

/-- THE INVARIANT: after point n the carried block's entry (g, q) is the sum of the terms of the rows below 2000·(n + 1). -/
theorem carried_eq (c : Dev nD) : ∀ (n : ℕ) (hn : n < cfg2.N) (g : Fin 64) (q : Fin 9),
    outsAt2 V c n hn (ix2 g q)
      = ∑ j ∈ Finset.range (2000 * (n + 1)), term (arrA V c) (arrU V c) (arrb V c) (arrB V c) g q j
  | 0, hn, g, q => by
    have e := (outsAt2_A V c ⟨0, hn⟩ rfl).trans
      (out_A (F := Ideal) c (grid2.coords ⟨0, hn⟩) (ms2_0 ⟨0, hn⟩) (hs2_0 ⟨0, hn⟩) (ms2_1 ⟨0, hn⟩) (hs2_1 ⟨0, hn⟩)
        (ms2_2 ⟨0, hn⟩) (hs2_2 ⟨0, hn⟩) (ms2_3 ⟨0, hn⟩) (hs2_3 ⟨0, hn⟩) (ms2_4 ⟨0, hn⟩) (hs2_4 ⟨0, hn⟩)
        ((hcond2_0 ⟨0, hn⟩).mpr rfl) (iblk2 V c 0 ⟨0, hn⟩) (iblk2 V c 1 ⟨0, hn⟩) (iblk2 V c 2 ⟨0, hn⟩) (iblk2 V c 3 ⟨0, hn⟩))
    refine (congrFun e (ix2 g q)).trans ?_
    refine (pay2_apply (blkA V c ⟨0, hn⟩) (blkU V c ⟨0, hn⟩) (blkb V c ⟨0, hn⟩) (blkB V c ⟨0, hn⟩) (k2_pay1 (F := Ideal)) g q).trans ?_
    rw [blk_sum V c ⟨0, hn⟩ g q]
    show Ideal.ofBits .f32 0x00000000#32 + _ = _
    rw [Ideal.ofBits_zero_f32, zero_add]
    refine Finset.sum_congr rfl fun r _ => ?_
    show term _ _ _ _ g q (2000 * 0 + r) = _
    rw [Nat.mul_zero, Nat.zero_add]
  | n + 1, hn, g, q => by
    have hN : cfg2.N = 50 := N_2
    have hB : ¬(⟨n + 1, hn⟩ : Fin cfg2.N).val % 50 = 0 := by dsimp only; omega
    have e := (outsAt2_B V c ⟨n + 1, hn⟩ hB).trans
      (out_B (F := Ideal) c (grid2.coords ⟨n + 1, hn⟩) (ms2_0 ⟨n + 1, hn⟩) (hs2_0 ⟨n + 1, hn⟩) (ms2_1 ⟨n + 1, hn⟩) (hs2_1 ⟨n + 1, hn⟩)
        (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
        (fun h => hB ((hcond2_0 ⟨n + 1, hn⟩).mp h)) (iblk2 V c 0 ⟨n + 1, hn⟩) (iblk2 V c 1 ⟨n + 1, hn⟩) (iblk2 V c 2 ⟨n + 1, hn⟩)
        (iblk2 V c 3 ⟨n + 1, hn⟩) (outsAt2 V c n (Nat.lt_of_succ_lt hn)))
    refine (congrFun e (ix2 g q)).trans ?_
    refine (pay2_apply (blkA V c ⟨n + 1, hn⟩) (blkU V c ⟨n + 1, hn⟩) (blkb V c ⟨n + 1, hn⟩) (blkB V c ⟨n + 1, hn⟩)
      (outsAt2 V c n (Nat.lt_of_succ_lt hn)) g q).trans ?_
    rw [blk_sum V c ⟨n + 1, hn⟩ g q, carried_eq c n (Nat.lt_of_succ_lt hn) g q,
      show 2000 * (n + 1 + 1) = 2000 * (n + 1) + 2000 from by omega, Finset.sum_range_add]

end Sums

/-! ## The array the region leaves

The carried block is written back once, after the last point, when it holds the sum over all 100000 rows; its one block
is the whole [64, 9] array. -/

section Final
variable (V : (c : Dev nD) → (b : Ref sig .tc) → Buf (Elt Ideal) ((c : Thread nD τ).loc b))

/-- After the last point the carried block is the pooled sums: entry (g, q) sums, over every row, the row's indicator for
    graph g times entry q of its augmented row. -/
theorem carried_last (c : Dev nD) (t : Fin cfg2.N) (h49 : t.val = 49) :
    outsAt2 V c t.val t.isLt = Gcn.reg2 (arrA V c) (arrU V c) (arrb V c) (arrB V c) := by
  funext i
  obtain ⟨g, q, rfl⟩ : ∃ (g : Fin 64) (q : Fin 9), i = ix2 g q := ⟨i 0, i 1, eq_ix2 i⟩
  rw [carried_eq V c t.val t.isLt g q]
  show _ = ∑ n : Fin 100000, Gcn.hot (arrB V c (ix2 n (0 : Fin 1))) g * Gcn.aug2 (arrA V c) (arrU V c) (arrb V c) n q
  have e : 2000 * (t.val + 1) = 100000 := by omega
  rw [e, ← Fin.sum_univ_eq_sum_range (fun j => term (arrA V c) (arrU V c) (arrb V c) (arrB V c) g q j) 100000]
  refine Finset.sum_congr rfl fun n _ => ?_
  unfold term
  rw [dif_pos n.isLt]

/-- The output block sits at offset zero on both axes at every point. -/
theorem hz4 (t : Fin cfg2.N) : (fun a => win2_4.index t a * main_v60.ty.shape.size a) = fun _ => 0 := by
  obtain ⟨-, -, -, -, -, -, -, -, e0, e1⟩ := idx_facts t
  funext a
  match a with
  | ⟨0, _⟩ => show win2_4.index t (0 : Fin 2) * 64 = 0; rw [e0]
  | ⟨1, _⟩ => show win2_4.index t (1 : Fin 2) * 9 = 0; rw [e1]

/-- The one write-back, after the last point, writes the pooled sums. -/
theorem flushed_eq (c : Dev nD) (t : Fin cfg2.N) (hf : (cfg2.win 4).flush t = true) :
    (dat2 V c).flushed 4 t
      = ((cfg2.win 4).blk t).view.read (Elt Ideal) (Gcn.reg2 (arrA V c) (arrU V c) (arrb V c) (arrB V c)) := by
  have hN : cfg2.N = 50 := N_2
  have h49 : t.val = 49 := by have := (flush2_4 t).mp hf; have := t.isLt; omega
  show (cfg2.win 4).cut (grid2.coords t) ((dat2 V c).after 4 t) = _
  rw [after2_4, carried_last V c t h49]
  exact (Memref.read_access_unit_zero (Elt Ideal) main_v60 (hz4 t) (fun a => by rw [congrFun (hz4 t) a]; simp)
    (Gcn.reg2 (arrA V c) (arrU V c) (arrb V c) (arrB V c))).symm

/-- An index of the array is in point t's block iff each coordinate is in the block's range on its axis. -/
theorem mem_blk (t : Fin cfg2.N) (i : S64x9.Idx) :
    i ∈ ((cfg2.win 4).blk t).view.set
      ↔ ∀ a : Fin 2, win2_4.index t a * S64x9.size a ≤ (i a).val ∧ (i a).val < win2_4.index t a * S64x9.size a + S64x9.size a := by
  show i ∈ ((View.whole main_v60).slice (win2_4.rect t)).set ↔ _
  rw [View.set_slice_whole, Rect.mem_set_unit]
  exact Iff.rfl

/-- THE RESULT: the region leaves, in its output array, the pooled sums of the arrays it is given. -/
theorem val (c : Dev nD) :
    (Gen.dat2 (F := Ideal) V c).arrAt 4 cfg2.N
      = Gcn.reg2 (V c (Pipeline.arrRef spec2 0)) (V c (Pipeline.arrRef spec2 1)) (V c (Pipeline.arrRef spec2 2))
          (V c (Pipeline.arrRef spec2 3)) :=
  (dat2 V c).arrAt_eq_of_cover 4 (Gcn.reg2 (arrA V c) (arrU V c) (arrb V c) (arrB V c)) (flushed_eq V c) fun i => by
    have hN : cfg2.N = 50 := N_2
    refine ⟨⟨49, by omega⟩, (flush2_4 _).mpr rfl, ?_⟩
    rw [mem_blk]
    obtain ⟨-, -, -, -, -, -, -, -, e0, e1⟩ := idx_facts (⟨49, by omega⟩ : Fin cfg2.N)
    intro a
    match a with
    | ⟨0, _⟩ =>
      show win2_4.index _ (0 : Fin 2) * 64 ≤ (i 0).val ∧ (i 0).val < win2_4.index _ (0 : Fin 2) * 64 + 64
      have h0 : (i 0).val < 64 := (i 0).isLt
      rw [e0]; omega
    | ⟨1, _⟩ =>
      show win2_4.index _ (1 : Fin 2) * 9 ≤ (i 1).val ∧ (i 1).val < win2_4.index _ (1 : Fin 2) * 9 + 9
      have h1 : (i 1).val < 9 := (i 1).isLt
      rw [e1]; omega

end Final

end Cert.KernelIdeal.KReg2

end
-- ==== Proof.KReg3.lean ====
/-
  THE LAST KERNEL OF FOUR, read as one function of the arrays it is given.

  The kernel is given the per-graph sums S : [64, 9] (columns 0 … 7 the sums of the second layer's rows over each graph,
  column 8 the number of rows of the graph), the global features gf : [64, 24], the weights fW1 : [32, 16] and
  fW2 : [16, 1] and the bias rows fb1 : [1, 16] and fb2 : [1, 1]. It leaves in its output array [64, 1], at (g, o),
      leaky( Σ_k leaky( Σ_q Z[g, q] · fW1[q, k] + fb1[0, k] ) · fW2[k, o] + fb2[0, o] ),
  where Z[g, q] = S[g, q] / max(S[g, 8], 1) for q < 8 and gf[g, q − 8] for 8 ≤ q < 32, and leaky v = v for 0 < v and
  slope · v otherwise. At the extended reals a change of number format is the identity and a block product into the
  zero block is the plain sum, so the stored block is that function of the six blocks read, entry by entry.

  The grid has one point and every window is its whole array: each block read is the array itself, and the one block
  written back covers the output array. So the array after the kernel is that function of the six arrays.
-/
import proofs.«419935_j81939386073613_2_alg».proof.Proof.Gen.KernelIdeal.Frame
import proofs.«419935_j81939386073613_2_alg».proof.Proof.GcnSpec
import proofs.«419935_j81939386073613_2_alg».proof.Proof.LibBlockOps
import Idealize.ShloMosaic.Lib.Pipeline.Value
import Idealize.ShloMosaic.PureOps.Ideal.Laws
import Idealize.ShloMosaic.Lib.ValueIdx
import Idealize.ShloMosaic.Lib.ValueLayout
import Idealize.ShloMosaic.Lib.IdealHost

noncomputable section

open scoped BigOperators

namespace Cert.KernelIdeal.KReg3

open Cert.KernelIdeal Cert.KernelIdeal.Gen Idealize.ShloMosaic Idealize.ShloMosaic.TcCoe Idealize.SL.Sem
open Idealize.ShloMosaic.Pipeline (Dat)
open Idealize.ShloMosaic.ValueIdx

/-! ## The stored block at an entry -/

/-- The leaky rectifier as the kernel spells it on one value: keep a positive value, scale any other by the slope. -/
theorem rect_eq (v : EReal) :
    Scalar.select (FloatOps.cmpf (F := Ideal) (φ := .f32) .ogt v (Scalar.ofBits (F := Ideal) .f32 0x00000000#32)) v
      (FloatOps.mulf (F := Ideal) (φ := .f32) (Scalar.ofBits (F := Ideal) .f32 0x3C23D70A#32) v) = Gcn.leaky v := by
  show Scalar.select (Ideal.cmp .ogt v (Ideal.ofBits .f32 0x00000000#32)) v (Ideal.ofBits .f32 0x3C23D70A#32 * v) = _
  rw [Ideal.ofBits_zero_f32]
  unfold Gcn.leaky Gcn.slope Ideal.cmp Scalar.select
  by_cases h : (0 : EReal) < v
  · simp [h]
  · simp [h]

/-- The same on a block, read at an entry. -/
theorem rect_apply {s : Shape} (v : FVec Ideal s .f32) (i : s.Idx) :
    select (cmpf .ogt v (broadcast s (Scalar.ofBits (F := Ideal) .f32 0x00000000#32))) v
      (mulf (broadcast s (Scalar.ofBits (F := Ideal) .f32 0x3C23D70A#32)) v) i = Gcn.leaky (v i) :=
  rect_eq (v i)

/-- The first dense product at an entry: the sum over the 32 features. -/
theorem mm1_apply (A : FVec Ideal S64x32 .bf16) (B : FVec Ideal S32x16 .bf16) (g : Fin 64) (k : Fin 16) :
    matmul dot_S64x32_S32x16_S64x16_1_0_0_1_n_n none A B (constant (F := Ideal) S64x16 .f32 0x00000000#32) (ix2 g k)
      = ∑ q : Fin 32, A (ix2 g q) * B (ix2 q k) :=
  BlockOps.matmul_zero_apply dot_S64x32_S32x16_S64x16_1_0_0_1_n_n_wf none A B g k

/-- The second dense product at an entry: the sum over the 16 hidden units. -/
theorem mm2_apply (A : FVec Ideal S64x16 .bf16) (B : FVec Ideal S16x1 .bf16) (g : Fin 64) (o : Fin 1) :
    matmul dot_S64x16_S16x1_S64x1_1_0_0_1_n_n none A B (constant (F := Ideal) S64x1 .f32 0x00000000#32) (ix2 g o)
      = ∑ k : Fin 16, A (ix2 g k) * B (ix2 k o) :=
  BlockOps.matmul_zero_apply dot_S64x16_S16x1_S64x1_1_0_0_1_n_n_wf none A B g o

/-- The mean of a graph's rows at an entry: the sum in column q over the count in column 8, an empty graph
    dividing by one. -/
theorem mean_apply (x0 : Vec Ideal S64x9 .f32) (g : Fin 64) (q : Fin 8) :
    divf (extractStridedSlice S64x8 ![0, 0] x0 slices_S64x9_o0_0_S64x8)
        (broadcastTo S64x8
          (maximumf (extractStridedSlice S64x1 ![0, 8] x0 slices_S64x9_o0_8_S64x1)
            (broadcast S64x1 (Scalar.ofBits (F := Ideal) .f32 0x3F800000#32)))
          broadcasts_S64x1_S64x8) (ix2 g q)
      = Ideal.div (x0 (ix2 g (⟨q.val, by omega⟩ : Fin 9))) (max (x0 (ix2 g (8 : Fin 9))) 1) := by
  rw [divf_apply, BlockOps.broadcastTo_a1_ab_apply, maximumf_apply, broadcast_apply,
    slice2_axis1_apply 0 x0 slices_S64x9_o0_0_S64x8 g q (⟨q.val, by omega⟩ : Fin 9) (by simp),
    slice2_axis1_apply 8 x0 slices_S64x9_o0_8_S64x1 g (0 : Fin 1) (8 : Fin 9) rfl]
  show Ideal.div _ (max _ (Ideal.ofBits .f32 0x3F800000#32)) = _
  rw [Ideal.ofBits_one_f32]

/-- The pooled features with the global features appended, at an entry: the first eight columns are the first
    piece's, the other twenty-four the second's. -/
theorem cat_apply {α : Type} (A : S64x8.Idx → α) (B : S64x24.Idx → α) (g : Fin 64) (q : Fin 32) :
    concatenate S64x32 1 [⟨S64x8, A⟩, ⟨S64x24, B⟩] concatenates_S64x8_S64x24_S64x32_d1 (ix2 g q)
      = if h : q.val < 8 then A (ix2 g (⟨q.val, h⟩ : Fin 8)) else B (ix2 g (⟨q.val - 8, by omega⟩ : Fin 24)) := by
  split
  · next h =>
    refine concatenate_pair_apply_left (1 : Fin 2) A B _ (ix2 g q) rfl (ix2 g (⟨q.val, h⟩ : Fin 8)) fun b => ?_
    match b with
    | ⟨0, _⟩ => rfl
    | ⟨1, _⟩ => rfl
  · next h =>
    refine concatenate_pair_apply_right (1 : Fin 2) A B _ (ix2 g q) rfl rfl (ix2 g (⟨q.val - 8, by omega⟩ : Fin 24))
      (fun b hb => ?_) ?_
    · match b, hb with
      | ⟨0, _⟩, _ => rfl
      | ⟨1, _⟩, hb => exact absurd rfl hb
    · show q.val - 8 + 8 = q.val
      omega

/-- THE KERNEL'S STORED BLOCK AT AN ENTRY is the network's head there: the means with the global features appended,
    the first dense layer and its rectifier, the second dense layer and its rectifier. -/
theorem pay_apply (x0 : Vec Ideal S64x9 .f32) (x8 : Vec Ideal S64x24 .f32) (x11 : Vec Ideal S32x16 .f32)
    (x14 : Vec Ideal S1x16 .f32) (x24 : Vec Ideal S16x1 .f32) (x27 : Vec Ideal S1x1 .f32) (g : Fin 64) (o : Fin 1) :
    k3_pay1 x0 x8 x11 x14 x24 x27 (ix2 g o) = Gcn.reg3 x0 x8 x11 x14 x24 x27 (ix2 g o) := by
  unfold k3_pay1
  rw [rect_apply, addf_apply, mm2_apply, broadcastTo_1b_ab_apply, shapeCast_self]
  simp only [truncf_apply, rect_apply, addf_apply, mm1_apply, broadcastTo_1b_ab_apply, shapeCast_self, cat_apply,
    mean_apply]
  simp only [Gcn.reg3, Gcn.arr2_ix2, Gcn.mmAt]

/-- So the stored block IS the head of the network of the six blocks read. -/
theorem pay_eq (x0 : Vec Ideal S64x9 .f32) (x8 : Vec Ideal S64x24 .f32) (x11 : Vec Ideal S32x16 .f32)
    (x14 : Vec Ideal S1x16 .f32) (x24 : Vec Ideal S16x1 .f32) (x27 : Vec Ideal S1x1 .f32) :
    k3_pay1 x0 x8 x11 x14 x24 x27 = Gcn.reg3 x0 x8 x11 x14 x24 x27 := by
  funext j
  obtain ⟨g, o, rfl⟩ : ∃ (g : Fin 64) (o : Fin 1), j = ix2 g o := ⟨j 0, j 1, eq_ix2 j⟩
  exact pay_apply x0 x8 x11 x14 x24 x27 g o

/-! ## From the one block to the array -/

variable (V : (c : Dev nD) → (b : Ref sig .tc) → Buf (Elt Ideal) ((c : Thread nD τ).loc b))

/-- The zero offsets on two axes. -/
theorem zero_offsets : (![0, 0] : Fin 2 → Nat) = fun _ => 0 := funext fun a => by fin_cases a <;> rfl

/-- Every window of this kernel is its whole array: at the grid's one point each printed index map is zero on both axes. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The block of the sums at the point is the whole array. -/
theorem blk0 (c : Dev nD) (t : Fin cfg3.N) :
    (iblk3 V c 0 t : S64x9.Idx → EReal) = (V c (Pipeline.arrRef spec3 0) : S64x9.Idx → EReal) := by
  obtain ⟨e00, e01, e10, e11, e20, e21, e30, e31, e40, e41, e50, e51, e60, e61⟩ := idx_facts t
  funext j
  show V c (Pipeline.arrRef spec3 0) (((cfg3.win 0).blk t).view.emb j) = V c (Pipeline.arrRef spec3 0) j
  congr 1
  funext a; apply Fin.ext
  match a with
  | ⟨0, _⟩ => show win3_0.index t (0 : Fin 2) * 64 + 1 * (j 0).val = (j 0).val; omega
  | ⟨1, _⟩ => show win3_0.index t (1 : Fin 2) * 9 + 1 * (j 1).val = (j 1).val; omega

/-- The block of the global features at the point is the whole array. -/
theorem blk1 (c : Dev nD) (t : Fin cfg3.N) :
    (iblk3 V c 1 t : S64x24.Idx → EReal) = (V c (Pipeline.arrRef spec3 1) : S64x24.Idx → EReal) := by
  obtain ⟨e00, e01, e10, e11, e20, e21, e30, e31, e40, e41, e50, e51, e60, e61⟩ := idx_facts t
  funext j
  show V c (Pipeline.arrRef spec3 1) (((cfg3.win 1).blk t).view.emb j) = V c (Pipeline.arrRef spec3 1) j
  congr 1
  funext a; apply Fin.ext
  match a with
  | ⟨0, _⟩ => show win3_1.index t (0 : Fin 2) * 64 + 1 * (j 0).val = (j 0).val; omega
  | ⟨1, _⟩ => show win3_1.index t (1 : Fin 2) * 24 + 1 * (j 1).val = (j 1).val; omega

/-- The block of the first weights at the point is the whole array. -/
theorem blk2 (c : Dev nD) (t : Fin cfg3.N) :
    (iblk3 V c 2 t : S32x16.Idx → EReal) = (V c (Pipeline.arrRef spec3 2) : S32x16.Idx → EReal) := by
  obtain ⟨e00, e01, e10, e11, e20, e21, e30, e31, e40, e41, e50, e51, e60, e61⟩ := idx_facts t
  funext j
  show V c (Pipeline.arrRef spec3 2) (((cfg3.win 2).blk t).view.emb j) = V c (Pipeline.arrRef spec3 2) j
  congr 1
  funext a; apply Fin.ext
  match a with
  | ⟨0, _⟩ => show win3_2.index t (0 : Fin 2) * 32 + 1 * (j 0).val = (j 0).val; omega
  | ⟨1, _⟩ => show win3_2.index t (1 : Fin 2) * 16 + 1 * (j 1).val = (j 1).val; omega

/-- The block of the first bias row at the point is the whole array. -/
theorem blk3 (c : Dev nD) (t : Fin cfg3.N) :
    (iblk3 V c 3 t : S1x16.Idx → EReal) = (V c (Pipeline.arrRef spec3 3) : S1x16.Idx → EReal) := by
  obtain ⟨e00, e01, e10, e11, e20, e21, e30, e31, e40, e41, e50, e51, e60, e61⟩ := idx_facts t
  funext j
  show V c (Pipeline.arrRef spec3 3) (((cfg3.win 3).blk t).view.emb j) = V c (Pipeline.arrRef spec3 3) j
  congr 1
  funext a; apply Fin.ext
  match a with
  | ⟨0, _⟩ => show win3_3.index t (0 : Fin 2) * 1 + 1 * (j 0).val = (j 0).val; omega
  | ⟨1, _⟩ => show win3_3.index t (1 : Fin 2) * 16 + 1 * (j 1).val = (j 1).val; omega

/-- The block of the second weights at the point is the whole array. -/
theorem blk4 (c : Dev nD) (t : Fin cfg3.N) :
    (iblk3 V c 4 t : S16x1.Idx → EReal) = (V c (Pipeline.arrRef spec3 4) : S16x1.Idx → EReal) := by
  obtain ⟨e00, e01, e10, e11, e20, e21, e30, e31, e40, e41, e50, e51, e60, e61⟩ := idx_facts t
  funext j
  show V c (Pipeline.arrRef spec3 4) (((cfg3.win 4).blk t).view.emb j) = V c (Pipeline.arrRef spec3 4) j
  congr 1
  funext a; apply Fin.ext
  match a with
  | ⟨0, _⟩ => show win3_4.index t (0 : Fin 2) * 16 + 1 * (j 0).val = (j 0).val; omega
  | ⟨1, _⟩ => show win3_4.index t (1 : Fin 2) * 1 + 1 * (j 1).val = (j 1).val; omega

/-- The block of the second bias at the point is the whole array. -/
theorem blk5 (c : Dev nD) (t : Fin cfg3.N) :
    (iblk3 V c 5 t : S1x1.Idx → EReal) = (V c (Pipeline.arrRef spec3 5) : S1x1.Idx → EReal) := by
  obtain ⟨e00, e01, e10, e11, e20, e21, e30, e31, e40, e41, e50, e51, e60, e61⟩ := idx_facts t
  funext j
  show V c (Pipeline.arrRef spec3 5) (((cfg3.win 5).blk t).view.emb j) = V c (Pipeline.arrRef spec3 5) j
  congr 1
  funext a; apply Fin.ext
  match a with
  | ⟨0, _⟩ => show win3_5.index t (0 : Fin 2) * 1 + 1 * (j 0).val = (j 0).val; omega
  | ⟨1, _⟩ => show win3_5.index t (1 : Fin 2) * 1 + 1 * (j 1).val = (j 1).val; omega

/-- An entry of the output block sits in the array at the same coordinates. -/
theorem emb6 (t : Fin cfg3.N) (j : S64x1.Idx) : ((cfg3.win 6).blk t).view.emb j = j := by
  obtain ⟨e00, e01, e10, e11, e20, e21, e30, e31, e40, e41, e50, e51, e60, e61⟩ := idx_facts t
  funext a; apply Fin.ext
  match a with
  | ⟨0, _⟩ => show win3_6.index t (0 : Fin 2) * 64 + 1 * (j 0).val = (j 0).val; omega
  | ⟨1, _⟩ => show win3_6.index t (1 : Fin 2) * 1 + 1 * (j 1).val = (j 1).val; omega

/-- The head of the network of equal arrays is equal. -/
theorem reg3_congr {S S' : (Gcn.Sh2 64 9).Idx → EReal} {gf gf' : (Gcn.Sh2 64 24).Idx → EReal}
    {fW1 fW1' : (Gcn.Sh2 32 16).Idx → EReal} {fb1 fb1' : (Gcn.Sh2 1 16).Idx → EReal}
    {fW2 fW2' : (Gcn.Sh2 16 1).Idx → EReal} {fb2 fb2' : (Gcn.Sh2 1 1).Idx → EReal}
    (h0 : S = S') (h1 : gf = gf') (h2 : fW1 = fW1') (h3 : fb1 = fb1') (h4 : fW2 = fW2') (h5 : fb2 = fb2') :
    Gcn.reg3 S gf fW1 fb1 fW2 fb2 = Gcn.reg3 S' gf' fW1' fb1' fW2' fb2' := by
  subst h0 h1 h2 h3 h4 h5; rfl

/-- WHAT THE ONE POINT WRITES BACK is the head of the network of the arrays as the kernel finds them. -/
theorem flushed_eq (c : Dev nD) (t : Fin cfg3.N) :
    (dat3 (F := Ideal) V c).flushed 6 t = ((cfg3.win 6).blk t).view.read (Elt Ideal)
      (Gcn.reg3 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero zero_offsets]
  simp only [View.ld_unit_zero (S := S64x9) zero_offsets, View.ld_unit_zero (S := S64x24) zero_offsets,
    View.ld_unit_zero (S := S32x16) zero_offsets, View.ld_unit_zero (S := S1x16) zero_offsets,
    View.ld_unit_zero (S := S16x1) zero_offsets, View.ld_unit_zero (S := S1x1) zero_offsets]
  rewrite [pay_eq]
  funext j
  show Gcn.reg3 _ _ _ _ _ _ j = Gcn.reg3 _ _ _ _ _ _ (((cfg3.win 6).blk t).view.emb j)
  rewrite [emb6]
  exact congrFun (reg3_congr (blk0 V c t) (blk1 V c t) (blk2 V c t) (blk3 V c t) (blk4 V c t) (blk5 V c t)) j

/-- An index of the output array is in the point's block iff each coordinate is in the block's range on its axis. -/
theorem mem_blk (t : Fin cfg3.N) (i : S64x1.Idx) :
    i ∈ ((cfg3.win 6).blk t).view.set ↔ ∀ a : Fin 2, win3_6.index t a * S64x1.size a ≤ (i a).val ∧ (i a).val < win3_6.index t a * S64x1.size a + S64x1.size a := by
  show i ∈ ((View.whole main_v63).slice (win3_6.rect t)).set ↔ _
  rw [View.set_slice_whole, Rect.mem_set_unit]
  exact Iff.rfl

/-- The one block covers the output array. -/
theorem cover (i : S64x1.Idx) : ∃ t : Fin cfg3.N, (cfg3.win 6).flush t = true ∧ i ∈ ((cfg3.win 6).blk t).view.set := by
  refine ⟨t3_0, flush3_6 t3_0, ?_⟩
  obtain ⟨e00, e01, e10, e11, e20, e21, e30, e31, e40, e41, e50, e51, e60, e61⟩ := idx_facts t3_0
  have hi0 : (i 0).val < 64 := (i 0).isLt
  have hi1 : (i 1).val < 1 := (i 1).isLt
  rw [mem_blk]
  intro a
  match a with
  | ⟨0, _⟩ => show win3_6.index t3_0 (0 : Fin 2) * 64 ≤ (i 0).val ∧ (i 0).val < win3_6.index t3_0 (0 : Fin 2) * 64 + 64; omega
  | ⟨1, _⟩ => show win3_6.index t3_0 (1 : Fin 2) * 1 ≤ (i 1).val ∧ (i 1).val < win3_6.index t3_0 (1 : Fin 2) * 1 + 1; omega

/-- THE OUTPUT ARRAY after the kernel: the head of the network of the six arrays the kernel is given. -/
theorem val (c : Dev nD) :
    (Gen.dat3 (F := Ideal) V c).arrAt 6 cfg3.N
      = Gcn.reg3 (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => flushed_eq V c t) cover

end Cert.KernelIdeal.KReg3
end
-- ==== Proof.LibSegNorm.lean ====
/-
  SEGMENT SUMS UNDER A SYMMETRIC NORMALISATION — a general lemma file (no program is named here).

  The setting. A table `L` of `N` rows and `C` columns, a list of `E` edges given by two columns of 32-bit row
  numbers (sources `is`, destinations `id`, each an `[E, 1]` array), and one factor `dinv n` per row. The
  AGGREGATION of per-edge rows `u : [E, C]` is the scatter-add into a zero `[N, C]` table: row `n` of the
  result is the sum of the rows `u e` over the edges `e` whose destination is `n`.

  The law (`agg_law`). Scaling each edge's row by BOTH endpoint factors and then aggregating,
      ∑_{e → n} L[src e] · (dinv[src e] · dinv[dst e]),
  is the same as aggregating the rows of the PRE-SCALED table `L[m] · dinv[m]` and scaling row `n` of the result
  once by `dinv[n]`,
      (∑_{e → n} L[src e] · dinv[src e]) · dinv[n],
  over the extended reals, for every `L`, as soon as each factor `dinv n` is a NONNEGATIVE REAL. Only that is
  needed: a nonnegative real factor distributes over every sum of extended reals, whatever its terms (even
  `⊤ + ⊥`), and multiplication of extended reals is associative and commutative everywhere.

  What the file states, in order:
    * the dimension numbers of the two gathers (a row of an `[N, C]` table, an entry of an `[N]` vector, each at
      an `[E, 1]` column of starts) and of the two scatters (a row into `[N, C]`, an entry into `[N]`), each an
      `abbrev` taking its well-formedness proof as an argument;
    * each gather read at an index: the operand at the start, read signed and clamped into `[0, N − 1]`
      (`rowGather_apply`, `vecGather_apply`);
    * each scatter's landing condition: edge `e`'s update lands on row `n` exactly when its start, read signed
      and NOT clamped, is `n` (`rowScatter_resultIdx`, `vecScatter_resultIdx`);
    * a nonnegative real factor through a finite sum (`sum_mul_coe`);
    * the law (`agg_law`);
    * the degree count: scatter-adding ones into zeros gives a natural number (`degree_real`).
-/
import Idealize.ShloMosaic.Lib.ValueIdx
import Mathlib.Data.EReal.Operations

noncomputable section

open scoped BigOperators

open Idealize.ShloMosaic

namespace SegNorm

open Idealize.ShloMosaic.ValueIdx

/-! ## The dimension numbers -/

/-- A ROW of an `[N, C]` table at each of `E` starts: the table's axis 0 is collapsed and start-indexed, its
    axis 1 is the result's offset axis, the index vector lies on axis 1 of the `[E, 1]` starts. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- An ENTRY of an `[N]` vector at each of `E` starts. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `E` rows of width `C` into an `[N, C]` table, row `e` at the start `e` names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `E` scalars into an `[N]` vector, scalar `e` at the start `e` names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The start of an edge -/

/-- The index `[e, 0]` of edge `e`'s start in an `[E, 1]` column. -/
abbrev eIdx {E : Nat} (e : Fin E) : (⟨2, ![E, 1]⟩ : Shape).Idx :=
  fun a => match a with | ⟨0, _⟩ => e | ⟨1, _⟩ => ⟨0, Nat.one_pos⟩

/-- Edge `e`'s start read signed and clamped into `[0, N − 1]`: the row a gather reads. -/
def clampRow {N E w : Nat} (hN : 0 < N) (idx : IVec ⟨2, ![E, 1]⟩ w) (e : Fin E) : Fin N :=
  ⟨min (idx (eIdx e)).toInt.toNat (N - 1), by omega⟩

theorem clampRow_val {N E w : Nat} (hN : 0 < N) (idx : IVec ⟨2, ![E, 1]⟩ w) (e : Fin E) :
    (clampRow hN idx e).val = min (idx (eIdx e)).toInt.toNat (N - 1) := rfl

/-- A start that is a row number is its own clamp. -/
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  rw [clampRow_val, h, Int.toNat_natCast]
  have := n.isLt
  omega

/-! ## The gathers read at an index -/

section Gather
variable {α : Type}

/-- The row gather's operand index on axis 0: the clamped start. -/
theorem rowGather_idx0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 0).val
      = min (idx (eIdx ⟨(y 0).val, idx2_lt0 y⟩)).toInt.toNat (N - 1) := by
  show (rowGatherDims N E C wf).start y idx 0 + (rowGatherDims N E C wf).batchCoord y 0
    + (rowGatherDims N E C wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx y ⟨List.idxOf (0 : Fin 2) (rowGatherDims N E C wf).startIndexMap,
      List.idxOf_lt_length_iff.2 (List.mem_singleton.mpr rfl)⟩ = eIdx ⟨(y 0).val, idx2_lt0 y⟩ := by
    funext b; refine Fin.ext ?_
    match b with
    | ⟨0, _⟩ => rfl
    | ⟨1, _⟩ => rfl
  rw [hsi]
  rfl

/-- The row gather's operand index on axis 1: the result's column. -/
theorem rowGather_idx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 1).val = (y 1).val := by
  show (rowGatherDims N E C wf).start y idx 1 + (rowGatherDims N E C wf).batchCoord y 1
    + (rowGatherDims N E C wf).offCoord y 1 = _
  rw [GatherDims.batchCoord_eq_zero _ _ _ List.not_mem_nil]
  have hns : (1 : Fin 2) ∉ (rowGatherDims N E C wf).startIndexMap := fun h =>
    absurd (congrArg Fin.val (List.mem_singleton.mp h)) Nat.one_ne_zero
  unfold GatherDims.start
  rw [dif_neg hns]
  simp only [Nat.add_zero, Nat.zero_add]
  rfl

/-- THE ROW GATHER READ AT `(e, c)`: the table at row `clamp (start e)`, column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 (clampRow hN idx ⟨(y 0).val, idx2_lt0 y⟩) ⟨(y 1).val, idx2_lt1 y⟩) := by
  unfold Host.gather
  congr 1
  funext a
  refine Fin.ext ?_
  match a with
  | ⟨0, _⟩ => exact rowGather_idx0 wf idx y
  | ⟨1, _⟩ => exact rowGather_idx1 wf idx y

/-- THE VECTOR GATHER READ AT `e`: the vector at entry `clamp (start e)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = eIdx ⟨(y 0).val, (y 0).isLt⟩ := by
    funext b; refine Fin.ext ?_
    match b with
    | ⟨0, _⟩ => rfl
    | ⟨1, _⟩ => rfl
  rw [hsi]
  rfl

end Gather

/-! ## Where a scatter's update lands -/

section Scatter

/-- The row scatter's start on axis 0: edge `e`'s start, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (eIdx ⟨(j 0).val, idx2_lt0 j⟩)).toInt := by
  unfold ScatterDims.start
  rw [dif_pos (show (0 : Fin 2) ∈ (rowScatterDims N E C wf).scatterDimsToOperandDims from
    List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = eIdx ⟨(j 0).val, idx2_lt0 j⟩ := by
    funext b; refine Fin.ext ?_
    match b with
    | ⟨0, _⟩ => rfl
    | ⟨1, _⟩ => rfl
  rw [hsi]

/-- The row scatter's start on axis 1: none. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg (fun h => absurd (congrArg Fin.val (List.mem_singleton.mp h)) Nat.one_ne_zero)]

/-- The row scatter's window coordinate on axis 0 (the inserted axis): none. -/
theorem rowScatter_window0 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := rfl

/-- The row scatter's window coordinate on axis 1: the update's column. -/
theorem rowScatter_window1 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := rfl

/-- WHERE A ROW UPDATE LANDS: update `(e, c)` lands on `(n, c')` exactly when edge `e`'s start, read signed
    and not clamped, is `n`, and `c = c'`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (eIdx ⟨(j 0).val, idx2_lt0 j⟩)).toInt = ((i 0).val : Int) ∧ (j 1).val = (i 1).val := by
  unfold ScatterDims.resultIdx?
  constructor
  · intro h
    split at h
    · rename_i hc
      have hi := Option.some.inj h
      have key : ∀ a, ((rowScatterDims N E C wf).start j idx a
          + ((rowScatterDims N E C wf).window j a : Int)).toNat = (i a).val :=
        fun a => congrArg Fin.val (congrFun hi a)
      have h0 := key 0
      have c0 := (hc 0).1
      have h1 := key 1
      rw [rowScatter_start0, rowScatter_window0] at h0 c0
      rw [rowScatter_start1, rowScatter_window1] at h1
      refine ⟨by omega, by omega⟩
    · exact absurd h (by simp)
  · rintro ⟨h0, h1⟩
    have hi0 := idx2_lt0 i
    have hj1 := idx2_lt1 j
    have hc : ∀ a, 0 ≤ (rowScatterDims N E C wf).start j idx a + ((rowScatterDims N E C wf).window j a : Int)
        ∧ (rowScatterDims N E C wf).start j idx a + ((rowScatterDims N E C wf).window j a : Int)
          < (((⟨2, ![N, C]⟩ : Shape).size a : Nat) : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [rowScatter_start0, rowScatter_window0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [rowScatter_start1, rowScatter_window1]; omega
    rw [dif_pos hc]
    congr 1
    funext a; refine Fin.ext ?_
    match a with
    | ⟨0, _⟩ =>
      show ((rowScatterDims N E C wf).start j idx 0 + ((rowScatterDims N E C wf).window j 0 : Int)).toNat = (i 0).val
      rw [rowScatter_start0, rowScatter_window0, h0]; omega
    | ⟨1, _⟩ =>
      show ((rowScatterDims N E C wf).start j idx 1 + ((rowScatterDims N E C wf).window j 1 : Int)).toNat = (i 1).val
      rw [rowScatter_start1, rowScatter_window1, ← h1]; omega

/-- The vector scatter's start on its one axis: edge `e`'s start, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = eIdx ⟨(j 0).val, (j 0).isLt⟩ := by
    funext b; refine Fin.ext ?_
    match b with
    | ⟨0, _⟩ => rfl
    | ⟨1, _⟩ => rfl
  rw [hsi]
  rfl

/-- The vector scatter's window coordinate (its one axis is inserted): none. -/
theorem vecScatter_window0 {N E : Nat}
    (wf : ScatterDims.WF ⟨1, ![N]⟩ ⟨2, ![E, 1]⟩ ⟨1, ![E]⟩ [] [0] [0] 1)
    (j : (⟨1, ![E]⟩ : Shape).Idx) : (vecScatterDims N E wf).window j 0 = 0 := rfl

/-- WHERE A SCALAR UPDATE LANDS: update `e` lands on entry `n` exactly when edge `e`'s start, read signed and
    not clamped, is `n`. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  unfold ScatterDims.resultIdx?
  constructor
  · intro h
    split at h
    · rename_i hc
      have hi := Option.some.inj h
      have h0 : ((vecScatterDims N E wf).start j idx 0
          + ((vecScatterDims N E wf).window j 0 : Int)).toNat = (i 0).val :=
        congrArg Fin.val (congrFun hi 0)
      have c0 := (hc 0).1
      rw [vecScatter_start0, vecScatter_window0] at h0 c0
      omega
    · exact absurd h (by simp)
  · intro h0
    have hi0 : (i 0).val < N := (i 0).isLt
    have hc : ∀ a, 0 ≤ (vecScatterDims N E wf).start j idx a + ((vecScatterDims N E wf).window j a : Int)
        ∧ (vecScatterDims N E wf).start j idx a + ((vecScatterDims N E wf).window j a : Int)
          < (((⟨1, ![N]⟩ : Shape).size a : Nat) : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hc]
    congr 1
    funext a; refine Fin.ext ?_
    obtain rfl : a = 0 := Subsingleton.elim _ _
    show ((vecScatterDims N E wf).start j idx 0 + ((vecScatterDims N E wf).window j 0 : Int)).toNat = (i 0).val
    rw [vecScatter_start0, vecScatter_window0, h0]; omega

end Scatter

/-! ## A nonnegative real factor through a finite sum -/

/-- A nonnegative real factor distributes over every finite sum of extended reals, whatever its terms. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The law -/

/-- THE LAW. With every factor `dinv n` a nonnegative real: aggregating (at the destinations `dst`) the rows of
    the pre-scaled table `L · dinv` read at the sources `src`, and scaling row `n` of the result by `dinv n`, is
    aggregating the rows of `L` read at the sources, each scaled by the product of its two endpoint factors. -/
theorem agg_law {N E C w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (L : (⟨2, ![N, C]⟩ : Shape).Idx → EReal) (dinv : (⟨1, ![N]⟩ : Shape).Idx → EReal)
    (hd : ∀ n, ∃ r : ℝ, 0 ≤ r ∧ dinv n = (r : EReal))
    (src : IVec ⟨2, ![E, 1]⟩ w) (dst : IVec ⟨2, ![E, 1]⟩ v) (i : (⟨2, ![N, C]⟩ : Shape).Idx) :
    (Ideal.hostScatterAdd (rowScatterDims N E C wfS) (fun _ => (0 : EReal)) dst
        (Host.gather (rowGatherDims N E C wfG) (fun p => L p * dinv (ix1 ⟨(p 0).val, idx2_lt0 p⟩)) src)) i
      * dinv (ix1 ⟨(i 0).val, idx2_lt0 i⟩)
    = Ideal.hostScatterAdd (rowScatterDims N E C wfS) (fun _ => (0 : EReal)) dst
        (fun j => Host.gather (rowGatherDims N E C wfG) L src j
          * (Host.gather (vecGatherDims N E wfg) dinv src (ix1 ⟨(j 0).val, idx2_lt0 j⟩)
            * Host.gather (vecGatherDims N E wfg) dinv dst (ix1 ⟨(j 0).val, idx2_lt0 j⟩))) i := by
  obtain ⟨r, hr, hdr⟩ := hd (ix1 ⟨(i 0).val, idx2_lt0 i⟩)
  unfold Ideal.hostScatterAdd
  rw [zero_add, zero_add, hdr, sum_mul_coe _ _ r hr]
  refine Finset.sum_congr rfl (fun j hj => ?_)
  have hland := (rowScatter_resultIdx wfS dst j i).mp (Finset.mem_filter.mp hj).2
  have e1 : clampRow hN dst ⟨(j 0).val, idx2_lt0 j⟩ = ⟨(i 0).val, idx2_lt0 i⟩ :=
    clampRow_of_eq hN dst _ _ hland.1
  beta_reduce
  rw [rowGather_apply hN wfG, rowGather_apply hN wfG, vecGather_apply hN wfg, vecGather_apply hN wfg]
  show L (ix2 (clampRow hN src ⟨(j 0).val, idx2_lt0 j⟩) ⟨(j 1).val, idx2_lt1 j⟩)
        * dinv (ix1 (clampRow hN src ⟨(j 0).val, idx2_lt0 j⟩)) * (r : EReal)
      = L (ix2 (clampRow hN src ⟨(j 0).val, idx2_lt0 j⟩) ⟨(j 1).val, idx2_lt1 j⟩)
        * (dinv (ix1 (clampRow hN src ⟨(j 0).val, idx2_lt0 j⟩))
          * dinv (ix1 (clampRow hN dst ⟨(j 0).val, idx2_lt0 j⟩)))
  rw [e1, hdr, mul_assoc]

/-! ## The degree count -/

/-- Scatter-adding ones into zeros counts: entry `n` is the number of edges whose start, read signed, is `n`. -/
theorem degree_eq_card {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    Ideal.hostScatterAdd (vecScatterDims N E wf) (fun _ => (0 : EReal)) idx (fun _ => (1 : EReal)) n
      = (((Finset.univ.filter (fun j : (⟨1, ![E]⟩ : Shape).Idx =>
          (idx (eIdx ⟨(j 0).val, (j 0).isLt⟩)).toInt = ((n 0).val : Int))).card : ℝ) : EReal) := by
  unfold Ideal.hostScatterAdd
  rw [zero_add, Finset.sum_const, nsmul_one, EReal.coe_coe_eq_natCast]
  congr 2
  exact Finset.filter_congr (fun j _ => vecScatter_resultIdx wf idx j n)

/-- … so it is a natural number, a nonnegative real. -/
theorem degree_real {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    ∃ k : ℕ, Ideal.hostScatterAdd (vecScatterDims N E wf) (fun _ => (0 : EReal)) idx (fun _ => (1 : EReal)) n
      = ((k : ℝ) : EReal) :=
  ⟨_, degree_eq_card wf idx n⟩

/-! ## The host's accumulating scatter at the ideal instance -/

/-- At the ideal instance the host's accumulating float scatter IS the exact sum (definitional). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.LibScatter.lean ====
/-
  A row scatter-add read at an index, over the extended reals.  The operand is [N, C], the scatter indices a column
  [R, 1], the updates [R, C]: update row r is added onto operand row idx[r] (the index word read signed; a row landing
  outside the operand is dropped), so each operand element gains the sum of the updates of the rows that land on it.
-/
import Idealize.ShloMosaic.PureOps.Ideal
import Idealize.ShloMosaic.Lib.ValueIdx

noncomputable section

open scoped BigOperators

namespace Cert.LibScatter

open Idealize.ShloMosaic Idealize.ShloMosaic.ValueIdx

/-- The dimension numbers of a row scatter: update window axis 1, inserted window axis 0, the one index component
    addressing axis 0, the index vector along axis 1. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

/-- Operand axis 0 is inserted: no window coordinate there. -/
private theorem window0 : (rowScatter N R C wf).window (ix2 r k) 0 = 0 := rfl
/-- Operand axis 1 carries the update's column. -/
private theorem window1 : (rowScatter N R C wf).window (ix2 r k) 1 = k.val := rfl
/-- Operand axis 1 is not addressed by the index: its start is zero. -/
private theorem start1 : (rowScatter N R C wf).start (ix2 r k) idx 1 = 0 := rfl
/-- Operand axis 0 starts at row r's index word, read signed. -/
private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

/-- Update element (r, k) lands on operand element (p, k') exactly when row r's index word is p and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  · -- the landing point is inside the operand: compare it with (p, k') coordinate by coordinate
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  · -- the landing point is outside the operand: then the word cannot be a row p < N
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

/-- THE ROW SCATTER-ADD READ AT (p, k): the operand there plus the sum, over the rows whose index word is p, of the
    update at column k. -/
theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm
  -- the update elements landing on (p, k) are exactly the (r, k) with row r's word equal to p
  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.LibGather.lean ====
/-
  A row gather read at an index.  The operand is [N, C], the start indices a column [R, 1], the result [R, C]:
  result row r is operand row idx[r], the index word read signed and clamped into the row axis.
-/
import Idealize.ShloMosaic.PureOps
import Idealize.ShloMosaic.Lib.ValueIdx

noncomputable section

namespace Cert.LibGather

open Idealize.ShloMosaic Idealize.ShloMosaic.ValueIdx

/-- The dimension numbers of a row gather: offset axis 1, collapsed axis 0, the one index component addressing
    axis 0, the index vector along axis 1, slices of one whole row. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, k): the operand at row idx[r, 0] (read signed, clamped into [0, N − 1]), column k. -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1
  -- the collapsed axis: no batching or offset coordinate, the start is the clamped index word
  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl
  -- the offset axis: the start is zero, the offset coordinate is the result's column
  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.LibSelfLoop.lean ====
/-
  SELF-LOOPS APPENDED TO AN EDGE LIST — a general lemma file (no program is named here).

  The setting. A graph on the rows 0 … 99999 is given by a list of E edge words; a self-loop at every row is added
  by laying the words 0, 1, …, 99999 after the edge words, so that the list has E + 100000 entries. Before a gather
  a word is NORMALISED: a negative word has 100000 added to it. The gather then reads the normalised word signed and
  clamped into [0, 99999].

  What the file states, in order:
    * the normalisation of a whole vector of words (nrmV), entry by entry the normalisation of a word
      (nrmV_apply);
    * a vector of E entries laid out as an [E, 1] column reads, at (e, 0), the vector's entry e (col_apply);
    * hence the clamped start of edge e in the column of the normalised words is the row the gather reads for the
      word e (clampRow_col_nrm);
    * two vectors laid end to end read, at a position below the first extent, the first vector there, and at a
      position at or past it, the second vector at the position less the first extent (cat_apply_lt,
      cat_apply_ge);
    * a filtered sum over the positions of the joined list is the filtered sum over the first E positions plus
      the filtered sum over the last N (sum_filter_split);
    * the word of a row number n < 100000, read signed, is n (iota_word_toInt); it is not negative, so its
      normalisation is itself (normW_iota) and the row a gather reads for it is n (rowOf_iota);
    * a sum over the row numbers k whose word, read signed, is n has the single term k = n (sum_filter_eq_single):
      the self-loop words land one on each row.
-/
import proofs.«419935_j81939386073613_2_alg».proof.Proof.GcnSpec
import proofs.«419935_j81939386073613_2_alg».proof.Proof.LibSegNorm
import Idealize.ShloMosaic.Lib.Pipeline.Value
import Idealize.ShloMosaic.Lib.IdealHost
import Idealize.ShloMosaic.Lib.ValueIdx

noncomputable section

open scoped BigOperators

namespace SelfLoop

open Gcn SegNorm Idealize.ShloMosaic Idealize.ShloMosaic.ValueIdx

/-! ## Normalising a vector of words -/

/-- Every negative word of the vector has 100000 added to it. -/
def nrmV {E : Nat} (hz : (⟨0, ![]⟩ : Shape).BroadcastsInDim (Sh1 E) ![]) (v : IVec (Sh1 E) 32) : IVec (Sh1 E) 32 :=
  select (cmpi .slt v (broadcastInDim (Sh1 E) ![] hz (constantI ⟨0, ![]⟩ 32 0#32)))
    (addi v (broadcastInDim (Sh1 E) ![] hz (constantI ⟨0, ![]⟩ 32 100000#32))) v

/-- Entry by entry it is the normalisation of a word. -/
theorem nrmV_apply {E : Nat} (hz : (⟨0, ![]⟩ : Shape).BroadcastsInDim (Sh1 E) ![]) (v : IVec (Sh1 E) 32)
    (e : Fin E) : nrmV hz v (ix1 e) = Gcn.normW (v (ix1 e)) := rfl

/-! ## A vector as a column -/

/-- A vector of E entries laid out as an [E, 1] column reads, at (e, 0), the vector's entry e. -/
theorem col_apply {E w : Nat} (hc : (Sh1 E).BroadcastsInDim (Sh2 E 1) ![0]) (v : IVec (Sh1 E) w) (e : Fin E) :
    broadcastInDim (Sh2 E 1) ![0] hc v (SegNorm.eIdx e) = v (ix1 e) := by
  refine broadcastInDim_apply _ hc v (SegNorm.eIdx e) (ix1 e) (fun a => ?_)
  obtain rfl : a = 0 := Subsingleton.elim _ _
  show e.val = if E = 1 then 0 else e.val
  split
  · have := e.isLt; omega
  · rfl

/-- The clamped start of edge e in the column of the normalised words is the row a gather reads for the word e. -/
theorem clampRow_col_nrm {E : Nat} (hz : (⟨0, ![]⟩ : Shape).BroadcastsInDim (Sh1 E) ![])
    (hc : (Sh1 E).BroadcastsInDim (Sh2 E 1) ![0]) (v : IVec (Sh1 E) 32) (e : Fin E) :
    SegNorm.clampRow (N := 100000) (by decide) (broadcastInDim (Sh2 E 1) ![0] hc (nrmV hz v)) e
      = Gcn.rowOf (v (ix1 e)) := by
  apply Fin.ext
  rw [SegNorm.clampRow_val, col_apply, nrmV_apply]
  rfl

/-! ## Two vectors laid end to end -/

/-- At a position below the first extent the joined vector reads the first vector there. -/
theorem cat_apply_lt {α : Type} {E N T : Nat} (hT : T = E + N)
    (hcat : Shape.Concatenates [Sh1 E, Sh1 N] (Sh1 T) 0)
    (a : (Sh1 E).Idx → α) (b : (Sh1 N).Idx → α) (i : Fin T) (hi : i.val < E) :
    concatenate (Sh1 T) 0 [⟨Sh1 E, a⟩, ⟨Sh1 N, b⟩] hcat (ix1 i) = a (ix1 ⟨i.val, hi⟩) := by
  refine concatenate_pair_apply_left (0 : Fin (Sh1 T).rank) a b hcat (ix1 i) rfl (ix1 ⟨i.val, hi⟩) (fun c => ?_)
  obtain rfl : c = 0 := Subsingleton.elim _ _
  rfl

/-- At a position at or past the first extent the joined vector reads the second vector at the position less the
    first extent. -/
theorem cat_apply_ge {α : Type} {E N T : Nat} (hT : T = E + N)
    (hcat : Shape.Concatenates [Sh1 E, Sh1 N] (Sh1 T) 0)
    (a : (Sh1 E).Idx → α) (b : (Sh1 N).Idx → α) (i : Fin T) (hi : E ≤ i.val) :
    concatenate (Sh1 T) 0 [⟨Sh1 E, a⟩, ⟨Sh1 N, b⟩] hcat (ix1 i)
      = b (ix1 ⟨i.val - E, by have := i.isLt; omega⟩) := by
  refine concatenate_pair_apply_right (0 : Fin (Sh1 T).rank) a b hcat (ix1 i) rfl rfl
    (ix1 ⟨i.val - E, by have := i.isLt; omega⟩) (fun c hc => ?_) ?_
  · obtain rfl : c = 0 := Subsingleton.elim _ _
    exact absurd rfl hc
  · show i.val - E + E = i.val
    omega

/-! ## A filtered sum over the joined positions -/

/-- The positions i < E + N with p i are the positions e < E with p e and the positions E + n, n < N, with
    p (E + n): the filtered sum splits accordingly. -/
theorem sum_filter_split {E N T : Nat} (hT : T = E + N) (p : Fin T → Prop) [DecidablePred p] (f : Fin T → EReal) :
    ∑ i ∈ Finset.univ.filter p, f i
      = (∑ e ∈ Finset.univ.filter (fun e : Fin E => p ⟨e.val, by have := e.isLt; omega⟩),
            f ⟨e.val, by have := e.isLt; omega⟩)
        + ∑ n ∈ Finset.univ.filter (fun n : Fin N => p ⟨E + n.val, by have := n.isLt; omega⟩),
            f ⟨E + n.val, by have := n.isLt; omega⟩ := by
  subst hT
  rw [Finset.sum_filter, Finset.sum_filter, Finset.sum_filter, Fin.sum_univ_add]
  rfl

/-! ## The words of the self-loops -/

/-- The 32-bit word of a row number n < 100000, read signed, is n: it is below 2^31. -/
theorem iota_word_toInt (n : Fin 100000) : (BitVec.ofNat 32 n.val).toInt = (n.val : Int) := by
  have hn := n.isLt
  have h1 : (BitVec.ofNat 32 n.val).toNat = n.val := by
    rw [BitVec.toNat_ofNat]; omega
  rw [BitVec.toInt_eq_toNat_of_lt (by rw [h1]; omega), h1]

/-- The word of a row number is not negative, so its normalisation is itself. -/
theorem normW_iota (n : Fin 100000) : Gcn.normW (BitVec.ofNat 32 n.val) = BitVec.ofNat 32 n.val := by
  have h : (BitVec.ofNat 32 n.val).slt 0#32 = false := by
    rw [BitVec.slt, iota_word_toInt]
    simp
  unfold Gcn.normW Scalar.select IntOp.cmpi
  simp [h]

/-- The row a gather reads for the word of the row number n is n. -/
theorem rowOf_iota (n : Fin 100000) : Gcn.rowOf (BitVec.ofNat 32 n.val) = n := by
  apply Fin.ext
  show min (Gcn.normW (BitVec.ofNat 32 n.val)).toInt.toNat (100000 - 1) = n.val
  rw [normW_iota, iota_word_toInt, Int.toNat_natCast]
  have := n.isLt
  omega

/-- Among the row numbers k exactly k = n has a word that, read signed, is n: a sum over them is its one term. -/
theorem sum_filter_eq_single (n : Fin 100000) (f : Fin 100000 → EReal) :
    ∑ k ∈ Finset.univ.filter (fun k : Fin 100000 => (BitVec.ofNat 32 k.val).toInt = (n.val : Int)), f k = f n := by
  have hs : Finset.univ.filter (fun k : Fin 100000 => (BitVec.ofNat 32 k.val).toInt = (n.val : Int)) = {n} := by
    ext k
    simp only [Finset.mem_filter, Finset.mem_univ, true_and, Finset.mem_singleton, iota_word_toInt]
    constructor
    · intro h; exact Fin.ext (by exact_mod_cast h)
    · rintro rfl; rfl
  rw [hs, Finset.sum_singleton]

end SelfLoop

end
-- ==== Proof.KHost.lean ====
/-
  WHAT THE HOST OPERATIONS BETWEEN THE FOUR KERNELS COMPUTE, READ AT AN INDEX.

  Between its kernels the program prepares, with array operations over whole arrays, what the next kernel is given.
  Each such array is read here at one index, over the extended reals, from ANY contents of the buffers the stretch of
  operations starts from.

  The normalisation (before kernel 1). The two rows of the edge list are the source and destination words. One is
  scattered, once per edge, onto the destination word's row of a zero vector: row n ends at the number of edges landing
  on it; one is added and the reciprocal square root taken: dinv n. The edge weight is the product of dinv read at the
  two words of the edge, each word normalised (100000 added when negative) and clamped into the rows.

  The aggregation (before kernels 2 and 3). The table the previous kernel left is given a last column dinv·dinv (the
  self-loop's weight); and its rows, read at the edges' normalised, clamped source words and scaled by the edge
  weights, are scattered onto the destination words' rows of a zero table: entry (n, c) ends at the sum over the edges
  landing on n of L[row of the source word, c] · weight. A bias vector is viewed as a one-row table; the batch vector
  as a one-column table.
-/
import proofs.«419935_j81939386073613_2_alg».proof.Proof.Gen.KernelIdeal.Launch
import proofs.«419935_j81939386073613_2_alg».proof.Proof.GcnSpec
import proofs.«419935_j81939386073613_2_alg».proof.Proof.LibSegNorm
import proofs.«419935_j81939386073613_2_alg».proof.Proof.LibScatter
import proofs.«419935_j81939386073613_2_alg».proof.Proof.LibGather
import proofs.«419935_j81939386073613_2_alg».proof.Proof.LibSelfLoop
import Idealize.ShloMosaic.Lib.StableHlo.Run
import Idealize.ShloMosaic.Lib.Pipeline.Value
import Idealize.ShloMosaic.Lib.IdealHost
import Idealize.ShloMosaic.Lib.ValueIdx
import Idealize.ShloMosaic.Lib.ValueLayout

noncomputable section

open scoped BigOperators

namespace Cert.KernelIdeal.KHost

open Cert.KernelIdeal Cert.KernelIdeal.Gen Idealize.ShloMosaic Idealize.ShloMosaic.TcCoe
open Idealize.ShloMosaic.ValueIdx
open Gcn (Sh1 Sh2)

/-- An array of extended reals with its type written out: the contents of a float buffer are such an array. -/
abbrev fv (s : Shape) (x : s.Idx → EReal) : s.Idx → EReal := x
/-- An array of 32-bit words with its type written out: the contents of an integer buffer are such an array. -/
abbrev iv (s : Shape) (x : IVec s 32) : IVec s 32 := x

/-! ## Words laid in a column, clamped; weights spread over columns -/

/-- A vector laid as a one-column table reads, at row e, the vector at e. -/
theorem col_apply {α : Type} (hc : (Sh1 1600000).BroadcastsInDim (Sh2 1600000 1) ![0]) (v : (Sh1 1600000).Idx → α)
    (e : Fin 1600000) (u : Fin 1) : broadcastInDim (Sh2 1600000 1) ![0] hc v (ix2 e u) = v (ix1 e) := by
  refine broadcastInDim_apply _ hc v (ix2 e u) (ix1 e) fun a => ?_
  match a with
  | ⟨0, _⟩ =>
    show e.val = if (1600000 : Nat) = 1 then 0 else e.val
    rw [if_neg (by decide)]

/-- The row a gather reads at the normalised word of edge e. -/
theorem row_eq (hz : (⟨0, ![]⟩ : Shape).BroadcastsInDim (Sh1 1600000) ![])
    (hc : (Sh1 1600000).BroadcastsInDim (Sh2 1600000 1) ![0]) (v : IVec (Sh1 1600000) 32) (e : Fin 1600000)
    (h : min ((broadcastInDim (Sh2 1600000 1) ![0] hc (SelfLoop.nrmV hz v)) (ix2 e (⟨0, Nat.one_pos⟩ : Fin 1))).toInt.toNat (100000 - 1) < 100000) :
    (⟨min ((broadcastInDim (Sh2 1600000 1) ![0] hc (SelfLoop.nrmV hz v)) (ix2 e (⟨0, Nat.one_pos⟩ : Fin 1))).toInt.toNat (100000 - 1), h⟩ : Fin 100000)
      = Gcn.rowOf (v (ix1 e)) := by
  apply Fin.ext
  show min _ _ = min _ _
  rw [col_apply, SelfLoop.nrmV_apply]

/-- One column of weights spread over C columns reads, at (e, c), the weight of e. -/
theorem spread_apply {α : Type} {C : Nat} (hb : (Sh2 1600000 1).BroadcastsInDim (Sh2 1600000 C) ![0, 1])
    (w : (Sh2 1600000 1).Idx → α) (e : Fin 1600000) (c : Fin C) :
    broadcastInDim (Sh2 1600000 C) ![0, 1] hb w (ix2 e c) = w (ix2 e (0 : Fin 1)) := by
  refine broadcastInDim_apply _ hb w (ix2 e c) (ix2 e (0 : Fin 1)) fun a => ?_
  match a with
  | ⟨0, _⟩ =>
    show e.val = if (1600000 : Nat) = 1 then 0 else e.val
    rw [if_neg (by decide)]
  | ⟨1, _⟩ => rfl

/-! ## The aggregation, for any number of columns -/

/-- Rows of a table read at the edges' normalised, clamped source words, scaled by a weight per edge and scattered onto
    the destination words' rows of a zero table: entry (n, c) is the sum, over the edges whose destination word is n,
    of the table at the source word's row times the edge's weight. -/
theorem agg_apply {C : Nat}
    (wfG : GatherDims.WF (Sh2 100000 C) (Sh2 1600000 1) (Sh2 1600000 C) [1] [0] [] [0] [] 1 ![1, C])
    (wfS : ScatterDims.WF (Sh2 100000 C) (Sh2 1600000 1) (Sh2 1600000 C) [1] [0] [0] 1)
    (hz : (⟨0, ![]⟩ : Shape).BroadcastsInDim (Sh1 1600000) ![])
    (hc : (Sh1 1600000).BroadcastsInDim (Sh2 1600000 1) ![0])
    (hb : (Sh2 1600000 1).BroadcastsInDim (Sh2 1600000 C) ![0, 1])
    (hzz : (⟨0, ![]⟩ : Shape).BroadcastsInDim (Sh2 100000 C) ![])
    (L : FVec Ideal (Sh2 100000 C) .f32) (src dst : IVec (Sh1 1600000) 32) (en : FVec Ideal (Sh2 1600000 1) .f32)
    (n : Fin 100000) (c : Fin C) :
    Host.scatterAdd (F := Ideal) (Cert.LibScatter.rowScatter 100000 1600000 C wfS)
        (broadcastInDim (Sh2 100000 C) ![] hzz (constant (F := Ideal) ⟨0, ![]⟩ .f32 0x00000000#32))
        (broadcastInDim (Sh2 1600000 1) ![0] hc dst)
        (mulf (Host.gather (Cert.LibGather.rowGather 100000 1600000 C wfG) L
            (broadcastInDim (Sh2 1600000 1) ![0] hc (SelfLoop.nrmV hz src)))
          (broadcastInDim (Sh2 1600000 C) ![0, 1] hb en)) (ix2 n c)
      = ∑ e ∈ Finset.univ.filter (fun e : Fin 1600000 => (dst (ix1 e)).toInt = (n.val : Int)),
          L (ix2 (Gcn.rowOf (src (ix1 e))) c) * en (ix2 e (0 : Fin 1)) := by
  rw [SegNorm.scatterAdd_ideal, Cert.LibScatter.scatterAdd_row_apply wfS]
  rw [broadcastInDim_scalar_apply, constant_apply, Ideal.ofBits_zero_f32, zero_add]
  refine Finset.sum_congr (Finset.filter_congr fun r _ => by rw [col_apply]) fun r _ => ?_
  rw [mulf_apply, spread_apply, Cert.LibGather.gather_row_apply (by decide : 0 < 100000) wfG, row_eq]

/-! ## The normalisation, as general facts -/

/-- The index [e, 0] of edge e's start, by coordinates. -/
theorem eIdx_eq {E : Nat} (e : Fin E) : SegNorm.eIdx e = ix2 e (⟨0, Nat.one_pos⟩ : Fin 1) := by
  funext a
  match a with
  | ⟨0, _⟩ => rfl
  | ⟨1, _⟩ => rfl

/-- A scatter-add of one scalar per edge read at entry p: the operand there plus the sum of the updates of the edges whose
    word, read signed, is p. -/
theorem vecScatterAdd_apply {N E w : Nat} (wf : ScatterDims.WF ⟨1, ![N]⟩ ⟨2, ![E, 1]⟩ ⟨1, ![E]⟩ [] [0] [0] 1)
    (x : (Sh1 N).Idx → EReal) (idx : IVec (Sh2 E 1) w) (upd : (Sh1 E).Idx → EReal) (p : Fin N) :
    Ideal.hostScatterAdd (SegNorm.vecScatterDims N E wf) x idx upd (ix1 p)
      = x (ix1 p) + ∑ r ∈ Finset.univ.filter (fun r : Fin E => (idx (ix2 r (⟨0, Nat.one_pos⟩ : Fin 1))).toInt = (p.val : ℤ)),
          upd (ix1 r) := by
  unfold Ideal.hostScatterAdd
  congr 1
  symm
  refine Finset.sum_bij (fun r _ => ix1 r) ?_ ?_ ?_ ?_
  · intro r hr
    rw [Finset.mem_filter] at hr ⊢
    refine ⟨Finset.mem_univ _, (SegNorm.vecScatter_resultIdx wf idx (ix1 r) (ix1 p)).mpr ?_⟩
    show (idx (SegNorm.eIdx r)).toInt = (p.val : ℤ)
    rw [eIdx_eq]
    exact hr.2
  · intro r₁ _ r₂ _ h
    exact congrFun h 0
  · intro j hj
    obtain ⟨a, rfl⟩ : ∃ a : Fin E, j = ix1 a := ⟨j 0, eq_ix1 j⟩
    rw [Finset.mem_filter] at hj
    have h2 : (idx (SegNorm.eIdx a)).toInt = (p.val : ℤ) := (SegNorm.vecScatter_resultIdx wf idx (ix1 a) (ix1 p)).mp hj.2
    rw [eIdx_eq] at h2
    exact ⟨a, by rw [Finset.mem_filter]; exact ⟨Finset.mem_univ _, h2⟩, rfl⟩
  · intro r _
    rfl

/-- The host's reciprocal square root read at an index. -/
theorem hostRsqrt_apply {s : Shape} {φ : FTy} (x : FVec Ideal s φ) (i : s.Idx) : Host.rsqrt (F := Ideal) x i = Ideal.rsqrt (x i) := rfl

/-- Ones scattered, one per edge, onto a zero vector, one added and the reciprocal square root taken: at row n the
    reciprocal square root of one plus the number of edges whose destination word is n. -/
theorem dinv_term_apply (wf : ScatterDims.WF ⟨1, ![100000]⟩ ⟨2, ![1600000, 1]⟩ ⟨1, ![1600000]⟩ [] [0] [0] 1)
    (hzE : (⟨0, ![]⟩ : Shape).BroadcastsInDim (Sh1 1600000) ![]) (hzN : (⟨0, ![]⟩ : Shape).BroadcastsInDim (Sh1 100000) ![])
    (hc : (Sh1 1600000).BroadcastsInDim (Sh2 1600000 1) ![0]) (dst : IVec (Sh1 1600000) 32) (n : Fin 100000) :
    Host.rsqrt (F := Ideal) (addf
        (Host.scatterAdd (F := Ideal) (SegNorm.vecScatterDims 100000 1600000 wf)
          (broadcastInDim (Sh1 100000) ![] hzN (constant (F := Ideal) ⟨0, ![]⟩ .f32 0x00000000#32))
          (broadcastInDim (Sh2 1600000 1) ![0] hc dst)
          (broadcastInDim (Sh1 1600000) ![] hzE (constant (F := Ideal) ⟨0, ![]⟩ .f32 0x3F800000#32)))
        (broadcastInDim (Sh1 100000) ![] hzN (constant (F := Ideal) ⟨0, ![]⟩ .f32 0x3F800000#32))) (ix1 n)
      = Ideal.rsqrt ((∑ _e ∈ Finset.univ.filter (fun e : Fin 1600000 => (dst (ix1 e)).toInt = (n.val : Int)), (1 : EReal)) + 1) := by
  rw [hostRsqrt_apply, addf_apply, SegNorm.scatterAdd_ideal, vecScatterAdd_apply, broadcastInDim_scalar_apply,
    broadcastInDim_scalar_apply, constant_apply, constant_apply, Ideal.ofBits_zero_f32, Ideal.ofBits_one_f32, zero_add]
  refine congrArg (fun s : EReal => Ideal.rsqrt (s + 1)) ?_
  refine Finset.sum_congr (Finset.filter_congr fun r _ => by rw [col_apply]) fun r _ => ?_
  rw [broadcastInDim_scalar_apply, constant_apply, Ideal.ofBits_one_f32]

/-- A vector read at the edges' normalised, clamped words: at edge e the vector at the row of e's word. -/
theorem vecGather_nrm_apply {α : Type} (wf : GatherDims.WF ⟨1, ![100000]⟩ ⟨2, ![1600000, 1]⟩ ⟨1, ![1600000]⟩ [] [0] [] [0] [] 1 ![1])
    (hz : (⟨0, ![]⟩ : Shape).BroadcastsInDim (Sh1 1600000) ![]) (hc : (Sh1 1600000).BroadcastsInDim (Sh2 1600000 1) ![0])
    (x : (Sh1 100000).Idx → α) (v : IVec (Sh1 1600000) 32) (e : Fin 1600000) :
    Host.gather (SegNorm.vecGatherDims 100000 1600000 wf) x (broadcastInDim (Sh2 1600000 1) ![0] hc (SelfLoop.nrmV hz v)) (ix1 e)
      = x (ix1 (Gcn.rowOf (v (ix1 e)))) := by
  rw [SegNorm.vecGather_apply (by decide : 0 < 100000) wf]
  show x (ix1 (SegNorm.clampRow (N := 100000) (by decide) (broadcastInDim (Sh2 1600000 1) ![0] hc (SelfLoop.nrmV hz v)) e)) = _
  rw [SelfLoop.clampRow_col_nrm]

/-- A vector viewed as a one-column table reads, at (e, 0), the vector at e. -/
theorem asCol_apply {α : Type} {a : Nat} (x : (Sh1 a).Idx → α) (h : (Sh1 a).ShapeCasts (Sh2 a 1)) (e : Fin a) (u : Fin 1) :
    shapeCast (Sh2 a 1) x h (ix2 e u) = x (ix1 e) :=
  shapeCast_apply x h _ _ (by
    have hu : u.val = 0 := by omega
    rw [Shape.rowMajor_val_two, Shape.rowMajor_val_one]
    show e.val = e.val * 1 + u.val
    rw [hu, Nat.mul_one, Nat.add_zero])

/-! ## The program's arrays before kernel 1, from the edge list -/

/-- The source words as the program forms them: row 0 of the edge list, as a vector. -/
def srcV (a1 : IVec S2x1600000 32) : IVec S1600000 32 :=
  shapeCast S1600000 (extractStridedSlice S1x1600000 ![0, 0] a1 slices_S2x1600000_S1x1600000_0_0) shapeCasts_S1x1600000_S1600000
/-- The destination words: row 1. -/
def dstV (a1 : IVec S2x1600000 32) : IVec S1600000 32 :=
  shapeCast S1600000 (extractStridedSlice S1x1600000 ![1, 0] a1 slices_S2x1600000_S1x1600000_1_0) shapeCasts_S1x1600000_S1600000
/-- The factors: the reciprocal square root of one plus the scatter-add of ones over the destination words. -/
def dinvV (a1 : IVec S2x1600000 32) : FVec Ideal S100000 .f32 :=
  Host.rsqrt (F := Ideal) (addf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 (dstV a1))
      (broadcastInDim S1600000 ![] bcast_S_S1600000 (constant (F := Ideal) S_ .f32 0x3F800000#32)))
    (broadcastInDim S100000 ![] bcast_S_S100000 (constant (F := Ideal) S_ .f32 0x3F800000#32)))
/-- The edge weights: the products of the factors read at the two normalised, clamped words of each edge. -/
def enormV (a1 : IVec S2x1600000 32) : FVec Ideal S1600000 .f32 :=
  mulf (Host.gather gather_S100000_S1600000x1_S1600000_n_0_n_n_0_1_1 (dinvV a1)
      (broadcastInDim S1600000x1 ![0] bcast_S1600000_S1600000x1_0 (SelfLoop.nrmV bcast_S_S1600000 (srcV a1))))
    (Host.gather gather_S100000_S1600000x1_S1600000_n_0_n_n_0_1_1 (dinvV a1)
      (broadcastInDim S1600000x1 ![0] bcast_S1600000_S1600000x1_0 (SelfLoop.nrmV bcast_S_S1600000 (dstV a1))))

theorem srcV_apply (a1 : IVec S2x1600000 32) (e : Fin 1600000) : srcV a1 (ix1 e) = Gcn.srcW a1 e := by
  unfold srcV
  rw [shapeCast_1a_a_apply]
  exact slice2_axis0_apply 0 a1 _ (0 : Fin 1) e (0 : Fin 2) rfl

theorem dstV_apply (a1 : IVec S2x1600000 32) (e : Fin 1600000) : dstV a1 (ix1 e) = Gcn.dstW a1 e := by
  unfold dstV
  rw [shapeCast_1a_a_apply]
  exact slice2_axis0_apply 1 a1 _ (0 : Fin 1) e (1 : Fin 2) rfl

theorem dinvV_apply (a1 : IVec S2x1600000 32) (n : Fin 100000) : dinvV a1 (ix1 n) = Gcn.dinv a1 n := by
  unfold dinvV
  refine (dinv_term_apply scatter_S100000_S1600000x1_S1600000_n_0_0_1_wf _ _ _ (dstV a1) n).trans ?_
  unfold Gcn.dinv Gcn.deg Gcn.into
  refine congrArg (fun s : EReal => Ideal.rsqrt (s + 1)) ?_
  exact Finset.sum_congr (Finset.filter_congr fun e _ => by rw [dstV_apply]) fun _ _ => rfl

theorem enormV_apply (a1 : IVec S2x1600000 32) (e : Fin 1600000) : enormV a1 (ix1 e) = Gcn.enorm a1 e := by
  unfold enormV
  rw [mulf_apply]
  refine (congrArg₂ (· * ·) (vecGather_nrm_apply gather_S100000_S1600000x1_S1600000_n_0_n_n_0_1_1_wf _ _ (dinvV a1) (srcV a1) e)
    (vecGather_nrm_apply gather_S100000_S1600000x1_S1600000_n_0_n_n_0_1_1_wf _ _ (dinvV a1) (dstV a1) e)).trans ?_
  rw [dinvV_apply, dinvV_apply, srcV_apply, dstV_apply]
  rfl

section Stretch
variable (W : Valuation τ sig (Elt Ideal))

/-! ## Between kernels 1 and 2 -/

/-- Kernel 1's table with the self-loop's weights appended, as the two pieces laid side by side. -/
theorem v30_eq :
    (StableHlo.after (hostOps1 (F := Ideal)) W (Proc.devRef .tc main_v30) : S100000x65.Idx → EReal)
      = concatenate S100000x65 1 [⟨S100000x64, (W (Proc.devRef .tc main_v29) : S100000x64.Idx → EReal)⟩,
          ⟨S100000x1, (W (Proc.devRef .tc main_v12) : S100000x1.Idx → EReal)⟩] concatenates_S100000x64_S100000x1_S100000x65_d1 := by
  after_results_simp <;> rfl

/-- A column below 64 of it is kernel 1's table. -/
theorem v30_apply_lt (n : Fin 100000) (k : Fin 64) :
    (StableHlo.after (hostOps1 (F := Ideal)) W (Proc.devRef .tc main_v30) : S100000x65.Idx → EReal) (ix2 n (⟨k.val, by omega⟩ : Fin 65))
      = (W (Proc.devRef .tc main_v29) : S100000x64.Idx → EReal) (ix2 n k) := by
  rw [v30_eq]
  refine concatenate_pair_apply_left (t := S100000x65) (s₁ := S100000x64) (s₂ := S100000x1) 1 _ _ _ _ rfl (ix2 n k) fun b => ?_
  match b with
  | ⟨0, _⟩ => rfl
  | ⟨1, _⟩ => rfl

/-- Its last column is the self-loop's weight. -/
theorem v30_apply_last (n : Fin 100000) :
    (StableHlo.after (hostOps1 (F := Ideal)) W (Proc.devRef .tc main_v30) : S100000x65.Idx → EReal) (ix2 n (64 : Fin 65))
      = (W (Proc.devRef .tc main_v12) : S100000x1.Idx → EReal) (ix2 n (0 : Fin 1)) := by
  rw [v30_eq]
  refine concatenate_pair_apply_right (t := S100000x65) (s₁ := S100000x64) (s₂ := S100000x1) 1 _ _ _ _ rfl rfl
    (ix2 n (0 : Fin 1)) (fun b hb => ?_) rfl
  match b with
  | ⟨0, _⟩ => rfl
  | ⟨1, _⟩ => exact absurd rfl hb

set_option maxHeartbeats 1000000 in
/-- The aggregate kernel 2 is given, as the scatter-add of the gathered, weighted rows. -/
theorem v42_eq :
    (StableHlo.after (hostOps1 (F := Ideal)) W (Proc.devRef .tc main_v42) : S100000x64.Idx → EReal)
      = Host.scatterAdd (F := Ideal) (Cert.LibScatter.rowScatter 100000 1600000 64 scatter_S100000x64_S1600000x1_S1600000x64_1_0_0_1_wf)
        (broadcastInDim S100000x64 ![] bcast_S_S100000x64 (constant (F := Ideal) S_ .f32 0x00000000#32))
        (broadcastInDim S1600000x1 ![0] bcast_S1600000_S1600000x1_0 (W (Proc.devRef .tc main_v3) : IVec S1600000 32))
        (mulf (Host.gather (Cert.LibGather.rowGather 100000 1600000 64 gather_S100000x64_S1600000x1_S1600000x64_1_0_n_n_0_1_164_wf)
            (W (Proc.devRef .tc main_v29) : S100000x64.Idx → EReal)
            (broadcastInDim S1600000x1 ![0] bcast_S1600000_S1600000x1_0 (SelfLoop.nrmV bcast_S_S1600000 (W (Proc.devRef .tc main_v1) : IVec S1600000 32))))
          (broadcastInDim S1600000x64 ![0, 1] bcast_S1600000x1_S1600000x64_0_1 (W (Proc.devRef .tc main_v28) : S1600000x1.Idx → EReal))) := by
  after_results_simp <;> rfl

/-- At (n, c) it is the sum over the edges whose destination word is n of kernel 1's table at the source word's row, times
    the edge's weight. -/
theorem v42_apply (n : Fin 100000) (c : Fin 64) :
    (StableHlo.after (hostOps1 (F := Ideal)) W (Proc.devRef .tc main_v42) : S100000x64.Idx → EReal) (ix2 n c)
      = ∑ e ∈ Finset.univ.filter (fun e : Fin 1600000 => BitVec.toInt (iv S1600000 (W (Proc.devRef .tc main_v3)) (ix1 e)) = (n.val : Int)),
          fv S100000x64 (W (Proc.devRef .tc main_v29)) (ix2 (Gcn.rowOf (iv S1600000 (W (Proc.devRef .tc main_v1)) (ix1 e))) c)
            * fv S1600000x1 (W (Proc.devRef .tc main_v28)) (ix2 e (0 : Fin 1)) := by
  rw [v42_eq]
  exact agg_apply _ _ _ _ _ _ _ _ _ _ n c

/-- The first layer's bias as a one-row table. -/
theorem v43_apply (k : Fin 64) :
    (StableHlo.after (hostOps1 (F := Ideal)) W (Proc.devRef .tc main_v43) : S1x64.Idx → EReal) (ix2 (0 : Fin 1) k)
      = (W (Proc.devRef .tc main_arg5) : S64.Idx → EReal) (ix1 k) := by
  have e : (StableHlo.after (hostOps1 (F := Ideal)) W (Proc.devRef .tc main_v43) : S1x64.Idx → EReal)
      = shapeCast S1x64 (W (Proc.devRef .tc main_arg5) : S64.Idx → EReal) shapeCasts_S64_S1x64 := by
    after_results_simp <;> rfl
  rw [e]
  exact shapeCast_a_1a_apply _ _ _ _

/-! ## Before kernel 1 -/

set_option maxHeartbeats 1000000 in
/-- The source words. -/
theorem v1_eq : (StableHlo.after (hostOps0 (F := Ideal)) W (Proc.devRef .tc main_v1) : IVec S1600000 32)
    = srcV (W (Proc.devRef .tc main_arg1)) := by
  after_results_simp <;> rfl

set_option maxHeartbeats 1000000 in
/-- The destination words. -/
theorem v3_eq : (StableHlo.after (hostOps0 (F := Ideal)) W (Proc.devRef .tc main_v3) : IVec S1600000 32)
    = dstV (W (Proc.devRef .tc main_arg1)) := by
  after_results_simp <;> rfl

set_option maxHeartbeats 1000000 in
/-- The factors. -/
theorem v10_eq : (StableHlo.after (hostOps0 (F := Ideal)) W (Proc.devRef .tc main_v10) : S100000.Idx → EReal)
    = dinvV (W (Proc.devRef .tc main_arg1)) := by
  after_results_simp <;> rfl

set_option maxHeartbeats 1000000 in
/-- The self-loop's weights, as a one-column table. -/
theorem v12_eq : (StableHlo.after (hostOps0 (F := Ideal)) W (Proc.devRef .tc main_v12) : S100000x1.Idx → EReal)
    = shapeCast S100000x1 (mulf (dinvV (W (Proc.devRef .tc main_arg1))) (dinvV (W (Proc.devRef .tc main_arg1)))) shapeCasts_S100000_S100000x1 := by
  after_results_simp <;> rfl

set_option maxHeartbeats 2000000 in
/-- The edge weights, as a one-column table. -/
theorem v28_eq : (StableHlo.after (hostOps0 (F := Ideal)) W (Proc.devRef .tc main_v28) : S1600000x1.Idx → EReal)
    = shapeCast S1600000x1 (enormV (W (Proc.devRef .tc main_arg1))) shapeCasts_S1600000_S1600000x1 := by
  after_results_simp <;> rfl

/-- Edge e's source word is the edge list's entry (0, e). -/
theorem v1_apply (e : Fin 1600000) :
    (StableHlo.after (hostOps0 (F := Ideal)) W (Proc.devRef .tc main_v1) : IVec S1600000 32) (ix1 e)
      = Gcn.srcW (W (Proc.devRef .tc main_arg1)) e := by
  rw [v1_eq]
  exact srcV_apply _ e

/-- Edge e's destination word is the edge list's entry (1, e). -/
theorem v3_apply (e : Fin 1600000) :
    (StableHlo.after (hostOps0 (F := Ideal)) W (Proc.devRef .tc main_v3) : IVec S1600000 32) (ix1 e)
      = Gcn.dstW (W (Proc.devRef .tc main_arg1)) e := by
  rw [v3_eq]
  exact dstV_apply _ e

/-- Row n's factor: the reciprocal square root of one plus the number of edges landing on n. -/
theorem v10_apply (n : Fin 100000) :
    (StableHlo.after (hostOps0 (F := Ideal)) W (Proc.devRef .tc main_v10) : S100000.Idx → EReal) (ix1 n)
      = Gcn.dinv (W (Proc.devRef .tc main_arg1)) n := by
  rw [v10_eq]
  exact dinvV_apply _ n

/-- Row n's self-loop weight: its factor squared. -/
theorem v12_apply (n : Fin 100000) :
    (StableHlo.after (hostOps0 (F := Ideal)) W (Proc.devRef .tc main_v12) : S100000x1.Idx → EReal) (ix2 n (0 : Fin 1))
      = Gcn.dinv (W (Proc.devRef .tc main_arg1)) n * Gcn.dinv (W (Proc.devRef .tc main_arg1)) n := by
  rw [v12_eq, asCol_apply, mulf_apply, dinvV_apply]

/-- Edge e's weight: the factors of the rows its two words read. -/
theorem v28_apply (e : Fin 1600000) :
    (StableHlo.after (hostOps0 (F := Ideal)) W (Proc.devRef .tc main_v28) : S1600000x1.Idx → EReal) (ix2 e (0 : Fin 1))
      = Gcn.enorm (W (Proc.devRef .tc main_arg1)) e := by
  rw [v28_eq, asCol_apply]
  exact enormV_apply _ e

/-! ## Between kernels 2 and 3 -/

/-- Kernel 2's table with the self-loop's weights appended, as the two pieces laid side by side. -/
theorem v45_eq :
    (StableHlo.after (hostOps2 (F := Ideal)) W (Proc.devRef .tc main_v45) : S100000x9.Idx → EReal)
      = concatenate S100000x9 1 [⟨S100000x8, (W (Proc.devRef .tc main_v44) : S100000x8.Idx → EReal)⟩,
          ⟨S100000x1, (W (Proc.devRef .tc main_v12) : S100000x1.Idx → EReal)⟩] concatenates_S100000x8_S100000x1_S100000x9_d1 := by
  after_results_simp <;> rfl

/-- A column below 8 of it is kernel 2's table. -/
theorem v45_apply_lt (n : Fin 100000) (k : Fin 8) :
    (StableHlo.after (hostOps2 (F := Ideal)) W (Proc.devRef .tc main_v45) : S100000x9.Idx → EReal) (ix2 n (⟨k.val, by omega⟩ : Fin 9))
      = (W (Proc.devRef .tc main_v44) : S100000x8.Idx → EReal) (ix2 n k) := by
  rw [v45_eq]
  refine concatenate_pair_apply_left (t := S100000x9) (s₁ := S100000x8) (s₂ := S100000x1) 1 _ _ _ _ rfl (ix2 n k) fun b => ?_
  match b with
  | ⟨0, _⟩ => rfl
  | ⟨1, _⟩ => rfl

/-- Its last column is the self-loop's weight. -/
theorem v45_apply_last (n : Fin 100000) :
    (StableHlo.after (hostOps2 (F := Ideal)) W (Proc.devRef .tc main_v45) : S100000x9.Idx → EReal) (ix2 n (8 : Fin 9))
      = (W (Proc.devRef .tc main_v12) : S100000x1.Idx → EReal) (ix2 n (0 : Fin 1)) := by
  rw [v45_eq]
  refine concatenate_pair_apply_right (t := S100000x9) (s₁ := S100000x8) (s₂ := S100000x1) 1 _ _ _ _ rfl rfl
    (ix2 n (0 : Fin 1)) (fun b hb => ?_) rfl
  match b with
  | ⟨0, _⟩ => rfl
  | ⟨1, _⟩ => exact absurd rfl hb

set_option maxHeartbeats 1000000 in
/-- The aggregate kernel 3 is given, as the scatter-add of the gathered, weighted rows. -/
theorem v57_eq :
    (StableHlo.after (hostOps2 (F := Ideal)) W (Proc.devRef .tc main_v57) : S100000x8.Idx → EReal)
      = Host.scatterAdd (F := Ideal) (Cert.LibScatter.rowScatter 100000 1600000 8 scatter_S100000x8_S1600000x1_S1600000x8_1_0_0_1_wf)
        (broadcastInDim S100000x8 ![] bcast_S_S100000x8 (constant (F := Ideal) S_ .f32 0x00000000#32))
        (broadcastInDim S1600000x1 ![0] bcast_S1600000_S1600000x1_0 (W (Proc.devRef .tc main_v3) : IVec S1600000 32))
        (mulf (Host.gather (Cert.LibGather.rowGather 100000 1600000 8 gather_S100000x8_S1600000x1_S1600000x8_1_0_n_n_0_1_18_wf)
            (W (Proc.devRef .tc main_v44) : S100000x8.Idx → EReal)
            (broadcastInDim S1600000x1 ![0] bcast_S1600000_S1600000x1_0 (SelfLoop.nrmV bcast_S_S1600000 (W (Proc.devRef .tc main_v1) : IVec S1600000 32))))
          (broadcastInDim S1600000x8 ![0, 1] bcast_S1600000x1_S1600000x8_0_1 (W (Proc.devRef .tc main_v28) : S1600000x1.Idx → EReal))) := by
  after_results_simp <;> rfl

/-- At (n, c) it is the sum over the edges whose destination word is n of kernel 2's table at the source word's row, times
    the edge's weight. -/
theorem v57_apply (n : Fin 100000) (c : Fin 8) :
    (StableHlo.after (hostOps2 (F := Ideal)) W (Proc.devRef .tc main_v57) : S100000x8.Idx → EReal) (ix2 n c)
      = ∑ e ∈ Finset.univ.filter (fun e : Fin 1600000 => BitVec.toInt (iv S1600000 (W (Proc.devRef .tc main_v3)) (ix1 e)) = (n.val : Int)),
          fv S100000x8 (W (Proc.devRef .tc main_v44)) (ix2 (Gcn.rowOf (iv S1600000 (W (Proc.devRef .tc main_v1)) (ix1 e))) c)
            * fv S1600000x1 (W (Proc.devRef .tc main_v28)) (ix2 e (0 : Fin 1)) := by
  rw [v57_eq]
  exact agg_apply _ _ _ _ _ _ _ _ _ _ n c

/-- The batch words as a one-column table. -/
theorem v58_apply (n : Fin 100000) :
    (StableHlo.after (hostOps2 (F := Ideal)) W (Proc.devRef .tc main_v58) : IVec S100000x1 32) (ix2 n (0 : Fin 1))
      = (W (Proc.devRef .tc main_arg2) : IVec S100000 32) (ix1 n) := by
  have e : (StableHlo.after (hostOps2 (F := Ideal)) W (Proc.devRef .tc main_v58) : IVec S100000x1 32)
      = shapeCast S100000x1 (W (Proc.devRef .tc main_arg2) : IVec S100000 32) shapeCasts_S100000_S100000x1 := by
    after_results_simp <;> rfl
  rw [e]
  exact asCol_apply _ _ _ _

/-- The second layer's bias as a one-row table. -/
theorem v59_apply (k : Fin 8) :
    (StableHlo.after (hostOps2 (F := Ideal)) W (Proc.devRef .tc main_v59) : S1x8.Idx → EReal) (ix2 (0 : Fin 1) k)
      = (W (Proc.devRef .tc main_arg7) : S8.Idx → EReal) (ix1 k) := by
  have e : (StableHlo.after (hostOps2 (F := Ideal)) W (Proc.devRef .tc main_v59) : S1x8.Idx → EReal)
      = shapeCast S1x8 (W (Proc.devRef .tc main_arg7) : S8.Idx → EReal) shapeCasts_S8_S1x8 := by
    after_results_simp <;> rfl
  rw [e]
  exact shapeCast_a_1a_apply _ _ _ _

/-! ## Between kernels 3 and 4 -/

/-- The first dense layer's bias as a one-row table. -/
theorem v61_apply (k : Fin 16) :
    (StableHlo.after (hostOps3 (F := Ideal)) W (Proc.devRef .tc main_v61) : S1x16.Idx → EReal) (ix2 (0 : Fin 1) k)
      = (W (Proc.devRef .tc main_arg9) : S16.Idx → EReal) (ix1 k) := by
  have e : (StableHlo.after (hostOps3 (F := Ideal)) W (Proc.devRef .tc main_v61) : S1x16.Idx → EReal)
      = shapeCast S1x16 (W (Proc.devRef .tc main_arg9) : S16.Idx → EReal) shapeCasts_S16_S1x16 := by
    after_results_simp <;> rfl
  rw [e]
  exact shapeCast_a_1a_apply _ _ _ _

/-- The second dense layer's bias as a one-row table. -/
theorem v62_apply (o : Fin 1) :
    (StableHlo.after (hostOps3 (F := Ideal)) W (Proc.devRef .tc main_v62) : S1x1.Idx → EReal) (ix2 (0 : Fin 1) o)
      = (W (Proc.devRef .tc main_arg11) : S1.Idx → EReal) (ix1 o) := by
  have e : (StableHlo.after (hostOps3 (F := Ideal)) W (Proc.devRef .tc main_v62) : S1x1.Idx → EReal)
      = shapeCast S1x1 (W (Proc.devRef .tc main_arg11) : S1.Idx → EReal) shapeCasts_S1_S1x1 := by
    after_results_simp <;> rfl
  rw [e]
  exact shapeCast_a_1a_apply _ _ _ _

end Stretch

end Cert.KernelIdeal.KHost

end
-- ==== Proof.KFinal.lean ====
/-
  The idealized kernel program computes the network of the specification: its run ends with the result buffer at the
  last boundary's contents, and those contents, read back through the four kernels' output arrays and the host
  operations between them, are the specification's function of the twelve argument arrays as launched.
-/
import proofs.«419935_j81939386073613_2_alg».proof.Proof.KernelRun
import proofs.«419935_j81939386073613_2_alg».proof.Proof.KValue
import proofs.«419935_j81939386073613_2_alg».proof.Proof.KReg0
import proofs.«419935_j81939386073613_2_alg».proof.Proof.KReg1
import proofs.«419935_j81939386073613_2_alg».proof.Proof.KReg2
import proofs.«419935_j81939386073613_2_alg».proof.Proof.KReg3
import proofs.«419935_j81939386073613_2_alg».proof.Proof.KHost

set_option maxRecDepth 16384

noncomputable section

namespace Cert.KernelIdeal.KFinal

open Cert.KernelIdeal Cert.KernelIdeal.Gen Idealize.ShloMosaic Idealize.ShloMosaic.TcCoe Idealize.SL.Sem
open Idealize.ShloMosaic.ValueIdx

/-- The four kernels' output arrays. -/
theorem kernels : KValue.Kernels := ⟨KReg0.val, KReg1.val, KReg2.val, KReg3.val⟩

/-- The host stretches' buffers read at an entry. -/
theorem host : KValue.Host :=
  ⟨KHost.v1_apply, KHost.v3_apply, KHost.v12_apply, KHost.v28_apply,
   KHost.v30_apply_lt, KHost.v30_apply_last, KHost.v42_apply, KHost.v43_apply,
   KHost.v45_apply_lt, KHost.v45_apply_last, KHost.v57_apply, KHost.v58_apply, KHost.v59_apply,
   KHost.v61_apply, KHost.v62_apply⟩

/-- Every run of the idealized kernel program ends with the specification's function of the arguments in the result
    buffer, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
        = Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (KValue.w8_v63 m ρ c kernels host), (h c).2⟩) (Run.run (F := Ideal) m ρ)

end Cert.KernelIdeal.KFinal

end
-- ==== Proof.RefTerm.lean ====
/-
  The reference program's values as pure terms.

  Each definition below is the composite of the printed operations that produce one value of the reference
  program, written over the program's own shapes and dimension records; nothing else. The edge words are a
  [2, 1600000] array: row 0 the sources, row 1 the destinations. Both layers append the 100000 self-loops
  (the iota) to each row, count the destinations' in-degrees by a scatter-add of ones, take the inverse
  square root where the degree is positive, weight each edge by the product of the two factors its words
  gather, aggregate the gathered, weighted source rows on the destinations by a scatter-add, and add the
  bias. The rows of each graph are then averaged (a scatter-add of the rows over the batch words, divided
  by the count clamped below by one), the global features appended, and two dense layers applied, each
  followed by the leaky rectifier.
-/
import proofs.«419935_j81939386073613_2_alg».proof.ReferenceIdeal

noncomputable section

namespace Cert.ReferenceIdeal.RefTerm

open Idealize.ShloMosaic Idealize.SL.Sem
open Cert.ReferenceIdeal

variable {F : FTy → Type} [FloatOps F]

section
variable [Facts₀]
open Facts₀

/-- Row 0 of the edge words, as a vector: the sources. -/
def src (a1 : IVec S2x1600000 32) : IVec S1600000 32 :=
  shapeCast S1600000 (extractStridedSlice S1x1600000 ![0, 0] a1 slices_S2x1600000_S1x1600000_0_0)
    shapeCasts_S1x1600000_S1600000

/-- Row 1 of the edge words, as a vector: the destinations. -/
def dst (a1 : IVec S2x1600000 32) : IVec S1600000 32 :=
  shapeCast S1600000 (extractStridedSlice S1x1600000 ![1, 0] a1 slices_S2x1600000_S1x1600000_1_0)
    shapeCasts_S1x1600000_S1600000

/-- The edge words followed by the self-loops 0 … 99999. -/
def cat (v : IVec S1600000 32) : IVec S1700000 32 :=
  concatenate S1700000 0 [⟨S1600000, v⟩, ⟨S100000, iotaInDim S100000 32 0⟩]
    concatenates_S1600000_S100000_S1700000_d0

/-- A vector of 1700000 words as a column. -/
def col (v : IVec S1700000 32) : IVec S1700000x1 32 :=
  broadcastInDim S1700000x1 ![0] bcast_S1700000_S1700000x1_0 v

/-- A negative word is taken from the end of the table: 100000 is added to it. -/
def nrm (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The in-degree of each row, self-loop included: ones scatter-added over the destinations. -/
def deg (a1 : IVec S2x1600000 32) : FVec F S100000 .f32 :=
  Host.scatterAdd scatter_S100000_S1700000x1_S1700000_n_0_0_1
    (broadcastInDim S100000 ![] bcast_S_S100000 (constant S_ .f32 0x00000000#32))
    (col (cat (dst a1)))
    (broadcastInDim S1700000 ![] bcast_S_S1700000 (constant S_ .f32 0x3F800000#32))

/-- The inverse square root of the degree where it is positive, zero elsewhere. -/
def dinv (a1 : IVec S2x1600000 32) : FVec F S100000 .f32 :=
  select
    (cmpf .ogt (deg (F := F) a1) (broadcastInDim S100000 ![] bcast_S_S100000 (constant S_ .f32 0x00000000#32)))
    (Host.rsqrt (deg (F := F) a1))
    (broadcastInDim S100000 ![] bcast_S_S100000 (id (constant S_ .f32 0x00000000#32 : FVec F S_ .f32)))

/-- The weight of each edge: the factors of the two rows its words read. -/
def enorm (a1 : IVec S2x1600000 32) : FVec F S1700000 .f32 :=
  mulf
    (Host.gather gather_S100000_S1700000x1_S1700000_n_0_n_n_0_1_1 (dinv (F := F) a1) (col (nrm (cat (src a1)))))
    (Host.gather gather_S100000_S1700000x1_S1700000_n_0_n_n_0_1_1 (dinv (F := F) a1) (col (nrm (cat (dst a1)))))

/-- A layer of 64 columns before its rectifier: the weighted source rows summed on the destinations, plus the bias. -/
def conv64 (a1 : IVec S2x1600000 32) (L : FVec F S100000x64 .f32) (b : FVec F S64 .f32) : FVec F S100000x64 .f32 :=
  addf
    (Host.scatterAdd scatter_S100000x64_S1700000x1_S1700000x64_1_0_0_1
      (broadcastInDim S100000x64 ![] bcast_S_S100000x64 (constant S_ .f32 0x00000000#32))
      (col (cat (dst a1)))
      (mulf
        (Host.gather gather_S100000x64_S1700000x1_S1700000x64_1_0_n_n_0_1_164 L (col (nrm (cat (src a1)))))
        (broadcastInDim S1700000x64 ![0, 1] bcast_S1700000x1_S1700000x64_0_1
          (broadcastInDim S1700000x1 ![0] bcast_S1700000_S1700000x1_0 (enorm (F := F) a1)))))
    (broadcastInDim S100000x64 ![0, 1] bcast_S1x64_S100000x64_0_1 (broadcastInDim S1x64 ![1] bcast_S64_S1x64_1 b))

/-- The leaky rectifier on 64 columns. -/
def leaky64 (v : FVec F S100000x64 .f32) : FVec F S100000x64 .f32 :=
  select
    (cmpf .oge v (broadcastInDim S100000x64 ![] bcast_S_S100000x64 (constant S_ .f32 0x00000000#32)))
    v
    (mulf (broadcastInDim S100000x64 ![] bcast_S_S100000x64 (id (constant S_ .f32 0x3C23D70A#32 : FVec F S_ .f32))) v)

/-- A layer of 8 columns before its rectifier. -/
def conv8 (a1 : IVec S2x1600000 32) (L : FVec F S100000x8 .f32) (b : FVec F S8 .f32) : FVec F S100000x8 .f32 :=
  addf
    (Host.scatterAdd scatter_S100000x8_S1700000x1_S1700000x8_1_0_0_1
      (broadcastInDim S100000x8 ![] bcast_S_S100000x8 (constant S_ .f32 0x00000000#32))
      (col (cat (dst a1)))
      (mulf
        (Host.gather gather_S100000x8_S1700000x1_S1700000x8_1_0_n_n_0_1_18 L (col (nrm (cat (src a1)))))
        (broadcastInDim S1700000x8 ![0, 1] bcast_S1700000x1_S1700000x8_0_1
          (broadcastInDim S1700000x1 ![0] bcast_S1700000_S1700000x1_0 (enorm (F := F) a1)))))
    (broadcastInDim S100000x8 ![0, 1] bcast_S1x8_S100000x8_0_1 (broadcastInDim S1x8 ![1] bcast_S8_S1x8_1 b))

/-- The leaky rectifier on 8 columns. -/
def leaky8 (v : FVec F S100000x8 .f32) : FVec F S100000x8 .f32 :=
  select
    (cmpf .oge v (broadcastInDim S100000x8 ![] bcast_S_S100000x8 (constant S_ .f32 0x00000000#32)))
    v
    (mulf (broadcastInDim S100000x8 ![] bcast_S_S100000x8 (id (constant S_ .f32 0x3C23D70A#32 : FVec F S_ .f32))) v)

/-- The rows of each graph summed: the rows scatter-added over the batch words. -/
def sums (a2 : IVec S100000 32) (H : FVec F S100000x8 .f32) : FVec F S64x8 .f32 :=
  Host.scatterAdd scatter_S64x8_S100000x1_S100000x8_1_0_0_1
    (broadcastInDim S64x8 ![] bcast_S_S64x8 (constant S_ .f32 0x00000000#32))
    (broadcastInDim S100000x1 ![0] bcast_S100000_S100000x1_0 a2)
    H

/-- The number of rows of each graph: ones scatter-added over the batch words. -/
def cnts (a2 : IVec S100000 32) : FVec F S64 .f32 :=
  Host.scatterAdd scatter_S64_S100000x1_S100000_n_0_0_1
    (broadcastInDim S64 ![] bcast_S_S64 (constant S_ .f32 0x00000000#32))
    (broadcastInDim S100000x1 ![0] bcast_S100000_S100000x1_0 a2)
    (broadcastInDim S100000 ![] bcast_S_S100000 (constant S_ .f32 0x3F800000#32))

/-- The mean row of each graph, the divisor clamped below by one. -/
def pool (a2 : IVec S100000 32) (H : FVec F S100000x8 .f32) : FVec F S64x8 .f32 :=
  Host.divf (sums a2 H)
    (broadcastInDim S64x8 ![0, 1] bcast_S64x1_S64x8_0_1
      (broadcastInDim S64x1 ![0] bcast_S64_S64x1_0
        (maximumf (cnts (F := F) a2) (broadcastInDim S64 ![] bcast_S_S64 (constant S_ .f32 0x3F800000#32)))))

/-- The leaky rectifier on 16 columns. -/
def leaky16 (v : FVec F S64x16 .f32) : FVec F S64x16 .f32 :=
  select
    (cmpf .oge v (broadcastInDim S64x16 ![] bcast_S_S64x16 (constant S_ .f32 0x00000000#32)))
    v
    (mulf (broadcastInDim S64x16 ![] bcast_S_S64x16 (id (constant S_ .f32 0x3C23D70A#32 : FVec F S_ .f32))) v)

/-- The leaky rectifier on one column. -/
def leaky1 (v : FVec F S64x1 .f32) : FVec F S64x1 .f32 :=
  select
    (cmpf .oge v (broadcastInDim S64x1 ![] bcast_S_S64x1 (constant S_ .f32 0x00000000#32)))
    v
    (mulf (broadcastInDim S64x1 ![] bcast_S_S64x1 (id (constant S_ .f32 0x3C23D70A#32 : FVec F S_ .f32))) v)

/-- The two dense layers on the pooled rows and the global features, each followed by the leaky rectifier. -/
def head (Z : FVec F S64x32 .f32) (a8 : FVec F S32x16 .f32) (a9 : FVec F S16 .f32) (a10 : FVec F S16x1 .f32)
    (a11 : FVec F S1 .f32) : FVec F S64x1 .f32 :=
  leaky1
    (addf
      (Host.dotGeneral dot_S64x16_S16x1_S64x1_1_0_0_1_n_n none
        (leaky16
          (addf (Host.dotGeneral dot_S64x32_S32x16_S64x16_1_0_0_1_n_n none Z a8)
            (broadcastInDim S64x16 ![0, 1] bcast_S1x16_S64x16_0_1 (broadcastInDim S1x16 ![1] bcast_S16_S1x16_1 a9))))
        a10)
      (broadcastInDim S64x1 ![0, 1] bcast_S1x1_S64x1_0_1 (broadcastInDim S1x1 ![1] bcast_S1_S1x1_1 a11)))

/-- The reference program's result over its twelve arguments. -/
def out (a0 : FVec F S100000x128 .f32) (a1 : IVec S2x1600000 32) (a2 : IVec S100000 32) (a3 : FVec F S64x24 .f32)
    (a4 : FVec F S128x64 .f32) (a5 : FVec F S64 .f32) (a6 : FVec F S64x8 .f32) (a7 : FVec F S8 .f32)
    (a8 : FVec F S32x16 .f32) (a9 : FVec F S16 .f32) (a10 : FVec F S16x1 .f32) (a11 : FVec F S1 .f32) :
    FVec F S64x1 .f32 :=
  head
    (concatenate S64x32 1
      [⟨S64x8, pool a2 (leaky8 (conv8 a1
        (Host.dotGeneral dot_S100000x64_S64x8_S100000x8_1_0_0_1_n_n none
          (leaky64 (conv64 a1 (Host.dotGeneral dot_S100000x128_S128x64_S100000x64_1_0_0_1_n_n none a0 a4) a5)) a6) a7))⟩,
       ⟨S64x24, a3⟩]
      concatenates_S64x8_S64x24_S64x32_d1)
    a8 a9 a10 a11

end

end Cert.ReferenceIdeal.RefTerm
-- ==== Proof.RefRun.lean ====
/-
  The reference program's run, read back.

  @main is a straight line of 173 host operations once the six calls are unfolded at their call sites: the two
  selections on the degree (three operations each) and the four leaky rectifiers (seven each, the inner
  selection included). The line is listed window by window, as the program is printed. Every weakly fair
  execution terminates with each buffer at the fold of the operations' results over the launch contents; the
  fold is read at the result buffer and at the twelve arguments:

    window 1 leaves the source and destination words, and the first layer after its rectifier;
    window 2, from those, leaves the per-graph sums of the second layer after its rectifier;
    window 3, from those, leaves the result: the mean rows, the global features appended, the two dense layers;

  and no window writes an argument. The terms are the staged ones of RefTerm: the equations hold by unfolding,
  nothing at full size is computed.
-/
import proofs.«419935_j81939386073613_2_alg».proof.Proof.RefTerm
import proofs.«419935_j81939386073613_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two vectors concatenated, each operand an argument of its own. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- The fold over a literal list of operations, read at one buffer: each operation's result at its own buffer is its
    function of its operands' contents, at any other buffer what was there; a concatenation's two operands are read
    as arguments. -/
macro "after_at" : tactic =>
  `(tactic| (simp (disch := decide) only [after_cons, after_nil,
      nullary_result', unary_result', binary_result', ternary_result', reshape_result',
      nullary_result_ne', unary_result_ne', binary_result_ne', ternary_result_ne', reshape_result_ne',
      concatenate_pair]))

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _
/-- The first window's operations, in order, the two calls unfolded. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg4 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    TRef.unary (.of main_cst_2 : TRef sig ⟨S_, .f32⟩) main_call0.v0 id,
    TRef.unary main_call0.v0 main_call0.v1 (broadcastInDim S100000 ![] bcast_S_S100000),
    TRef.ternary (.of main_v13 : TRef sig ⟨S100000, .i1⟩) (.of main_v14 : TRef sig ⟨S100000, .f32⟩) main_call0.v1 main_call0.v2 select,
    StableHlo.nullary main_c (constantI S_ 32 0#32),
    StableHlo.unary main_c main_v16 (broadcastInDim S1700000 ![] bcast_S_S1700000 : (⟨S_, .i32⟩ : BufTy).Contents (Elt F) → (⟨S1700000, .i32⟩ : BufTy).Contents (Elt F)),
    StableHlo.binary main_v6 main_v16 main_v17 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v18 (broadcastInDim S1700000 ![] bcast_S_S1700000 : (⟨S_, .i32⟩ : BufTy).Contents (Elt F) → (⟨S1700000, .i32⟩ : BufTy).Contents (Elt F)),
    StableHlo.binary main_v6 main_v18 main_v19 (addi : (⟨S1700000, .i32⟩ : BufTy).Contents (Elt F) → (⟨S1700000, .i32⟩ : BufTy).Contents (Elt F) → (⟨S1700000, .i32⟩ : BufTy).Contents (Elt F)),
    StableHlo.ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v20 main_v21 (broadcastInDim S1700000x1 ![0] bcast_S1700000_S1700000x1_0 : (⟨S1700000, .i32⟩ : BufTy).Contents (Elt F) → (⟨S1700000x1, .i32⟩ : BufTy).Contents (Elt F)),
    StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v7 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v7 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v6 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v6 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v4 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v30 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v7 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg5 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3C23D70A#32),
    TRef.nullary main_call1.cst (constant S_ .f32 0x00000000#32),
    TRef.unary main_call1.cst main_call1.v0 (broadcastInDim S100000x64 ![] bcast_S_S100000x64),
    TRef.binary (.of main_v46 : TRef sig ⟨S100000x64, .f32⟩) main_call1.v0 main_call1.v1 (cmpf .oge),
    TRef.unary (.of main_cst_9 : TRef sig ⟨S_, .f32⟩) main_call1.v2 id,
    TRef.unary main_call1.v2 main_call1.v3 (broadcastInDim S100000x64 ![] bcast_S_S100000x64),
    TRef.binary main_call1.v3 (.of main_v46 : TRef sig ⟨S100000x64, .f32⟩) main_call1.v4 mulf,
    TRef.ternary main_call1.v1 (.of main_v46 : TRef sig ⟨S100000x64, .f32⟩) main_call1.v4 main_call1.call0.v0 select ]

theorem w0_v1 (V : Valuation τ sig (Elt F)) :
    after ops0 V (main_v1 : DevRef τ sig) = RefTerm.src (V (main_arg1 : DevRef τ sig)) := by
  after_at
  rfl

theorem w0_v3 (V : Valuation τ sig (Elt F)) :
    after ops0 V (main_v3 : DevRef τ sig) = RefTerm.dst (V (main_arg1 : DevRef τ sig)) := by
  after_at
  rfl

attribute [local irreducible] Host.gather Host.scatterAdd concatenate in
set_option maxRecDepth 8192 in
set_option maxHeartbeats 4000000 in
theorem w0_v47 (V : Valuation τ sig (Elt F)) :
    after ops0 V (main_v47 : DevRef τ sig)
      = RefTerm.leaky64 (RefTerm.conv64 (V (main_arg1 : DevRef τ sig))
          (Host.dotGeneral dot_S100000x128_S128x64_S100000x64_1_0_0_1_n_n none (V (main_arg0 : DevRef τ sig)) (V (main_arg4 : DevRef τ sig)))
          (V (main_arg5 : DevRef τ sig))) := by
  after_at
  rfl

theorem w0_arg0 (V : Valuation τ sig (Elt F)) :
    after ops0 V (main_arg0 : DevRef τ sig) = V (main_arg0 : DevRef τ sig) := by after_at

theorem w0_arg1 (V : Valuation τ sig (Elt F)) :
    after ops0 V (main_arg1 : DevRef τ sig) = V (main_arg1 : DevRef τ sig) := by after_at

theorem w0_arg2 (V : Valuation τ sig (Elt F)) :
    after ops0 V (main_arg2 : DevRef τ sig) = V (main_arg2 : DevRef τ sig) := by after_at

theorem w0_arg3 (V : Valuation τ sig (Elt F)) :
    after ops0 V (main_arg3 : DevRef τ sig) = V (main_arg3 : DevRef τ sig) := by after_at

theorem w0_arg4 (V : Valuation τ sig (Elt F)) :
    after ops0 V (main_arg4 : DevRef τ sig) = V (main_arg4 : DevRef τ sig) := by after_at

theorem w0_arg5 (V : Valuation τ sig (Elt F)) :
    after ops0 V (main_arg5 : DevRef τ sig) = V (main_arg5 : DevRef τ sig) := by after_at

theorem w0_arg6 (V : Valuation τ sig (Elt F)) :
    after ops0 V (main_arg6 : DevRef τ sig) = V (main_arg6 : DevRef τ sig) := by after_at

theorem w0_arg7 (V : Valuation τ sig (Elt F)) :
    after ops0 V (main_arg7 : DevRef τ sig) = V (main_arg7 : DevRef τ sig) := by after_at

theorem w0_arg8 (V : Valuation τ sig (Elt F)) :
    after ops0 V (main_arg8 : DevRef τ sig) = V (main_arg8 : DevRef τ sig) := by after_at

theorem w0_arg9 (V : Valuation τ sig (Elt F)) :
    after ops0 V (main_arg9 : DevRef τ sig) = V (main_arg9 : DevRef τ sig) := by after_at

theorem w0_arg10 (V : Valuation τ sig (Elt F)) :
    after ops0 V (main_arg10 : DevRef τ sig) = V (main_arg10 : DevRef τ sig) := by after_at

theorem w0_arg11 (V : Valuation τ sig (Elt F)) :
    after ops0 V (main_arg11 : DevRef τ sig) = V (main_arg11 : DevRef τ sig) := by after_at

/-- The second window's operations, in order, the two calls unfolded. -/
abbrev ops1 : List (HloOp τ sig (Elt F)) :=
  [ StableHlo.binary main_v47 main_arg6 main_v48 ((fun l r => Host.dotGeneral dot_S100000x64_S64x8_S100000x8_1_0_0_1_n_n none l r) : (⟨S100000x64, .f32⟩ : BufTy).Contents (Elt F) → (⟨S64x8, .f32⟩ : BufTy).Contents (Elt F) → (⟨S100000x8, .f32⟩ : BufTy).Contents (Elt F)),
    StableHlo.nullary main_v49 (iotaInDim S100000 32 0),
    StableHlo.binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_10 (constant S_ .f32 0x3F800000#32),
    StableHlo.unary main_cst_10 main_v52 (broadcastInDim S1700000 ![] bcast_S_S1700000 : (⟨S_, .f32⟩ : BufTy).Contents (Elt F) → (⟨S1700000, .f32⟩ : BufTy).Contents (Elt F)),
    StableHlo.nullary main_cst_11 (constant S_ .f32 0x00000000#32),
    StableHlo.unary main_cst_11 main_v53 (broadcastInDim S100000 ![] bcast_S_S100000 : (⟨S_, .f32⟩ : BufTy).Contents (Elt F) → (⟨S100000, .f32⟩ : BufTy).Contents (Elt F)),
    StableHlo.unary main_v51 main_v54 (broadcastInDim S1700000x1 ![0] bcast_S1700000_S1700000x1_0 : (⟨S1700000, .i32⟩ : BufTy).Contents (Elt F) → (⟨S1700000x1, .i32⟩ : BufTy).Contents (Elt F)),
    StableHlo.ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_12 (constant S_ .f32 0x00000000#32),
    StableHlo.unary main_cst_12 main_v56 (broadcastInDim S100000 ![] bcast_S_S100000 : (⟨S_, .f32⟩ : BufTy).Contents (Elt F) → (⟨S100000, .f32⟩ : BufTy).Contents (Elt F)),
    StableHlo.binary main_v55 main_v56 main_v57 (cmpf .ogt : (⟨S100000, .f32⟩ : BufTy).Contents (Elt F) → (⟨S100000, .f32⟩ : BufTy).Contents (Elt F) → (⟨S100000, .i1⟩ : BufTy).Contents (Elt F)),
    StableHlo.unary main_v55 main_v58 (Host.rsqrt : (⟨S100000, .f32⟩ : BufTy).Contents (Elt F) → (⟨S100000, .f32⟩ : BufTy).Contents (Elt F)),
    StableHlo.nullary main_cst_13 (constant S_ .f32 0x00000000#32),
    TRef.unary (.of main_cst_13 : TRef sig ⟨S_, .f32⟩) main_call2.v0 id,
    TRef.unary main_call2.v0 main_call2.v1 (broadcastInDim S100000 ![] bcast_S_S100000),
    TRef.ternary (.of main_v57 : TRef sig ⟨S100000, .i1⟩) (.of main_v58 : TRef sig ⟨S100000, .f32⟩) main_call2.v1 main_call2.v2 select,
    StableHlo.nullary main_c_14 (constantI S_ 32 0#32),
    StableHlo.unary main_c_14 main_v60 (broadcastInDim S1700000 ![] bcast_S_S1700000 : (⟨S_, .i32⟩ : BufTy).Contents (Elt F) → (⟨S1700000, .i32⟩ : BufTy).Contents (Elt F)),
    StableHlo.binary main_v50 main_v60 main_v61 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v62 (broadcastInDim S1700000 ![] bcast_S_S1700000 : (⟨S_, .i32⟩ : BufTy).Contents (Elt F) → (⟨S1700000, .i32⟩ : BufTy).Contents (Elt F)),
    StableHlo.binary main_v50 main_v62 main_v63 (addi : (⟨S1700000, .i32⟩ : BufTy).Contents (Elt F) → (⟨S1700000, .i32⟩ : BufTy).Contents (Elt F) → (⟨S1700000, .i32⟩ : BufTy).Contents (Elt F)),
    StableHlo.ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v64 main_v65 (broadcastInDim S1700000x1 ![0] bcast_S1700000_S1700000x1_0 : (⟨S1700000, .i32⟩ : BufTy).Contents (Elt F) → (⟨S1700000x1, .i32⟩ : BufTy).Contents (Elt F)),
    StableHlo.binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_16 (constantI S_ 32 0#32),
    StableHlo.unary main_c_16 main_v67 (broadcastInDim S1700000 ![] bcast_S_S1700000 : (⟨S_, .i32⟩ : BufTy).Contents (Elt F) → (⟨S1700000, .i32⟩ : BufTy).Contents (Elt F)),
    StableHlo.binary main_v51 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v69 (broadcastInDim S1700000 ![] bcast_S_S1700000 : (⟨S_, .i32⟩ : BufTy).Contents (Elt F) → (⟨S1700000, .i32⟩ : BufTy).Contents (Elt F)),
    StableHlo.binary main_v51 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v66 main_v73 main_v74 (mulf : (⟨S1700000, .f32⟩ : BufTy).Contents (Elt F) → (⟨S1700000, .f32⟩ : BufTy).Contents (Elt F) → (⟨S1700000, .f32⟩ : BufTy).Contents (Elt F)),
    StableHlo.nullary main_c_18 (constantI S_ 32 0#32),
    StableHlo.unary main_c_18 main_v75 (broadcastInDim S1700000 ![] bcast_S_S1700000 : (⟨S_, .i32⟩ : BufTy).Contents (Elt F) → (⟨S1700000, .i32⟩ : BufTy).Contents (Elt F)),
    StableHlo.binary main_v50 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v77 (broadcastInDim S1700000 ![] bcast_S_S1700000 : (⟨S_, .i32⟩ : BufTy).Contents (Elt F) → (⟨S1700000, .i32⟩ : BufTy).Contents (Elt F)),
    StableHlo.binary main_v50 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v48 main_v80 main_v81 ((fun x i => Host.gather gather_S100000x8_S1700000x1_S1700000x8_1_0_n_n_0_1_18 x i) : (⟨S100000x8, .f32⟩ : BufTy).Contents (Elt F) → (⟨S1700000x1, .i32⟩ : BufTy).Contents (Elt F) → (⟨S1700000x8, .f32⟩ : BufTy).Contents (Elt F)),
    StableHlo.unary main_v74 main_v82 (broadcastInDim S1700000x1 ![0] bcast_S1700000_S1700000x1_0 : (⟨S1700000, .f32⟩ : BufTy).Contents (Elt F) → (⟨S1700000x1, .f32⟩ : BufTy).Contents (Elt F)),
    StableHlo.unary main_v82 main_v83 (broadcastInDim S1700000x8 ![0, 1] bcast_S1700000x1_S1700000x8_0_1 : (⟨S1700000x1, .f32⟩ : BufTy).Contents (Elt F) → (⟨S1700000x8, .f32⟩ : BufTy).Contents (Elt F)),
    StableHlo.binary main_v81 main_v83 main_v84 (mulf : (⟨S1700000x8, .f32⟩ : BufTy).Contents (Elt F) → (⟨S1700000x8, .f32⟩ : BufTy).Contents (Elt F) → (⟨S1700000x8, .f32⟩ : BufTy).Contents (Elt F)),
    StableHlo.nullary main_cst_20 (constant S_ .f32 0x00000000#32),
    StableHlo.unary main_cst_20 main_v85 (broadcastInDim S100000x8 ![] bcast_S_S100000x8 : (⟨S_, .f32⟩ : BufTy).Contents (Elt F) → (⟨S100000x8, .f32⟩ : BufTy).Contents (Elt F)),
    StableHlo.unary main_v51 main_v86 (broadcastInDim S1700000x1 ![0] bcast_S1700000_S1700000x1_0 : (⟨S1700000, .i32⟩ : BufTy).Contents (Elt F) → (⟨S1700000x1, .i32⟩ : BufTy).Contents (Elt F)),
    StableHlo.ternary main_v85 main_v86 main_v84 main_v87 ((fun x i u => Host.scatterAdd scatter_S100000x8_S1700000x1_S1700000x8_1_0_0_1 x i u) : (⟨S100000x8, .f32⟩ : BufTy).Contents (Elt F) → (⟨S1700000x1, .i32⟩ : BufTy).Contents (Elt F) → (⟨S1700000x8, .f32⟩ : BufTy).Contents (Elt F) → (⟨S100000x8, .f32⟩ : BufTy).Contents (Elt F)),
    StableHlo.unary main_arg7 main_v88 (broadcastInDim S1x8 ![1] bcast_S8_S1x8_1 : (⟨S8, .f32⟩ : BufTy).Contents (Elt F) → (⟨S1x8, .f32⟩ : BufTy).Contents (Elt F)),
    StableHlo.unary main_v88 main_v89 (broadcastInDim S100000x8 ![0, 1] bcast_S1x8_S100000x8_0_1 : (⟨S1x8, .f32⟩ : BufTy).Contents (Elt F) → (⟨S100000x8, .f32⟩ : BufTy).Contents (Elt F)),
    StableHlo.binary main_v87 main_v89 main_v90 (addf : (⟨S100000x8, .f32⟩ : BufTy).Contents (Elt F) → (⟨S100000x8, .f32⟩ : BufTy).Contents (Elt F) → (⟨S100000x8, .f32⟩ : BufTy).Contents (Elt F)),
    StableHlo.nullary main_cst_21 (constant S_ .f32 0x3C23D70A#32),
    TRef.nullary main_call3.cst (constant S_ .f32 0x00000000#32),
    TRef.unary main_call3.cst main_call3.v0 (broadcastInDim S100000x8 ![] bcast_S_S100000x8),
    TRef.binary (.of main_v90 : TRef sig ⟨S100000x8, .f32⟩) main_call3.v0 main_call3.v1 (cmpf .oge),
    TRef.unary (.of main_cst_21 : TRef sig ⟨S_, .f32⟩) main_call3.v2 id,
    TRef.unary main_call3.v2 main_call3.v3 (broadcastInDim S100000x8 ![] bcast_S_S100000x8),
    TRef.binary main_call3.v3 (.of main_v90 : TRef sig ⟨S100000x8, .f32⟩) main_call3.v4 mulf,
    TRef.ternary main_call3.v1 (.of main_v90 : TRef sig ⟨S100000x8, .f32⟩) main_call3.v4 main_call3.call0.v0 select,
    StableHlo.nullary main_cst_22 (constant S_ .f32 0x00000000#32),
    StableHlo.unary main_cst_22 main_v92 (broadcastInDim S64x8 ![] bcast_S_S64x8 : (⟨S_, .f32⟩ : BufTy).Contents (Elt F) → (⟨S64x8, .f32⟩ : BufTy).Contents (Elt F)),
    StableHlo.unary main_arg2 main_v93 (broadcastInDim S100000x1 ![0] bcast_S100000_S100000x1_0 : (⟨S100000, .i32⟩ : BufTy).Contents (Elt F) → (⟨S100000x1, .i32⟩ : BufTy).Contents (Elt F)),
    StableHlo.ternary main_v92 main_v93 main_v91 main_v94 ((fun x i u => Host.scatterAdd scatter_S64x8_S100000x1_S100000x8_1_0_0_1 x i u) : (⟨S64x8, .f32⟩ : BufTy).Contents (Elt F) → (⟨S100000x1, .i32⟩ : BufTy).Contents (Elt F) → (⟨S100000x8, .f32⟩ : BufTy).Contents (Elt F) → (⟨S64x8, .f32⟩ : BufTy).Contents (Elt F)) ]

attribute [local irreducible] Host.gather Host.scatterAdd concatenate in
set_option maxRecDepth 8192 in
set_option maxHeartbeats 4000000 in
theorem w1_v94 (V : Valuation τ sig (Elt F)) (a1 : IVec S2x1600000 32) (a2 : IVec S100000 32)
    (L : FVec F S100000x64 .f32) (a6 : FVec F S64x8 .f32) (a7 : FVec F S8 .f32)
    (h1 : V (main_v1 : DevRef τ sig) = RefTerm.src a1) (h3 : V (main_v3 : DevRef τ sig) = RefTerm.dst a1)
    (h47 : V (main_v47 : DevRef τ sig) = L) (h2 : V (main_arg2 : DevRef τ sig) = a2)
    (h6 : V (main_arg6 : DevRef τ sig) = a6) (h7 : V (main_arg7 : DevRef τ sig) = a7) :
    after ops1 V (main_v94 : DevRef τ sig)
      = RefTerm.sums a2 (RefTerm.leaky8 (RefTerm.conv8 a1
          (Host.dotGeneral dot_S100000x64_S64x8_S100000x8_1_0_0_1_n_n none L a6) a7)) := by
  after_at
  rw [h1, h3]
  subst h47 h2 h6 h7
  rfl

theorem w1_arg0 (V : Valuation τ sig (Elt F)) :
    after ops1 V (main_arg0 : DevRef τ sig) = V (main_arg0 : DevRef τ sig) := by after_at

theorem w1_arg1 (V : Valuation τ sig (Elt F)) :
    after ops1 V (main_arg1 : DevRef τ sig) = V (main_arg1 : DevRef τ sig) := by after_at

theorem w1_arg2 (V : Valuation τ sig (Elt F)) :
    after ops1 V (main_arg2 : DevRef τ sig) = V (main_arg2 : DevRef τ sig) := by after_at

theorem w1_arg3 (V : Valuation τ sig (Elt F)) :
    after ops1 V (main_arg3 : DevRef τ sig) = V (main_arg3 : DevRef τ sig) := by after_at

theorem w1_arg4 (V : Valuation τ sig (Elt F)) :
    after ops1 V (main_arg4 : DevRef τ sig) = V (main_arg4 : DevRef τ sig) := by after_at

theorem w1_arg5 (V : Valuation τ sig (Elt F)) :
    after ops1 V (main_arg5 : DevRef τ sig) = V (main_arg5 : DevRef τ sig) := by after_at

theorem w1_arg6 (V : Valuation τ sig (Elt F)) :
    after ops1 V (main_arg6 : DevRef τ sig) = V (main_arg6 : DevRef τ sig) := by after_at

theorem w1_arg7 (V : Valuation τ sig (Elt F)) :
    after ops1 V (main_arg7 : DevRef τ sig) = V (main_arg7 : DevRef τ sig) := by after_at

theorem w1_arg8 (V : Valuation τ sig (Elt F)) :
    after ops1 V (main_arg8 : DevRef τ sig) = V (main_arg8 : DevRef τ sig) := by after_at

theorem w1_arg9 (V : Valuation τ sig (Elt F)) :
    after ops1 V (main_arg9 : DevRef τ sig) = V (main_arg9 : DevRef τ sig) := by after_at

theorem w1_arg10 (V : Valuation τ sig (Elt F)) :
    after ops1 V (main_arg10 : DevRef τ sig) = V (main_arg10 : DevRef τ sig) := by after_at

theorem w1_arg11 (V : Valuation τ sig (Elt F)) :
    after ops1 V (main_arg11 : DevRef τ sig) = V (main_arg11 : DevRef τ sig) := by after_at

/-- The third window's operations, in order, the two calls unfolded. -/
abbrev ops2 : List (HloOp τ sig (Elt F)) :=
  [ StableHlo.nullary main_cst_23 (constant S_ .f32 0x3F800000#32),
    StableHlo.unary main_cst_23 main_v95 (broadcastInDim S100000 ![] bcast_S_S100000 : (⟨S_, .f32⟩ : BufTy).Contents (Elt F) → (⟨S100000, .f32⟩ : BufTy).Contents (Elt F)),
    StableHlo.nullary main_cst_24 (constant S_ .f32 0x00000000#32),
    StableHlo.unary main_cst_24 main_v96 (broadcastInDim S64 ![] bcast_S_S64 : (⟨S_, .f32⟩ : BufTy).Contents (Elt F) → (⟨S64, .f32⟩ : BufTy).Contents (Elt F)),
    StableHlo.unary main_arg2 main_v97 (broadcastInDim S100000x1 ![0] bcast_S100000_S100000x1_0 : (⟨S100000, .i32⟩ : BufTy).Contents (Elt F) → (⟨S100000x1, .i32⟩ : BufTy).Contents (Elt F)),
    StableHlo.ternary main_v96 main_v97 main_v95 main_v98 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_25 (constant S_ .f32 0x3F800000#32),
    StableHlo.unary main_cst_25 main_v99 (broadcastInDim S64 ![] bcast_S_S64 : (⟨S_, .f32⟩ : BufTy).Contents (Elt F) → (⟨S64, .f32⟩ : BufTy).Contents (Elt F)),
    StableHlo.binary main_v98 main_v99 main_v100 (maximumf : (⟨S64, .f32⟩ : BufTy).Contents (Elt F) → (⟨S64, .f32⟩ : BufTy).Contents (Elt F) → (⟨S64, .f32⟩ : BufTy).Contents (Elt F)),
    StableHlo.unary main_v100 main_v101 (broadcastInDim S64x1 ![0] bcast_S64_S64x1_0 : (⟨S64, .f32⟩ : BufTy).Contents (Elt F) → (⟨S64x1, .f32⟩ : BufTy).Contents (Elt F)),
    StableHlo.unary main_v101 main_v102 (broadcastInDim S64x8 ![0, 1] bcast_S64x1_S64x8_0_1 : (⟨S64x1, .f32⟩ : BufTy).Contents (Elt F) → (⟨S64x8, .f32⟩ : BufTy).Contents (Elt F)),
    StableHlo.binary main_v94 main_v102 main_v103 (Host.divf : (⟨S64x8, .f32⟩ : BufTy).Contents (Elt F) → (⟨S64x8, .f32⟩ : BufTy).Contents (Elt F) → (⟨S64x8, .f32⟩ : BufTy).Contents (Elt F)),
    StableHlo.binary main_v103 main_arg3 main_v104 ((fun a b => concatenate S64x32 1 [⟨S64x8, a⟩, ⟨S64x24, b⟩] concatenates_S64x8_S64x24_S64x32_d1) : (⟨S64x8, .f32⟩ : BufTy).Contents (Elt F) → (⟨S64x24, .f32⟩ : BufTy).Contents (Elt F) → (⟨S64x32, .f32⟩ : BufTy).Contents (Elt F)),
    StableHlo.binary main_v104 main_arg8 main_v105 ((fun l r => Host.dotGeneral dot_S64x32_S32x16_S64x16_1_0_0_1_n_n none l r) : (⟨S64x32, .f32⟩ : BufTy).Contents (Elt F) → (⟨S32x16, .f32⟩ : BufTy).Contents (Elt F) → (⟨S64x16, .f32⟩ : BufTy).Contents (Elt F)),
    StableHlo.unary main_arg9 main_v106 (broadcastInDim S1x16 ![1] bcast_S16_S1x16_1 : (⟨S16, .f32⟩ : BufTy).Contents (Elt F) → (⟨S1x16, .f32⟩ : BufTy).Contents (Elt F)),
    StableHlo.unary main_v106 main_v107 (broadcastInDim S64x16 ![0, 1] bcast_S1x16_S64x16_0_1 : (⟨S1x16, .f32⟩ : BufTy).Contents (Elt F) → (⟨S64x16, .f32⟩ : BufTy).Contents (Elt F)),
    StableHlo.binary main_v105 main_v107 main_v108 (addf : (⟨S64x16, .f32⟩ : BufTy).Contents (Elt F) → (⟨S64x16, .f32⟩ : BufTy).Contents (Elt F) → (⟨S64x16, .f32⟩ : BufTy).Contents (Elt F)),
    StableHlo.nullary main_cst_26 (constant S_ .f32 0x3C23D70A#32),
    TRef.nullary main_call4.cst (constant S_ .f32 0x00000000#32),
    TRef.unary main_call4.cst main_call4.v0 (broadcastInDim S64x16 ![] bcast_S_S64x16),
    TRef.binary (.of main_v108 : TRef sig ⟨S64x16, .f32⟩) main_call4.v0 main_call4.v1 (cmpf .oge),
    TRef.unary (.of main_cst_26 : TRef sig ⟨S_, .f32⟩) main_call4.v2 id,
    TRef.unary main_call4.v2 main_call4.v3 (broadcastInDim S64x16 ![] bcast_S_S64x16),
    TRef.binary main_call4.v3 (.of main_v108 : TRef sig ⟨S64x16, .f32⟩) main_call4.v4 mulf,
    TRef.ternary main_call4.v1 (.of main_v108 : TRef sig ⟨S64x16, .f32⟩) main_call4.v4 main_call4.call0.v0 select,
    StableHlo.binary main_v109 main_arg10 main_v110 ((fun l r => Host.dotGeneral dot_S64x16_S16x1_S64x1_1_0_0_1_n_n none l r) : (⟨S64x16, .f32⟩ : BufTy).Contents (Elt F) → (⟨S16x1, .f32⟩ : BufTy).Contents (Elt F) → (⟨S64x1, .f32⟩ : BufTy).Contents (Elt F)),
    StableHlo.unary main_arg11 main_v111 (broadcastInDim S1x1 ![1] bcast_S1_S1x1_1 : (⟨S1, .f32⟩ : BufTy).Contents (Elt F) → (⟨S1x1, .f32⟩ : BufTy).Contents (Elt F)),
    StableHlo.unary main_v111 main_v112 (broadcastInDim S64x1 ![0, 1] bcast_S1x1_S64x1_0_1 : (⟨S1x1, .f32⟩ : BufTy).Contents (Elt F) → (⟨S64x1, .f32⟩ : BufTy).Contents (Elt F)),
    StableHlo.binary main_v110 main_v112 main_v113 (addf : (⟨S64x1, .f32⟩ : BufTy).Contents (Elt F) → (⟨S64x1, .f32⟩ : BufTy).Contents (Elt F) → (⟨S64x1, .f32⟩ : BufTy).Contents (Elt F)),
    StableHlo.nullary main_cst_27 (constant S_ .f32 0x3C23D70A#32),
    TRef.nullary main_call5.cst (constant S_ .f32 0x00000000#32),
    TRef.unary main_call5.cst main_call5.v0 (broadcastInDim S64x1 ![] bcast_S_S64x1),
    TRef.binary (.of main_v113 : TRef sig ⟨S64x1, .f32⟩) main_call5.v0 main_call5.v1 (cmpf .oge),
    TRef.unary (.of main_cst_27 : TRef sig ⟨S_, .f32⟩) main_call5.v2 id,
    TRef.unary main_call5.v2 main_call5.v3 (broadcastInDim S64x1 ![] bcast_S_S64x1),
    TRef.binary main_call5.v3 (.of main_v113 : TRef sig ⟨S64x1, .f32⟩) main_call5.v4 mulf,
    TRef.ternary main_call5.v1 (.of main_v113 : TRef sig ⟨S64x1, .f32⟩) main_call5.v4 main_call5.call0.v0 select ]

attribute [local irreducible] Host.gather Host.scatterAdd concatenate in
set_option maxRecDepth 8192 in
set_option maxHeartbeats 4000000 in
theorem w2_v114 (V : Valuation τ sig (Elt F)) (a2 : IVec S100000 32) (H : FVec F S100000x8 .f32)
    (a3 : FVec F S64x24 .f32) (a8 : FVec F S32x16 .f32) (a9 : FVec F S16 .f32) (a10 : FVec F S16x1 .f32)
    (a11 : FVec F S1 .f32)
    (h94 : V (main_v94 : DevRef τ sig) = RefTerm.sums a2 H) (h2 : V (main_arg2 : DevRef τ sig) = a2)
    (h3 : V (main_arg3 : DevRef τ sig) = a3) (h8 : V (main_arg8 : DevRef τ sig) = a8)
    (h9 : V (main_arg9 : DevRef τ sig) = a9) (h10 : V (main_arg10 : DevRef τ sig) = a10)
    (h11 : V (main_arg11 : DevRef τ sig) = a11) :
    after ops2 V (main_v114 : DevRef τ sig)
      = RefTerm.head
          (concatenate S64x32 1 [⟨S64x8, RefTerm.pool a2 H⟩, ⟨S64x24, a3⟩] concatenates_S64x8_S64x24_S64x32_d1)
          a8 a9 a10 a11 := by
  after_at
  rw [h94]
  subst h2 h3 h8 h9 h10 h11
  rfl

theorem w2_arg0 (V : Valuation τ sig (Elt F)) :
    after ops2 V (main_arg0 : DevRef τ sig) = V (main_arg0 : DevRef τ sig) := by after_at

theorem w2_arg1 (V : Valuation τ sig (Elt F)) :
    after ops2 V (main_arg1 : DevRef τ sig) = V (main_arg1 : DevRef τ sig) := by after_at

theorem w2_arg2 (V : Valuation τ sig (Elt F)) :
    after ops2 V (main_arg2 : DevRef τ sig) = V (main_arg2 : DevRef τ sig) := by after_at

theorem w2_arg3 (V : Valuation τ sig (Elt F)) :
    after ops2 V (main_arg3 : DevRef τ sig) = V (main_arg3 : DevRef τ sig) := by after_at

theorem w2_arg4 (V : Valuation τ sig (Elt F)) :
    after ops2 V (main_arg4 : DevRef τ sig) = V (main_arg4 : DevRef τ sig) := by after_at

theorem w2_arg5 (V : Valuation τ sig (Elt F)) :
    after ops2 V (main_arg5 : DevRef τ sig) = V (main_arg5 : DevRef τ sig) := by after_at

theorem w2_arg6 (V : Valuation τ sig (Elt F)) :
    after ops2 V (main_arg6 : DevRef τ sig) = V (main_arg6 : DevRef τ sig) := by after_at

theorem w2_arg7 (V : Valuation τ sig (Elt F)) :
    after ops2 V (main_arg7 : DevRef τ sig) = V (main_arg7 : DevRef τ sig) := by after_at

theorem w2_arg8 (V : Valuation τ sig (Elt F)) :
    after ops2 V (main_arg8 : DevRef τ sig) = V (main_arg8 : DevRef τ sig) := by after_at

theorem w2_arg9 (V : Valuation τ sig (Elt F)) :
    after ops2 V (main_arg9 : DevRef τ sig) = V (main_arg9 : DevRef τ sig) := by after_at

theorem w2_arg10 (V : Valuation τ sig (Elt F)) :
    after ops2 V (main_arg10 : DevRef τ sig) = V (main_arg10 : DevRef τ sig) := by after_at

theorem w2_arg11 (V : Valuation τ sig (Elt F)) :
    after ops2 V (main_arg11 : DevRef τ sig) = V (main_arg11 : DevRef τ sig) := by after_at

/-! ## The whole program -/

set_option maxRecDepth 4096 in
/-- The first window is its operations' line: the callees' definitions unfolded at their calls, sequencing reassociated. -/
theorem part0_eq (c : Dev nD) : main_part0 (F := F) c = seq ops0 := by
  simp only [main_part0, fn_where.body, fn_leaky_relu.body, fn_where_0.body, seq, bind_assoc, pure_bind] <;> rfl

set_option maxRecDepth 4096 in
theorem part1_eq (c : Dev nD) : main_part1 (F := F) c = seq ops1 := by
  simp only [main_part1, fn_where.body, fn_leaky_relu_1.body, fn_where_2.body, seq, bind_assoc, pure_bind] <;> rfl

set_option maxRecDepth 4096 in
theorem part2_eq (c : Dev nD) : main_part2 (F := F) c = seq ops2 := by
  simp only [main_part2, fn_leaky_relu_3.body, fn_where_4.body, fn_leaky_relu_5.body, fn_where_6.body, seq, bind_assoc,
    pure_bind] <;> rfl

/-- @main's operations, in order: the three windows' one after the other. -/
abbrev ops : List (HloOp τ sig (Elt F)) := ops0 ++ (ops1 ++ ops2)

theorem main_eq (c : Dev nD) : main (F := F) c = seq ops := by
  show main (F := F) c = seq (ops0 ++ (ops1 ++ ops2))
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

theorem ops1_sub : (ops1 : List (HloOp τ sig (Elt F))).Forall fun op => op.bufs ⊆ tcRefs τ sig :=
  ⟨binary_bufs_sub .., nullary_bufs_sub .., binary_bufs_sub .., binary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    unary_bufs_sub .., ternary_bufs_sub ..⟩

theorem ops2_sub : (ops2 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem ops_sub : (ops : List (HloOp τ sig (Elt F))).Forall fun op => op.bufs ⊆ tcRefs τ sig :=
  List.forall_append.2 ⟨ops0_sub, List.forall_append.2 ⟨ops1_sub, ops2_sub⟩⟩

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases List.mem_append.1 h with h | h
  · exact ops0_fresh op h
  · rcases List.mem_append.1 h with h | h
    · exact ops1_fresh op h
    · exact ops2_fresh op h

/-- The result buffer after the whole line: the staged term of the twelve arguments. -/
theorem out_eq (V : Valuation τ sig (Elt F)) :
    after ops V (main_v114 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  show after (ops0 ++ (ops1 ++ ops2)) V _ = _
  rw [after_append, after_append]
  exact w2_v114 _ _ _ _ _ _ _ _
    (w1_v94 _ _ _ _ _ _ (w0_v1 V) (w0_v3 V) (w0_v47 V) (w0_arg2 V) (w0_arg6 V) (w0_arg7 V))
    ((w1_arg2 _).trans (w0_arg2 V)) ((w1_arg3 _).trans (w0_arg3 V)) ((w1_arg8 _).trans (w0_arg8 V))
    ((w1_arg9 _).trans (w0_arg9 V)) ((w1_arg10 _).trans (w0_arg10 V)) ((w1_arg11 _).trans (w0_arg11 V))

theorem arg0_eq (V : Valuation τ sig (Elt F)) : after ops V (main_arg0 : DevRef τ sig) = V (main_arg0 : DevRef τ sig) := by
  show after (ops0 ++ (ops1 ++ ops2)) V _ = _
  rw [after_append, after_append, w2_arg0, w1_arg0, w0_arg0]

theorem arg1_eq (V : Valuation τ sig (Elt F)) : after ops V (main_arg1 : DevRef τ sig) = V (main_arg1 : DevRef τ sig) := by
  show after (ops0 ++ (ops1 ++ ops2)) V _ = _
  rw [after_append, after_append, w2_arg1, w1_arg1, w0_arg1]

theorem arg2_eq (V : Valuation τ sig (Elt F)) : after ops V (main_arg2 : DevRef τ sig) = V (main_arg2 : DevRef τ sig) := by
  show after (ops0 ++ (ops1 ++ ops2)) V _ = _
  rw [after_append, after_append, w2_arg2, w1_arg2, w0_arg2]

theorem arg3_eq (V : Valuation τ sig (Elt F)) : after ops V (main_arg3 : DevRef τ sig) = V (main_arg3 : DevRef τ sig) := by
  show after (ops0 ++ (ops1 ++ ops2)) V _ = _
  rw [after_append, after_append, w2_arg3, w1_arg3, w0_arg3]

theorem arg4_eq (V : Valuation τ sig (Elt F)) : after ops V (main_arg4 : DevRef τ sig) = V (main_arg4 : DevRef τ sig) := by
  show after (ops0 ++ (ops1 ++ ops2)) V _ = _
  rw [after_append, after_append, w2_arg4, w1_arg4, w0_arg4]

theorem arg5_eq (V : Valuation τ sig (Elt F)) : after ops V (main_arg5 : DevRef τ sig) = V (main_arg5 : DevRef τ sig) := by
  show after (ops0 ++ (ops1 ++ ops2)) V _ = _
  rw [after_append, after_append, w2_arg5, w1_arg5, w0_arg5]

theorem arg6_eq (V : Valuation τ sig (Elt F)) : after ops V (main_arg6 : DevRef τ sig) = V (main_arg6 : DevRef τ sig) := by
  show after (ops0 ++ (ops1 ++ ops2)) V _ = _
  rw [after_append, after_append, w2_arg6, w1_arg6, w0_arg6]

theorem arg7_eq (V : Valuation τ sig (Elt F)) : after ops V (main_arg7 : DevRef τ sig) = V (main_arg7 : DevRef τ sig) := by
  show after (ops0 ++ (ops1 ++ ops2)) V _ = _
  rw [after_append, after_append, w2_arg7, w1_arg7, w0_arg7]

theorem arg8_eq (V : Valuation τ sig (Elt F)) : after ops V (main_arg8 : DevRef τ sig) = V (main_arg8 : DevRef τ sig) := by
  show after (ops0 ++ (ops1 ++ ops2)) V _ = _
  rw [after_append, after_append, w2_arg8, w1_arg8, w0_arg8]

theorem arg9_eq (V : Valuation τ sig (Elt F)) : after ops V (main_arg9 : DevRef τ sig) = V (main_arg9 : DevRef τ sig) := by
  show after (ops0 ++ (ops1 ++ ops2)) V _ = _
  rw [after_append, after_append, w2_arg9, w1_arg9, w0_arg9]

theorem arg10_eq (V : Valuation τ sig (Elt F)) : after ops V (main_arg10 : DevRef τ sig) = V (main_arg10 : DevRef τ sig) := by
  show after (ops0 ++ (ops1 ++ ops2)) V _ = _
  rw [after_append, after_append, w2_arg10, w1_arg10, w0_arg10]

theorem arg11_eq (V : Valuation τ sig (Elt F)) : after ops V (main_arg11 : DevRef τ sig) = V (main_arg11 : DevRef τ sig) := by
  show after (ops0 ++ (ops1 ++ ops2)) V _ = _
  rw [after_append, after_append, w2_arg11, w1_arg11, w0_arg11]

/-- On every device, for any float values, from any memory with zero counters: every weakly fair execution of
    @main terminates with the result buffer at the staged term of the arguments' launch contents, the twelve
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = RefTerm.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v114).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ (fun _ => ops_fresh))

end Cert.ReferenceIdeal.RefRun

end
-- ==== Proof.RefValue.lean ====
/-
  The reference program's result is the network of GcnSpec, given that each of its stages is the network's stage.

  The reference's result is a composite: a matrix product, a convolution layer and its rectifier, a second product, a
  second layer and rectifier, the mean over each graph, the global features appended along the columns, and the two
  dense layers. Given, entry by entry, that each of these operations is the corresponding function of GcnSpec, the
  composite is the network: the first product is the first projection, the rectified layer of it the first layer's
  output, and so on down; the concatenation of the [64, 8] means and the [64, 24] global features reads the means at
  the columns below 8 and the global features, eight columns to the left, at the others.
-/
import proofs.«419935_j81939386073613_2_alg».proof.Proof.RefTerm
import proofs.«419935_j81939386073613_2_alg».proof.Proof.GcnSpec
import Idealize.ShloMosaic.Lib.Pipeline.Value
import Idealize.ShloMosaic.Lib.ValueIdx

noncomputable section

namespace Cert.ReferenceIdeal.RefValue

open Idealize.ShloMosaic Idealize.ShloMosaic.ValueIdx
open Cert.ReferenceIdeal

section
variable [Facts₀]
open Facts₀

/-- The [64, 8] table P and the [64, 24] table G side by side: P at the columns below 8, G at the column less 8
    elsewhere. -/
theorem concat_apply (P : FVec Ideal S64x8 .f32) (G : FVec Ideal S64x24 .f32) (g : Fin 64) (q : Fin 32) :
    concatenate S64x32 1 [⟨S64x8, P⟩, ⟨S64x24, G⟩] concatenates_S64x8_S64x24_S64x32_d1 (ix2 g q)
      = if h : q.val < 8 then P (ix2 g ⟨q.val, h⟩) else G (ix2 g ⟨q.val - 8, by omega⟩) := by
  by_cases h : q.val < 8
  · rw [dif_pos h]
    refine concatenate_pair_apply_left (t := S64x32) (s₁ := S64x8) (s₂ := S64x24) 1 P G
      concatenates_S64x8_S64x24_S64x32_d1 (ix2 g q) rfl (ix2 g ⟨q.val, h⟩) ?_
    intro b
    match b with
    | ⟨0, _⟩ => rfl
    | ⟨1, _⟩ => rfl
  · rw [dif_neg h]
    refine concatenate_pair_apply_right (t := S64x32) (s₁ := S64x8) (s₂ := S64x24) 1 P G
      concatenates_S64x8_S64x24_S64x32_d1 (ix2 g q) rfl rfl (ix2 g ⟨q.val - 8, by omega⟩) ?_ ?_
    · intro b hb
      match b, hb with
      | ⟨0, _⟩, _ => rfl
      | ⟨1, _⟩, hb => exact absurd rfl hb
    · show (q.val - 8) + 8 = q.val
      omega

/-- The reference's result is the network's, from the stage equations. -/
theorem out_eq_of
    (hconv64 : ∀ (a1 : IVec S2x1600000 32) (L : FVec Ideal S100000x64 .f32) (b : FVec Ideal S64 .f32)
      (n : Fin 100000) (c : Fin 64), RefTerm.conv64 (F := Ideal) a1 L b (ix2 n c) = Gcn.pre a1 L b n c)
    (hconv8 : ∀ (a1 : IVec S2x1600000 32) (L : FVec Ideal S100000x8 .f32) (b : FVec Ideal S8 .f32)
      (n : Fin 100000) (c : Fin 8), RefTerm.conv8 (F := Ideal) a1 L b (ix2 n c) = Gcn.pre a1 L b n c)
    (hleaky64 : ∀ (v : FVec Ideal S100000x64 .f32) (i : S100000x64.Idx),
      RefTerm.leaky64 (F := Ideal) v i = Gcn.leaky (v i))
    (hleaky8 : ∀ (v : FVec Ideal S100000x8 .f32) (i : S100000x8.Idx),
      RefTerm.leaky8 (F := Ideal) v i = Gcn.leaky (v i))
    (hdot1 : ∀ (A : FVec Ideal S100000x128 .f32) (B : FVec Ideal S128x64 .f32) (p : Fin 100000) (q : Fin 64),
      Host.dotGeneral dot_S100000x128_S128x64_S100000x64_1_0_0_1_n_n none A B (ix2 p q) = Gcn.mmAt A B p q)
    (hdot2 : ∀ (A : FVec Ideal S100000x64 .f32) (B : FVec Ideal S64x8 .f32) (p : Fin 100000) (q : Fin 8),
      Host.dotGeneral dot_S100000x64_S64x8_S100000x8_1_0_0_1_n_n none A B (ix2 p q) = Gcn.mmAt A B p q)
    (hpool : ∀ (a2 : IVec S100000 32) (H : FVec Ideal S100000x8 .f32) (g : Fin 64) (j : Fin 8),
      RefTerm.pool (F := Ideal) a2 H (ix2 g j) = Gcn.pool a2 H g j)
    (hhead : ∀ (Z : FVec Ideal S64x32 .f32) (a8 : FVec Ideal S32x16 .f32) (a9 : FVec Ideal S16 .f32)
      (a10 : FVec Ideal S16x1 .f32) (a11 : FVec Ideal S1 .f32),
      RefTerm.head (F := Ideal) Z a8 a9 a10 a11 = Gcn.head a8 a9 a10 a11 Z)
    (a0 : FVec Ideal S100000x128 .f32) (a1 : IVec S2x1600000 32) (a2 : IVec S100000 32)
    (a3 : FVec Ideal S64x24 .f32) (a4 : FVec Ideal S128x64 .f32) (a5 : FVec Ideal S64 .f32)
    (a6 : FVec Ideal S64x8 .f32) (a7 : FVec Ideal S8 .f32) (a8 : FVec Ideal S32x16 .f32)
    (a9 : FVec Ideal S16 .f32) (a10 : FVec Ideal S16x1 .f32) (a11 : FVec Ideal S1 .f32) :
    RefTerm.out (F := Ideal) a0 a1 a2 a3 a4 a5 a6 a7 a8 a9 a10 a11
      = Gcn.out a0 a1 a2 a3 a4 a5 a6 a7 a8 a9 a10 a11 := by
  -- the first product is the first projection
  have e1 : (Host.dotGeneral dot_S100000x128_S128x64_S100000x64_1_0_0_1_n_n none a0 a4 : FVec Ideal S100000x64 .f32)
      = Gcn.hp1 a0 a4 := by
    funext i
    obtain ⟨p, q, rfl⟩ : ∃ p q, i = ix2 p q := ⟨i 0, i 1, eq_ix2 i⟩
    rw [hdot1]; rfl
  -- its layer, rectified, is the first layer's output
  have e2 : RefTerm.leaky64 (F := Ideal) (RefTerm.conv64 (F := Ideal) a1 (Gcn.hp1 a0 a4) a5) = Gcn.h1 a0 a1 a4 a5 := by
    funext i
    obtain ⟨p, q, rfl⟩ : ∃ p q, i = ix2 p q := ⟨i 0, i 1, eq_ix2 i⟩
    rw [hleaky64, hconv64]; rfl
  -- the second product is the second projection
  have e3 : (Host.dotGeneral (φ₁ := .f32) dot_S100000x64_S64x8_S100000x8_1_0_0_1_n_n none
      (Gcn.h1 a0 a1 a4 a5) a6 : FVec Ideal S100000x8 .f32) = Gcn.hp2 a0 a1 a4 a5 a6 := by
    funext i
    obtain ⟨p, q, rfl⟩ : ∃ p q, i = ix2 p q := ⟨i 0, i 1, eq_ix2 i⟩
    rw [hdot2]; rfl
  -- its layer, rectified, is the second layer's output
  have e4 : RefTerm.leaky8 (F := Ideal) (RefTerm.conv8 (F := Ideal) a1 (Gcn.hp2 a0 a1 a4 a5 a6) a7)
      = Gcn.h2 a0 a1 a4 a5 a6 a7 := by
    funext i
    obtain ⟨p, q, rfl⟩ : ∃ p q, i = ix2 p q := ⟨i 0, i 1, eq_ix2 i⟩
    rw [hleaky8, hconv8]; rfl
  -- the means with the global features appended
  have e5 : ∀ H : FVec Ideal S100000x8 .f32,
      concatenate S64x32 1 [⟨S64x8, RefTerm.pool (F := Ideal) a2 H⟩, ⟨S64x24, a3⟩]
        concatenates_S64x8_S64x24_S64x32_d1 = Gcn.zcat a2 a3 H := by
    intro H
    funext i
    obtain ⟨g, q, rfl⟩ : ∃ p q, i = ix2 p q := ⟨i 0, i 1, eq_ix2 i⟩
    rw [concat_apply]
    simp only [Gcn.zcat, Gcn.arr2_ix2]
    by_cases h : q.val < 8
    · rw [dif_pos h, dif_pos h, hpool]
    · rw [dif_neg h, dif_neg h]
  unfold RefTerm.out Gcn.out
  rw [e1, e2, e3, e4, e5, hhead]

end

end Cert.ReferenceIdeal.RefValue

end
-- ==== Proof.RefDinv.lean ====
/-
  The reference's normalisation: the degree of a row, its inverse square root, and the weight of an edge,
  each read at an index, are the functions of the specification.

  The degree is a scatter-add of ones over the 1 700 000 destination words (the edges' followed by the
  self-loops'): the sum over the words landing on row n splits into the edges landing on n and the
  self-loop words landing on n, of which there is exactly one, the word n itself. So the degree is one
  plus the number of edges landing on n, at least one, the comparison with zero holds, and the selected
  value is the inverse square root. An edge's weight is the product of the factors its two words gather;
  a self-loop's two words are both the row itself.
-/
import proofs.«419935_j81939386073613_2_alg».proof.Proof.RefTerm
import proofs.«419935_j81939386073613_2_alg».proof.Proof.GcnSpec
import proofs.«419935_j81939386073613_2_alg».proof.Proof.LibSegNorm
import Idealize.ShloMosaic.Lib.Pipeline.Value
import Idealize.ShloMosaic.Lib.IdealHost
import Idealize.ShloMosaic.Lib.ValueIdx
import Idealize.ShloMosaic.Lib.ValueIdxRank1
import Mathlib.Algebra.BigOperators.Fin

noncomputable section

open scoped BigOperators

namespace Cert.ReferenceIdeal.RefDinv

open Idealize.ShloMosaic Idealize.ShloMosaic.ValueIdx Cert.ReferenceIdeal

/-! ## The shape operations read at an index -/

/-- Row r of the edge words, sliced out and flattened, read at e. -/
theorem sliceRow_apply {α : Type} (off : Fin 2 → Nat) (r : Fin 2) (h0 : off 0 = r.val) (h1 : off 1 = 0)
    (hs : S2x1600000.Slices off S1x1600000) (hc : S1x1600000.ShapeCasts S1600000)
    (a1 : S2x1600000.Idx → α) (e : Fin 1600000) :
    shapeCast S1600000 (extractStridedSlice S1x1600000 off a1 hs) hc (ix1 e) = a1 (ix2 r e) := by
  refine (shapeCast_apply _ hc (ix1 e) (ix2 (0 : Fin 1) e) ?_).trans ?_
  · rw [Shape.rowMajor_val_two, Shape.rowMajor_val_one]
    show 0 * 1600000 + e.val = e.val
    omega
  · refine extractStridedSlice_apply off a1 hs _ (ix2 r e) ?_
    intro a
    match a with
    | ⟨0, _⟩ => show r.val = off 0 + 0; omega
    | ⟨1, _⟩ => show e.val = off 1 + e.val; omega

/-- The concatenation with the self-loop words read below the edge count: the edge's word. -/
theorem cat_lt {α : Type} (hcat : Shape.Concatenates [S1600000, S100000] S1700000 0)
    (a : S1600000.Idx → α) (b : S100000.Idx → α) (e : Fin 1600000) :
    concatenate S1700000 0 [⟨S1600000, a⟩, ⟨S100000, b⟩] hcat (ix1 ⟨e.val, by omega⟩) = a (ix1 e) :=
  concatenate_pair_apply_left 0 a b hcat _ rfl (ix1 e) (fun c => by match c with | ⟨0, _⟩ => rfl)

/-- … and at or past it: the self-loop's word. -/
theorem cat_ge {α : Type} (hcat : Shape.Concatenates [S1600000, S100000] S1700000 0)
    (a : S1600000.Idx → α) (b : S100000.Idx → α) (n : Fin 100000) :
    concatenate S1700000 0 [⟨S1600000, a⟩, ⟨S100000, b⟩] hcat (ix1 ⟨1600000 + n.val, by omega⟩) = b (ix1 n) :=
  concatenate_pair_apply_right 0 a b hcat _ rfl rfl (ix1 n)
    (fun c hc => by match c with | ⟨0, _⟩ => exact absurd rfl hc)
    (by show n.val + 1600000 = 1600000 + n.val; omega)

/-- A vector made a column reads the vector's entry. -/
theorem colV_apply {α : Type} (hc : S1700000.BroadcastsInDim S1700000x1 ![0]) (v : S1700000.Idx → α) (i : Fin 1700000) :
    broadcastInDim S1700000x1 ![0] hc v (SegNorm.eIdx i) = v (ix1 i) :=
  broadcastInDim_apply ![0] hc v (SegNorm.eIdx i) (ix1 i) (fun a => by
    match a with
    | ⟨0, _⟩ => show i.val = if (1700000 : Nat) = 1 then 0 else i.val; rw [if_neg (by decide)])

/-! ## The reference's words -/

section
variable [Facts₀]

/-- The source word of edge e. -/
theorem src_apply (a1 : IVec S2x1600000 32) (e : Fin 1600000) : RefTerm.src a1 (ix1 e) = Gcn.srcW a1 e :=
  sliceRow_apply ![0, 0] 0 rfl rfl _ _ a1 e

/-- The destination word of edge e. -/
theorem dst_apply (a1 : IVec S2x1600000 32) (e : Fin 1600000) : RefTerm.dst a1 (ix1 e) = Gcn.dstW a1 e :=
  sliceRow_apply ![1, 0] 1 rfl rfl _ _ a1 e

/-- The concatenated words at an edge: the edge's word. -/
theorem cat_apply_edge (v : IVec S1600000 32) (e : Fin 1600000) :
    RefTerm.cat v (ix1 ⟨e.val, by omega⟩) = v (ix1 e) :=
  cat_lt _ v _ e

/-- The concatenated words at a self-loop: the row's own number. -/
theorem cat_apply_loop (v : IVec S1600000 32) (n : Fin 100000) :
    RefTerm.cat v (ix1 ⟨1600000 + n.val, by omega⟩) = BitVec.ofNat 32 n.val :=
  cat_ge _ v _ n

/-- A column reads its vector. -/
theorem col_apply (v : IVec S1700000 32) (i : Fin 1700000) : RefTerm.col v (SegNorm.eIdx i) = v (ix1 i) :=
  colV_apply _ v i

/-- The word a gather reads from: a negative word moved up by the table's length. -/
theorem nrm_apply (v : IVec S1700000 32) (i : Fin 1700000) : RefTerm.nrm v (ix1 i) = Gcn.normW (v (ix1 i)) := rfl

end

/-! ## Words that are row numbers -/

/-- A row number as a word reads, signed, as itself. -/
theorem iota_toInt (k : Fin 100000) : (BitVec.ofNat 32 k.val).toInt = (k.val : Int) := by
  have hk := k.isLt
  rw [BitVec.toInt_eq_toNat_cond, BitVec.toNat_ofNat, Nat.mod_eq_of_lt (by omega), if_pos (by omega)]

/-- A row number is not negative: the gather reads from it as it is. -/
theorem normW_iota (k : Fin 100000) : Gcn.normW (BitVec.ofNat 32 k.val) = BitVec.ofNat 32 k.val := by
  have h : (BitVec.ofNat 32 k.val).slt 0#32 = false := by
    unfold BitVec.slt
    rw [iota_toInt]
    exact decide_eq_false (by simp)
  show Scalar.select (BitVec.ofBool ((BitVec.ofNat 32 k.val).slt 0#32)) _ _ = _
  rw [h]
  rfl

/-- The row a gather reads for the word of row k is k. -/
theorem rowOf_iota (k : Fin 100000) : Gcn.rowOf (BitVec.ofNat 32 k.val) = k := by
  apply Fin.ext
  show min (Gcn.normW (BitVec.ofNat 32 k.val)).toInt.toNat (100000 - 1) = k.val
  rw [normW_iota, iota_toInt, Int.toNat_natCast]
  have := k.isLt
  omega

/-- A sum over the 1 700 000 words is the sum over the edges plus the sum over the self-loops. -/
theorem sum_split (f : Fin 1700000 → EReal) :
    ∑ i, f i = (∑ e : Fin 1600000, f ⟨e.val, by omega⟩) + ∑ k : Fin 100000, f ⟨1600000 + k.val, by omega⟩ :=
  Fin.sum_univ_add (a := 1600000) (b := 100000) f

/-- Exactly one self-loop word is the row n. -/
theorem sum_loop_single (n : Fin 100000) :
    (∑ k : Fin 100000, if (BitVec.ofNat 32 k.val).toInt = (n.val : Int) then (1 : EReal) else 0) = 1 := by
  rw [Finset.sum_eq_single n]
  · rw [if_pos (iota_toInt n)]
  · intro k _ hk
    rw [if_neg]
    rw [iota_toInt]
    intro h
    exact hk (Fin.ext (by exact_mod_cast h))
  · intro h
    exact absurd (Finset.mem_univ n) h

/-- A scatter-add of ones into zeros over 1 700 000 starts, read at row n: the count of the edges' starts that are n
    plus the count of the self-loops' starts that are n. -/
theorem degree_split (wf : ScatterDims.WF ⟨1, ![100000]⟩ ⟨2, ![1700000, 1]⟩ ⟨1, ![1700000]⟩ [] [0] [0] 1)
    (x : S100000.Idx → EReal) (idx : IVec S1700000x1 32) (upd : S1700000.Idx → EReal) (n : Fin 100000)
    (hx : x (ix1 n) = 0) (hu : ∀ j, upd j = 1) :
    Ideal.hostScatterAdd (SegNorm.vecScatterDims 100000 1700000 wf) x idx upd (ix1 n)
      = (∑ e : Fin 1600000, if (idx (SegNorm.eIdx ⟨e.val, by omega⟩)).toInt = (n.val : Int) then (1 : EReal) else 0)
        + ∑ k : Fin 100000, if (idx (SegNorm.eIdx ⟨1600000 + k.val, by omega⟩)).toInt = (n.val : Int) then (1 : EReal) else 0 := by
  unfold Ideal.hostScatterAdd
  rw [hx, zero_add, Finset.sum_congr rfl (fun j _ => hu j),
    Finset.filter_congr (fun j _ => SegNorm.vecScatter_resultIdx wf idx j (ix1 n)), Finset.sum_filter,
    ← Equiv.sum_comp (idxEquiv1 (n := 1700000)).symm]
  exact sum_split (fun i => if (idx (SegNorm.eIdx i)).toInt = (n.val : Int) then (1 : EReal) else 0)

/-! ## The degree, its inverse square root, the edge weight -/

section
variable [Facts₀]

/-- The reference's degree of row n: one plus the number of edges landing on n. -/
theorem deg_apply (a1 : IVec S2x1600000 32) (n : Fin 100000) :
    RefTerm.deg (F := Ideal) a1 (ix1 n) = Gcn.deg a1 n := by
  unfold RefTerm.deg
  rw [SegNorm.scatterAdd_ideal]
  refine (degree_split Facts₀.scatter_S100000_S1700000x1_S1700000_n_0_0_1_wf _ _ _ n ?_ ?_).trans ?_
  · exact (broadcastInDim_scalar_apply _ _ _).trans Ideal.ofBits_zero_f32
  · intro j
    exact (broadcastInDim_scalar_apply _ _ _).trans Ideal.ofBits_one_f32
  · unfold Gcn.deg Gcn.into
    rw [Finset.sum_filter]
    refine congrArg₂ (· + ·) ?_ ?_
    · refine Finset.sum_congr rfl (fun e _ => ?_)
      rw [col_apply, cat_apply_edge, dst_apply]
    · refine Eq.trans ?_ (sum_loop_single n)
      refine Finset.sum_congr rfl (fun k _ => ?_)
      rw [col_apply, cat_apply_loop]

/-- The degree is positive. -/
theorem deg_pos (a1 : IVec S2x1600000 32) (n : Fin 100000) : (0 : EReal) < Gcn.deg a1 n := by
  unfold Gcn.deg
  exact lt_of_lt_of_le zero_lt_one (le_add_of_nonneg_left (Finset.sum_nonneg (fun _ _ => zero_le_one)))

/-- The host's inverse square root at an index. -/
theorem hostRsqrt_apply {s : Shape} {φ : FTy} (x : FVec Ideal s φ) (i : s.Idx) :
    Host.rsqrt x i = Ideal.rsqrt (x i) := rfl

/-- A positive extended real compares greater than zero. -/
theorem cmpf_ogt_zero {φ : FTy} (x : EReal) (h : 0 < x) :
    FloatOps.cmpf (F := Ideal) (φ := φ) .ogt x 0 = 1#1 := by
  show BitVec.ofBool (decide (0 < x)) = 1#1
  rw [decide_eq_true h]
  rfl

/-- THE FACTOR OF ROW n: the inverse square root of its degree. -/
theorem dinv_apply (a1 : IVec S2x1600000 32) (n : Fin 100000) :
    RefTerm.dinv (F := Ideal) a1 (ix1 n) = Gcn.dinv a1 n := by
  unfold RefTerm.dinv
  have hz : (broadcastInDim S100000 ![] Facts₀.bcast_S_S100000 (constant (F := Ideal) S_ .f32 0x00000000#32)) (ix1 n) = 0 :=
    (broadcastInDim_scalar_apply _ _ _).trans Ideal.ofBits_zero_f32
  rw [select_apply, cmpf_apply, hostRsqrt_apply, hz, deg_apply, cmpf_ogt_zero _ (deg_pos a1 n), select_one]
  rfl

/-- The factor gathered at a column of normalised words: the factor of the row the word names. -/
theorem gather_dinv_apply (a1 : IVec S2x1600000 32) (v : IVec S1700000 32) (i : Fin 1700000) :
    Host.gather gather_S100000_S1700000x1_S1700000_n_0_n_n_0_1_1 (RefTerm.dinv (F := Ideal) a1)
        (RefTerm.col (RefTerm.nrm v)) (ix1 i)
      = Gcn.dinv a1 (Gcn.rowOf (v (ix1 i))) := by
  refine (SegNorm.vecGather_apply (N := 100000) (by omega)
    Facts₀.gather_S100000_S1700000x1_S1700000_n_0_n_n_0_1_1_wf _ _ (ix1 i)).trans ?_
  have hr : SegNorm.clampRow (N := 100000) (by omega) (RefTerm.col (RefTerm.nrm v))
      ⟨((ix1 i : S1700000.Idx) 0).val, ((ix1 i : S1700000.Idx) 0).isLt⟩ = Gcn.rowOf (v (ix1 i)) := by
    apply Fin.ext
    rw [SegNorm.clampRow_val]
    show min ((RefTerm.col (RefTerm.nrm v) (SegNorm.eIdx i)).toInt.toNat) (100000 - 1)
      = min (Gcn.normW (v (ix1 i))).toInt.toNat (100000 - 1)
    rw [col_apply, nrm_apply]
  rw [hr, dinv_apply]

/-- THE WEIGHT OF EDGE e: the product of the factors of the two rows its words read. -/
theorem enorm_apply_edge (a1 : IVec S2x1600000 32) (e : Fin 1600000) :
    RefTerm.enorm (F := Ideal) a1 (ix1 ⟨e.val, by omega⟩) = Gcn.enorm a1 e := by
  unfold RefTerm.enorm
  rw [mulf_apply, gather_dinv_apply, gather_dinv_apply, cat_apply_edge, cat_apply_edge, src_apply, dst_apply]
  rfl

/-- THE WEIGHT OF THE SELF-LOOP OF ROW n: its factor squared. -/
theorem enorm_apply_loop (a1 : IVec S2x1600000 32) (n : Fin 100000) :
    RefTerm.enorm (F := Ideal) a1 (ix1 ⟨1600000 + n.val, by omega⟩) = Gcn.dinv a1 n * Gcn.dinv a1 n := by
  unfold RefTerm.enorm
  rw [mulf_apply, gather_dinv_apply, gather_dinv_apply, cat_apply_loop, cat_apply_loop, rowOf_iota]

end

end Cert.ReferenceIdeal.RefDinv

end
-- ==== Proof.RefConv.lean ====
/-
  One convolution layer of the reference is the layer of the specification.

  The reference lays the 100000 self-loop words 0, 1, …, 99999 after the 1 600 000 edge words, gathers the rows of
  the table L at the normalised, clamped source words, scales each gathered row by the weight of its position,
  scatter-adds the scaled rows at the destination words into a table of zeros, and adds the bias row to every row.

  Read at (n, c), the scatter-add is zero plus the sum, over the positions whose destination word read signed is n,
  of the gathered entry times the weight. The positions split into the first 1 600 000, the edges, and the last
  100000, the self-loops. An edge e contributes L[rowOf (src e), c] · enorm e, and it lands on n exactly when its
  destination word does: this part is the aggregate of the specification. The self-loop at position 1600000 + k has
  destination word k, so exactly one lands on n, the one with k = n; its source word is n as well, the row it
  gathers is n, and its weight is dinv n · dinv n: this part is the self-loop term. Adding the bias gives the layer.

  The lemma is proved once for a table of C columns and used for C = 64 and C = 8.
-/
import proofs.«419935_j81939386073613_2_alg».proof.Proof.RefTerm
import proofs.«419935_j81939386073613_2_alg».proof.Proof.RefDinv
import proofs.«419935_j81939386073613_2_alg».proof.Proof.GcnSpec
import proofs.«419935_j81939386073613_2_alg».proof.Proof.LibSegNorm
import proofs.«419935_j81939386073613_2_alg».proof.Proof.LibScatter
import proofs.«419935_j81939386073613_2_alg».proof.Proof.LibSelfLoop
import Idealize.ShloMosaic.Lib.Pipeline.Value
import Idealize.ShloMosaic.Lib.IdealHost
import Idealize.ShloMosaic.Lib.ValueIdx

noncomputable section

open scoped BigOperators

namespace Cert.ReferenceIdeal.RefConv

open Idealize.ShloMosaic Idealize.ShloMosaic.ValueIdx Gcn SegNorm Cert.ReferenceIdeal

/-! ## Broadcasts read at an index -/

/-- A vector laid out as an [E, 1] column reads, at (e, 0), the vector's entry e. -/
theorem colA_apply {α : Type} {E : Nat} (hc : (Sh1 E).BroadcastsInDim (Sh2 E 1) ![0]) (v : (Sh1 E).Idx → α) (e : Fin E) :
    broadcastInDim (Sh2 E 1) ![0] hc v (eIdx e) = v (ix1 e) := by
  refine broadcastInDim_apply _ hc v (eIdx e) (ix1 e) (fun a => ?_)
  obtain rfl : a = 0 := Subsingleton.elim _ _
  show e.val = if E = 1 then 0 else e.val
  split
  · have := e.isLt; omega
  · rfl

/-- An [E, 1] column stretched over C columns reads, at (e, c), the column's entry (e, 0). -/
theorem wide_apply {α : Type} {E C : Nat} (h : (Sh2 E 1).BroadcastsInDim (Sh2 E C) ![0, 1]) (x : (Sh2 E 1).Idx → α)
    (e : Fin E) (c : Fin C) : broadcastInDim (Sh2 E C) ![0, 1] h x (ix2 e c) = x (eIdx e) := by
  refine broadcastInDim_apply _ h x (ix2 e c) (eIdx e) (fun a => ?_)
  match a with
  | ⟨0, _⟩ =>
    show e.val = if E = 1 then 0 else e.val
    split
    · have := e.isLt; omega
    · rfl
  | ⟨1, _⟩ => rfl

/-- A row of C entries laid out as [1, C] and stretched over N rows reads, at (n, c), the row's entry c. -/
theorem bias_apply {α : Type} {N C : Nat} (h1 : (Sh1 C).BroadcastsInDim (Sh2 1 C) ![1])
    (h2 : (Sh2 1 C).BroadcastsInDim (Sh2 N C) ![0, 1]) (b : (Sh1 C).Idx → α) (n : Fin N) (c : Fin C) :
    broadcastInDim (Sh2 N C) ![0, 1] h2 (broadcastInDim (Sh2 1 C) ![1] h1 b) (ix2 n c) = b (ix1 c) := by
  refine (broadcastInDim_apply _ h2 _ (ix2 n c) (ix2 (⟨0, Nat.one_pos⟩ : Fin 1) c) (fun a => ?_)).trans
    (broadcastInDim_apply _ h1 b (ix2 (⟨0, Nat.one_pos⟩ : Fin 1) c) (ix1 c) (fun a => ?_))
  · match a with
    | ⟨0, _⟩ => rfl
    | ⟨1, _⟩ =>
      show c.val = if C = 1 then 0 else c.val
      split
      · have := c.isLt; omega
      · rfl
  · obtain rfl : a = 0 := Subsingleton.elim _ _
    show c.val = if C = 1 then 0 else c.val
    split
    · have := c.isLt; omega
    · rfl

/-! ## The start of an edge -/

/-- The start of edge e in an [E, 1] column is the index (e, 0). -/
theorem eIdx_eq {E : Nat} (e : Fin E) : eIdx e = ix2 e (⟨0, Nat.one_pos⟩ : Fin 1) := by
  funext a
  match a with
  | ⟨0, _⟩ => rfl
  | ⟨1, _⟩ => rfl

/-! ## One layer -/

/-- ONE LAYER. The scatter-add, over the 1 700 000 destination words dc, into zeros, of the rows of L gathered at
    the source words sc, each scaled by its weight en, plus the bias, is the layer pre: the positions below 1 600 000
    are the edges, the last 100 000 the self-loops, one landing on each row. -/
theorem conv_generic {C : Nat}
    (wfS : ScatterDims.WF (Sh2 100000 C) (Sh2 1700000 1) (Sh2 1700000 C) [1] [0] [0] 1)
    (wfG : GatherDims.WF (Sh2 100000 C) (Sh2 1700000 1) (Sh2 1700000 C) [1] [0] [] [0] [] 1 ![1, C])
    (hz : (⟨0, ![]⟩ : Shape).BroadcastsInDim (Sh2 100000 C) ![])
    (hcol : (Sh1 1700000).BroadcastsInDim (Sh2 1700000 1) ![0])
    (hw : (Sh2 1700000 1).BroadcastsInDim (Sh2 1700000 C) ![0, 1])
    (hb1 : (Sh1 C).BroadcastsInDim (Sh2 1 C) ![1])
    (hb2 : (Sh2 1 C).BroadcastsInDim (Sh2 100000 C) ![0, 1])
    (ei : IVec (Sh2 2 1600000) 32)
    (sc dc : IVec (Sh2 1700000 1) 32) (en : FVec Ideal (Sh1 1700000) .f32)
    (L : FVec Ideal (Sh2 100000 C) .f32) (b : FVec Ideal (Sh1 C) .f32)
    (hsE : ∀ e : Fin 1600000, clampRow (N := 100000) (by decide) sc ⟨e.val, by have := e.isLt; omega⟩ = rowOf (srcW ei e))
    (hsL : ∀ n : Fin 100000, clampRow (N := 100000) (by decide) sc ⟨1600000 + n.val, by have := n.isLt; omega⟩ = n)
    (hdE : ∀ e : Fin 1600000, dc (eIdx ⟨e.val, by have := e.isLt; omega⟩) = dstW ei e)
    (hdL : ∀ n : Fin 100000, dc (eIdx ⟨1600000 + n.val, by have := n.isLt; omega⟩) = BitVec.ofNat 32 n.val)
    (heE : ∀ e : Fin 1600000, en (ix1 ⟨e.val, by have := e.isLt; omega⟩) = enorm ei e)
    (heL : ∀ n : Fin 100000, en (ix1 ⟨1600000 + n.val, by have := n.isLt; omega⟩) = dinv ei n * dinv ei n)
    (n : Fin 100000) (c : Fin C) :
    addf (Host.scatterAdd (F := Ideal) (rowScatterDims 100000 1700000 C wfS)
          (broadcastInDim (Sh2 100000 C) ![] hz (constant (⟨0, ![]⟩ : Shape) .f32 0x00000000#32))
          dc
          (mulf (Host.gather (rowGatherDims 100000 1700000 C wfG) L sc)
            (broadcastInDim (Sh2 1700000 C) ![0, 1] hw (broadcastInDim (Sh2 1700000 1) ![0] hcol en))))
        (broadcastInDim (Sh2 100000 C) ![0, 1] hb2 (broadcastInDim (Sh2 1 C) ![1] hb1 b)) (ix2 n c)
      = pre ei L b n c := by
  -- the updates read at a position
  have hupd : ∀ (r : Fin 1700000),
      mulf (Host.gather (rowGatherDims 100000 1700000 C wfG) L sc)
        (broadcastInDim (Sh2 1700000 C) ![0, 1] hw (broadcastInDim (Sh2 1700000 1) ![0] hcol en)) (ix2 r c)
        = L (ix2 (clampRow (N := 100000) (by decide) sc r) c) * en (ix1 r) := by
    intro r
    rw [mulf_apply, rowGather_apply (by decide : 0 < 100000) wfG, wide_apply, colA_apply]
    rfl
  rw [addf_apply, bias_apply, scatterAdd_ideal]
  have hsc := Cert.LibScatter.scatterAdd_row_apply wfS
    (broadcastInDim (Sh2 100000 C) ![] hz (constant (F := Ideal) (⟨0, ![]⟩ : Shape) .f32 0x00000000#32)) dc
    (mulf (Host.gather (rowGatherDims 100000 1700000 C wfG) L sc)
      (broadcastInDim (Sh2 1700000 C) ![0, 1] hw (broadcastInDim (Sh2 1700000 1) ![0] hcol en))) n c
  refine (congrArg (· + b (ix1 c)) hsc).trans ?_
  beta_reduce
  rw [broadcastInDim_scalar_apply]
  rw [constant_apply]
  rw [Ideal.ofBits_zero_f32, zero_add]
  rw [SelfLoop.sum_filter_split (E := 1600000) (N := 100000) (T := 1700000) (by norm_num)]
  unfold pre agg into
  refine congrArg (· + b (ix1 c)) (congrArg₂ (· + ·) ?_ ?_)
  · -- the edges
    refine Finset.sum_congr (Finset.filter_congr (fun e _ => ?_)) (fun e _ => ?_)
    · rw [← eIdx_eq, hdE e]
    · rw [hupd, hsE e, heE e]
  · -- the self-loops
    have hf : (Finset.univ.filter (fun k : Fin 100000 =>
          (dc (ix2 (⟨1600000 + k.val, by have := k.isLt; omega⟩ : Fin 1700000) (⟨0, Nat.one_pos⟩ : Fin 1))).toInt = (n.val : Int)))
        = Finset.univ.filter (fun k : Fin 100000 => (BitVec.ofNat 32 k.val).toInt = (n.val : Int)) :=
      Finset.filter_congr (fun k _ => by
        rw [← eIdx_eq, hdL k])
    rw [hf, SelfLoop.sum_filter_eq_single n, hupd, hsL n, heL n]

/-! ## The reference's words at a position -/

section
variable [Facts₀]
open Facts₀

/-- At an edge the source column reads, normalised and clamped, the row of the edge's source word. -/
theorem srcRow_edge (a1 : IVec S2x1600000 32) (e : Fin 1600000) :
    clampRow (N := 100000) (by decide) (RefTerm.col (RefTerm.nrm (RefTerm.cat (RefTerm.src a1))))
      ⟨e.val, by have := e.isLt; omega⟩ = rowOf (srcW a1 e) := by
  apply Fin.ext
  rw [clampRow_val, RefDinv.col_apply, RefDinv.nrm_apply, RefDinv.cat_apply_edge, RefDinv.src_apply]
  rfl

/-- At the self-loop of row n the source column reads, normalised and clamped, the row n. -/
theorem srcRow_loop (a1 : IVec S2x1600000 32) (n : Fin 100000) :
    clampRow (N := 100000) (by decide) (RefTerm.col (RefTerm.nrm (RefTerm.cat (RefTerm.src a1))))
      ⟨1600000 + n.val, by have := n.isLt; omega⟩ = n := by
  apply Fin.ext
  rw [clampRow_val, RefDinv.col_apply, RefDinv.nrm_apply, RefDinv.cat_apply_loop]
  exact congrArg Fin.val (SelfLoop.rowOf_iota n)

/-- At an edge the destination column reads the edge's destination word. -/
theorem dstWord_edge (a1 : IVec S2x1600000 32) (e : Fin 1600000) :
    RefTerm.col (RefTerm.cat (RefTerm.dst a1)) (eIdx ⟨e.val, by have := e.isLt; omega⟩) = dstW a1 e := by
  rw [RefDinv.col_apply, RefDinv.cat_apply_edge, RefDinv.dst_apply]

/-- At the self-loop of row n the destination column reads the word n. -/
theorem dstWord_loop (a1 : IVec S2x1600000 32) (n : Fin 100000) :
    RefTerm.col (RefTerm.cat (RefTerm.dst a1)) (eIdx ⟨1600000 + n.val, by have := n.isLt; omega⟩)
      = BitVec.ofNat 32 n.val := by
  rw [RefDinv.col_apply, RefDinv.cat_apply_loop]

/-! ## The two layers -/

/-- The layer of 64 columns, given the weights at the edges and at the self-loops. -/
theorem conv64_apply_of (a1 : IVec S2x1600000 32) (L : FVec Ideal S100000x64 .f32) (b : FVec Ideal S64 .f32)
    (heE : ∀ e : Fin 1600000, RefTerm.enorm (F := Ideal) a1 (ix1 ⟨e.val, by have := e.isLt; omega⟩) = Gcn.enorm a1 e)
    (heL : ∀ n : Fin 100000, RefTerm.enorm (F := Ideal) a1 (ix1 ⟨1600000 + n.val, by have := n.isLt; omega⟩)
      = Gcn.dinv a1 n * Gcn.dinv a1 n)
    (n : Fin 100000) (c : Fin 64) :
    RefTerm.conv64 (F := Ideal) a1 L b (ix2 n c) = Gcn.pre a1 L b n c :=
  conv_generic (C := 64) scatter_S100000x64_S1700000x1_S1700000x64_1_0_0_1_wf
    gather_S100000x64_S1700000x1_S1700000x64_1_0_n_n_0_1_164_wf bcast_S_S100000x64 bcast_S1700000_S1700000x1_0
    bcast_S1700000x1_S1700000x64_0_1 bcast_S64_S1x64_1 bcast_S1x64_S100000x64_0_1 a1
    (RefTerm.col (RefTerm.nrm (RefTerm.cat (RefTerm.src a1)))) (RefTerm.col (RefTerm.cat (RefTerm.dst a1)))
    (RefTerm.enorm (F := Ideal) a1) L b (srcRow_edge a1) (srcRow_loop a1) (dstWord_edge a1) (dstWord_loop a1)
    heE heL n c

/-- The layer of 8 columns, given the weights at the edges and at the self-loops. -/
theorem conv8_apply_of (a1 : IVec S2x1600000 32) (L : FVec Ideal S100000x8 .f32) (b : FVec Ideal S8 .f32)
    (heE : ∀ e : Fin 1600000, RefTerm.enorm (F := Ideal) a1 (ix1 ⟨e.val, by have := e.isLt; omega⟩) = Gcn.enorm a1 e)
    (heL : ∀ n : Fin 100000, RefTerm.enorm (F := Ideal) a1 (ix1 ⟨1600000 + n.val, by have := n.isLt; omega⟩)
      = Gcn.dinv a1 n * Gcn.dinv a1 n)
    (n : Fin 100000) (c : Fin 8) :
    RefTerm.conv8 (F := Ideal) a1 L b (ix2 n c) = Gcn.pre a1 L b n c :=
  conv_generic (C := 8) scatter_S100000x8_S1700000x1_S1700000x8_1_0_0_1_wf
    gather_S100000x8_S1700000x1_S1700000x8_1_0_n_n_0_1_18_wf bcast_S_S100000x8 bcast_S1700000_S1700000x1_0
    bcast_S1700000x1_S1700000x8_0_1 bcast_S8_S1x8_1 bcast_S1x8_S100000x8_0_1 a1
    (RefTerm.col (RefTerm.nrm (RefTerm.cat (RefTerm.src a1)))) (RefTerm.col (RefTerm.cat (RefTerm.dst a1)))
    (RefTerm.enorm (F := Ideal) a1) L b (srcRow_edge a1) (srcRow_loop a1) (dstWord_edge a1) (dstWord_loop a1)
    heE heL n c

/-- THE LAYER OF 64 COLUMNS of the reference, read at (n, c), is the layer of the specification. -/
theorem conv64_apply (a1 : IVec S2x1600000 32) (L : FVec Ideal S100000x64 .f32) (b : FVec Ideal S64 .f32)
    (n : Fin 100000) (c : Fin 64) : RefTerm.conv64 (F := Ideal) a1 L b (ix2 n c) = Gcn.pre a1 L b n c :=
  conv64_apply_of a1 L b (RefDinv.enorm_apply_edge a1) (RefDinv.enorm_apply_loop a1) n c

/-- THE LAYER OF 8 COLUMNS of the reference, read at (n, c), is the layer of the specification. -/
theorem conv8_apply (a1 : IVec S2x1600000 32) (L : FVec Ideal S100000x8 .f32) (b : FVec Ideal S8 .f32)
    (n : Fin 100000) (c : Fin 8) : RefTerm.conv8 (F := Ideal) a1 L b (ix2 n c) = Gcn.pre a1 L b n c :=
  conv8_apply_of a1 L b (RefDinv.enorm_apply_edge a1) (RefDinv.enorm_apply_loop a1) n c

end

end Cert.ReferenceIdeal.RefConv

end
-- ==== Proof.RefHead.lean ====
/-
  The reference's pointwise rectifier, its matrix products, its mean pool and its dense head, read at an entry
  over the extended reals.

  * The rectifier: the reference selects v where 0 ≤ v and slope · v elsewhere; the target takes v where 0 < v
    and slope · v elsewhere. The two differ only at v = 0, where slope · 0 = 0.
  * A matrix product at (p, q) is the sum over the contracted coordinate c of A[p, c] · B[c, q].
  * The pool: the rows of a table scatter-added over the batch words give, at (g, j), the sum of the entries
    (n, j) over the rows n whose word, read signed, is g; ones scatter-added over the same words give the
    number of such rows; the quotient of the first by the second clamped below by one is the mean.
  * The head: two dense layers, each a product plus a bias row laid along every row, each rectified.
-/
import proofs.«419935_j81939386073613_2_alg».proof.Proof.RefTerm
import proofs.«419935_j81939386073613_2_alg».proof.Proof.GcnSpec
import proofs.«419935_j81939386073613_2_alg».proof.Proof.LibSegNorm
import proofs.«419935_j81939386073613_2_alg».proof.Proof.LibScatter
import proofs.«419935_j81939386073613_2_alg».proof.Proof.LibBlockOps
import Idealize.ShloMosaic.Lib.Pipeline.Value
import Idealize.ShloMosaic.Lib.IdealHost
import Idealize.ShloMosaic.Lib.ValueIdx
import Idealize.ShloMosaic.PureOps.Ideal.Laws

noncomputable section

open scoped BigOperators

namespace Cert.ReferenceIdeal.RefHead

open Idealize.ShloMosaic Idealize.ShloMosaic.ValueIdx
open Cert.ReferenceIdeal Gcn

/-! ## The rectifier on one extended real -/

/-- Selecting v where 0 ≤ v and slope · v elsewhere is the leaky rectifier: at v = 0 both give 0. -/
theorem leaky_word (x : EReal) :
    Scalar.select (Ideal.cmp .oge x (Ideal.ofBits .f32 0x00000000#32)) x (Ideal.ofBits .f32 0x3C23D70A#32 * x)
      = Gcn.leaky x := by
  rw [Ideal.ofBits_zero_f32]
  unfold Gcn.leaky Gcn.slope
  by_cases h : (0 : EReal) ≤ x
  · have hc : Ideal.cmp .oge x 0 = 1#1 := by simp [Ideal.cmp, h]
    rw [hc, select_one]
    rcases h.lt_or_eq with h1 | h1
    · rw [if_pos h1]
    · rw [← h1, if_neg (lt_irrefl _), mul_zero]
  · have hc : Ideal.cmp .oge x 0 = 0#1 := by simp [Ideal.cmp, h]
    rw [hc, select_zero, if_neg (fun h' => h (le_of_lt h'))]

/-- The rectifier of a whole array, read at an index. -/
theorem leakyV_apply {s : Shape} (hb : S_.BroadcastsInDim s ![]) (v : FVec Ideal s .f32) (i : s.Idx) :
    select (cmpf .oge v (broadcastInDim s ![] hb (constant S_ .f32 0x00000000#32))) v
        (mulf (broadcastInDim s ![] hb (id (constant S_ .f32 0x3C23D70A#32 : FVec Ideal S_ .f32))) v) i
      = Gcn.leaky (v i) :=
  leaky_word (v i)

/-! ## A matrix product at an entry -/

/-- The product of an m×k by a k×n matrix at (a, b): the sum over c of A[a, c] · B[c, b]. -/
theorem dot_rowCol_apply {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (BlockOps.rowCol w) none A B (ix2 a b) = Gcn.mmAt A B a b := by
  show FloatOps.dotGeneral (BlockOps.rowCol w) none _ A B (ix2 a b) = ∑ c : Fin k, A (ix2 a c) * B (ix2 c b)
  rw [Ideal.dotGeneral_apply, ← Equiv.sum_comp (contrEquiv1 (BlockOps.rowCol w) k rfl rfl).symm]
  refine Finset.sum_congr rfl fun c _ => ?_
  rw [BlockOps.rowCol_lhsIdx, BlockOps.rowCol_rhsIdx]

/-! ## Broadcasts read at an entry -/

section Bcast
variable {α : Type}

/-- A vector laid out as a column reads, at (r, 0), the vector's entry r. -/
theorem bcast_col_apply {n : Nat} (h : (Sh1 n).BroadcastsInDim (Sh2 n 1) ![0]) (v : (Sh1 n).Idx → α)
    (r : Fin n) (z : Fin 1) : broadcastInDim (Sh2 n 1) ![0] h v (ix2 r z) = v (ix1 r) := by
  refine broadcastInDim_apply _ h v (ix2 r z) (ix1 r) (fun a => ?_)
  obtain rfl : a = 0 := Subsingleton.elim _ _
  show r.val = if n = 1 then 0 else r.val
  split
  · have := r.isLt; omega
  · rfl

/-- A column laid along b columns reads, at (p, c), the column's entry p. -/
theorem bcast_cols_apply {a b : Nat} (h : (Sh2 a 1).BroadcastsInDim (Sh2 a b) ![0, 1]) (v : (Sh2 a 1).Idx → α)
    (p : Fin a) (c : Fin b) : broadcastInDim (Sh2 a b) ![0, 1] h v (ix2 p c) = v (ix2 p (0 : Fin 1)) := by
  refine broadcastInDim_apply _ h v (ix2 p c) (ix2 p (0 : Fin 1)) (fun ax => ?_)
  match ax with
  | ⟨0, _⟩ =>
    show p.val = if a = 1 then 0 else p.val
    split
    · have := p.isLt; omega
    · rfl
  | ⟨1, _⟩ => rfl

/-- A vector laid out as a row reads, at (0, c), the vector's entry c. -/
theorem bcast_row_apply {n : Nat} (h : (Sh1 n).BroadcastsInDim (Sh2 1 n) ![1]) (v : (Sh1 n).Idx → α)
    (z : Fin 1) (c : Fin n) : broadcastInDim (Sh2 1 n) ![1] h v (ix2 z c) = v (ix1 c) := by
  refine broadcastInDim_apply _ h v (ix2 z c) (ix1 c) (fun a => ?_)
  obtain rfl : a = 0 := Subsingleton.elim _ _
  show c.val = if n = 1 then 0 else c.val
  split
  · have := c.isLt; omega
  · rfl

/-- A row laid along m rows reads, at (p, c), the row's entry c. -/
theorem bcast_rows_apply {m n : Nat} (h : (Sh2 1 n).BroadcastsInDim (Sh2 m n) ![0, 1]) (v : (Sh2 1 n).Idx → α)
    (p : Fin m) (c : Fin n) : broadcastInDim (Sh2 m n) ![0, 1] h v (ix2 p c) = v (ix2 (0 : Fin 1) c) := by
  refine broadcastInDim_apply _ h v (ix2 p c) (ix2 (0 : Fin 1) c) (fun ax => ?_)
  match ax with
  | ⟨0, _⟩ => rfl
  | ⟨1, _⟩ =>
    show c.val = if n = 1 then 0 else c.val
    split
    · have := c.isLt; omega
    · rfl

end Bcast

/-- A bias vector laid along every row of an m×n table reads, at (p, c), the vector's entry c. -/
theorem bias_apply {m n : Nat} (h1 : (Sh1 n).BroadcastsInDim (Sh2 1 n) ![1])
    (h2 : (Sh2 1 n).BroadcastsInDim (Sh2 m n) ![0, 1]) (b : (Sh1 n).Idx → EReal) (p : Fin m) (c : Fin n) :
    broadcastInDim (Sh2 m n) ![0, 1] h2 (broadcastInDim (Sh2 1 n) ![1] h1 b) (ix2 p c) = b (ix1 c) := by
  rw [bcast_rows_apply, bcast_row_apply]

/-! ## A scatter-add of scalars read at an entry -/

/-- The start index (e, 0) of an [E, 1] column, by its two coordinates. -/
theorem eIdx_eq_ix2 {E : Nat} (e : Fin E) : SegNorm.eIdx e = ix2 e (⟨0, Nat.one_pos⟩ : Fin 1) := by
  funext a
  match a with
  | ⟨0, _⟩ => rfl
  | ⟨1, _⟩ => rfl

/-- Scalars scatter-added into a vector, read at n: the operand there plus the sum of the updates of the
    rows whose index word, read signed, is n. -/
theorem vecScatterAdd_apply {N E w : Nat} (wf : ScatterDims.WF ⟨1, ![N]⟩ ⟨2, ![E, 1]⟩ ⟨1, ![E]⟩ [] [0] [0] 1)
    (x : (Sh1 N).Idx → EReal) (idx : IVec ⟨2, ![E, 1]⟩ w) (upd : (Sh1 E).Idx → EReal) (n : Fin N) :
    Ideal.hostScatterAdd (SegNorm.vecScatterDims N E wf) x idx upd (ix1 n)
      = x (ix1 n) + ∑ r ∈ Finset.univ.filter (fun r : Fin E => (idx (SegNorm.eIdx r)).toInt = (n.val : ℤ)),
          upd (ix1 r) := by
  unfold Ideal.hostScatterAdd
  congr 1
  symm
  refine Finset.sum_bij (fun r _ => ix1 r) ?_ ?_ ?_ ?_
  · intro r hr
    rw [Finset.mem_filter] at hr ⊢
    exact ⟨Finset.mem_univ _, (SegNorm.vecScatter_resultIdx wf idx (ix1 r) (ix1 n)).mpr hr.2⟩
  · intro r₁ _ r₂ _ h
    exact congrFun h 0
  · intro j hj
    obtain ⟨a, rfl⟩ : ∃ a : Fin E, j = ix1 a := ⟨j 0, eq_ix1 j⟩
    rw [Finset.mem_filter] at hj
    have hj2 := (SegNorm.vecScatter_resultIdx wf idx (ix1 a) (ix1 n)).mp hj.2
    refine ⟨a, ?_, rfl⟩
    rw [Finset.mem_filter]; exact ⟨Finset.mem_univ _, hj2⟩
  · intro r _; rfl

section Program
variable [Facts₀]
open Facts₀

/-! ## The rectifiers -/

theorem leaky64_apply (v : FVec Ideal S100000x64 .f32) (i : S100000x64.Idx) :
    RefTerm.leaky64 (F := Ideal) v i = Gcn.leaky (v i) := leakyV_apply bcast_S_S100000x64 v i

theorem leaky8_apply (v : FVec Ideal S100000x8 .f32) (i : S100000x8.Idx) :
    RefTerm.leaky8 (F := Ideal) v i = Gcn.leaky (v i) := leakyV_apply bcast_S_S100000x8 v i

theorem leaky16_apply (v : FVec Ideal S64x16 .f32) (i : S64x16.Idx) :
    RefTerm.leaky16 (F := Ideal) v i = Gcn.leaky (v i) := leakyV_apply bcast_S_S64x16 v i

theorem leaky1_apply (v : FVec Ideal S64x1 .f32) (i : S64x1.Idx) :
    RefTerm.leaky1 (F := Ideal) v i = Gcn.leaky (v i) := leakyV_apply bcast_S_S64x1 v i

/-! ## The four products -/

theorem dot1_apply (A : FVec Ideal S100000x128 .f32) (B : FVec Ideal S128x64 .f32) (p : Fin 100000) (q : Fin 64) :
    Host.dotGeneral dot_S100000x128_S128x64_S100000x64_1_0_0_1_n_n none A B (ix2 p q) = Gcn.mmAt A B p q :=
  dot_rowCol_apply dot_S100000x128_S128x64_S100000x64_1_0_0_1_n_n_wf A B p q

theorem dot2_apply (A : FVec Ideal S100000x64 .f32) (B : FVec Ideal S64x8 .f32) (p : Fin 100000) (q : Fin 8) :
    Host.dotGeneral dot_S100000x64_S64x8_S100000x8_1_0_0_1_n_n none A B (ix2 p q) = Gcn.mmAt A B p q :=
  dot_rowCol_apply dot_S100000x64_S64x8_S100000x8_1_0_0_1_n_n_wf A B p q

theorem dot3_apply (A : FVec Ideal S64x32 .f32) (B : FVec Ideal S32x16 .f32) (p : Fin 64) (q : Fin 16) :
    Host.dotGeneral dot_S64x32_S32x16_S64x16_1_0_0_1_n_n none A B (ix2 p q) = Gcn.mmAt A B p q :=
  dot_rowCol_apply dot_S64x32_S32x16_S64x16_1_0_0_1_n_n_wf A B p q

theorem dot4_apply (A : FVec Ideal S64x16 .f32) (B : FVec Ideal S16x1 .f32) (p : Fin 64) (q : Fin 1) :
    Host.dotGeneral dot_S64x16_S16x1_S64x1_1_0_0_1_n_n none A B (ix2 p q) = Gcn.mmAt A B p q :=
  dot_rowCol_apply dot_S64x16_S16x1_S64x1_1_0_0_1_n_n_wf A B p q

/-! ## The mean pool -/

/-- The rows of each graph summed, at (g, j): the sum of the entries (n, j) over the rows n of graph g. -/
theorem sums_apply (a2 : IVec S100000 32) (H : FVec Ideal S100000x8 .f32) (g : Fin 64) (j : Fin 8) :
    RefTerm.sums (F := Ideal) a2 H (ix2 g j) = Gcn.psum a2 H g j := by
  unfold RefTerm.sums
  rw [SegNorm.scatterAdd_ideal,
    show scatter_S64x8_S100000x1_S100000x8_1_0_0_1
      = Cert.LibScatter.rowScatter 64 100000 8 scatter_S64x8_S100000x1_S100000x8_1_0_0_1_wf from rfl,
    Cert.LibScatter.scatterAdd_row_apply, broadcastInDim_scalar_apply, constant_apply, Ideal.ofBits_zero_f32,
    zero_add]
  unfold Gcn.psum Gcn.members
  refine Finset.sum_congr ?_ (fun _ _ => rfl)
  refine Finset.filter_congr (fun r _ => ?_)
  rw [bcast_col_apply]

/-- The number of rows of each graph, at g. -/
theorem cnts_apply (a2 : IVec S100000 32) (g : Fin 64) :
    RefTerm.cnts (F := Ideal) a2 (ix1 g) = Gcn.pcnt a2 g := by
  unfold RefTerm.cnts
  rw [SegNorm.scatterAdd_ideal,
    show scatter_S64_S100000x1_S100000_n_0_0_1
      = SegNorm.vecScatterDims 64 100000 scatter_S64_S100000x1_S100000_n_0_0_1_wf from rfl,
    vecScatterAdd_apply, broadcastInDim_scalar_apply, constant_apply, Ideal.ofBits_zero_f32, zero_add]
  unfold Gcn.pcnt Gcn.members
  refine Finset.sum_congr ?_ (fun r _ => ?_)
  · refine Finset.filter_congr (fun r _ => ?_)
    rw [eIdx_eq_ix2, bcast_col_apply]
  · rw [broadcastInDim_scalar_apply, constant_apply, Ideal.ofBits_one_f32]

/-- THE POOL at (g, j): the mean of the entries (n, j) over the rows n of graph g, an empty graph dividing by one. -/
theorem pool_apply (a2 : IVec S100000 32) (H : FVec Ideal S100000x8 .f32) (g : Fin 64) (j : Fin 8) :
    RefTerm.pool (F := Ideal) a2 H (ix2 g j) = Gcn.pool a2 H g j := by
  unfold RefTerm.pool
  rw [hostDivf_apply, sums_apply, bcast_cols_apply, bcast_col_apply, maximumf_apply, cnts_apply,
    broadcastInDim_scalar_apply, constant_apply, Ideal.ofBits_one_f32]
  rfl

/-! ## The dense head -/

/-- THE HEAD: the two dense layers of the reference are the target's. -/
theorem head_eq (Z : FVec Ideal S64x32 .f32) (a8 : FVec Ideal S32x16 .f32) (a9 : FVec Ideal S16 .f32)
    (a10 : FVec Ideal S16x1 .f32) (a11 : FVec Ideal S1 .f32) :
    RefTerm.head (F := Ideal) Z a8 a9 a10 a11 = Gcn.head a8 a9 a10 a11 Z := by
  funext i
  obtain ⟨g, o, rfl⟩ : ∃ (g : Fin 64) (o : Fin 1), i = ix2 g o := ⟨i 0, i 1, eq_ix2 i⟩
  unfold RefTerm.head
  rw [leaky1_apply, addf_apply, dot4_apply, bias_apply]
  show Gcn.leaky (Gcn.mmAt _ a10 g o + a11 (ix1 o)) = Gcn.leaky (Gcn.mmAt _ a10 g o + a11 (ix1 o))
  congr 2
  unfold Gcn.mmAt
  refine Finset.sum_congr rfl fun c _ => ?_
  rw [leaky16_apply, addf_apply, dot3_apply, bias_apply]
  rfl

end Program

end Cert.ReferenceIdeal.RefHead

end
-- ==== Proof.RefFinal.lean ====
/-
  The reference program computes the network of the specification. Its result is the composed term of its host
  operations; stage by stage — the degree normalisation with its self-loops, each convolution layer as the aggregate
  over the edges plus the self-loop term plus the bias, the rectifiers, the matrix products, the mean pool, the
  dense head — that term is the specification's function of the twelve arguments, so every run of the reference ends
  with that function of the launch contents in its result buffer and the arguments as launched.
-/
import proofs.«419935_j81939386073613_2_alg».proof.Proof.Gen.ReferenceIdeal
import proofs.«419935_j81939386073613_2_alg».proof.Proof.RefRun
import proofs.«419935_j81939386073613_2_alg».proof.Proof.RefValue
import proofs.«419935_j81939386073613_2_alg».proof.Proof.RefDinv
import proofs.«419935_j81939386073613_2_alg».proof.Proof.RefConv
import proofs.«419935_j81939386073613_2_alg».proof.Proof.RefHead

noncomputable section

namespace Cert.ReferenceIdeal.RefFinal

open Cert.ReferenceIdeal Cert.ReferenceIdeal.Gen Idealize.ShloMosaic Idealize.ShloMosaic.TcCoe Idealize.SL.Sem
open Idealize.ShloMosaic.ValueIdx

/-- The reference's term is the specification's function of its arguments. -/
theorem out_eq (a0 : FVec Ideal S100000x128 .f32) (a1 : IVec S2x1600000 32) (a2 : IVec S100000 32)
    (a3 : FVec Ideal S64x24 .f32) (a4 : FVec Ideal S128x64 .f32) (a5 : FVec Ideal S64 .f32)
    (a6 : FVec Ideal S64x8 .f32) (a7 : FVec Ideal S8 .f32) (a8 : FVec Ideal S32x16 .f32)
    (a9 : FVec Ideal S16 .f32) (a10 : FVec Ideal S16x1 .f32) (a11 : FVec Ideal S1 .f32) :
    RefTerm.out (F := Ideal) a0 a1 a2 a3 a4 a5 a6 a7 a8 a9 a10 a11
      = Gcn.out a0 a1 a2 a3 a4 a5 a6 a7 a8 a9 a10 a11 :=
  RefValue.out_eq_of
    (fun a1 L b n c => RefConv.conv64_apply_of a1 L b (RefDinv.enorm_apply_edge a1) (RefDinv.enorm_apply_loop a1) n c)
    (fun a1 L b n c => RefConv.conv8_apply_of a1 L b (RefDinv.enorm_apply_edge a1) (RefDinv.enorm_apply_loop a1) n c)
    RefHead.leaky64_apply RefHead.leaky8_apply RefHead.dot1_apply RefHead.dot2_apply RefHead.pool_apply RefHead.head_eq
    a0 a1 a2 a3 a4 a5 a6 a7 a8 a9 a10 a11

/-- Every run of the reference ends with the specification's function of the arguments in the result buffer, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114)
        = Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (out_eq _ _ _ _ _ _ _ _ _ _ _ _), (h c).2⟩) (RefRun.run (F := Ideal) m ρ)

end Cert.ReferenceIdeal.RefFinal

end
-- ==== Proof.lean ====
/-
  A two-layer graph convolution network with a mean pool and a small dense head, computed two ways.

  The reference adds a self-loop to every node by appending the words 0 … 99999 to the source and destination words
  of the 1 600 000 edges, counts each node's degree by a scatter-add of ones over the 1 700 000 destinations,
  normalises each edge by the inverse square roots of its endpoints' degrees, and aggregates the projected rows by a
  scatter-add; it does so for both layers, pools each graph's rows by a scatter-add over the batch words divided by
  max(count, 1), appends the global features and applies two dense layers, every rectifier leaky.

  The kernel program computes the degree over the edges alone and adds one; it keeps the self-loop apart as the dense
  term row · (dinv · dinv), carried into its second and third kernels as an extra last column of the projected table;
  its third kernel pools by a product with the indicator matrix of the batch words, accumulated over blocks of 2000
  rows with a column of ones appended for the count; its four kernels are a blocked product x·W1, the first layer's
  tail fused with the product by W2, the second layer's tail fused with the pool, and the head.

  On the extended reals both are the same function of the twelve arguments: a sum over the appended words lands on
  row n exactly once, at the word n itself, so the reference's degree is the edge count plus one (in particular it is
  positive, and its guarded inverse square root is the plain one) and its aggregate is the edges' aggregate plus the
  self-loop term; a product with an indicator is the sum over the indicated rows; the two spellings of the leaky
  rectifier differ only at zero, where both give zero. Only commutativity and associativity of the sum and the
  product are used, which hold on all extended reals: the precondition is never opened.

  The frames of the two kernel programs are the generated ones; the reference's frame is its run with the result
  dropped; the idealization rewrote nothing, so it is preserved trivially.
-/
import proofs.«419935_j81939386073613_2_alg».proof.Defs
import proofs.«419935_j81939386073613_2_alg».proof.Proof.Gen.Kernel
import proofs.«419935_j81939386073613_2_alg».proof.Proof.Gen.Kernel.Frame
import proofs.«419935_j81939386073613_2_alg».proof.Proof.Gen.KernelIdeal
import proofs.«419935_j81939386073613_2_alg».proof.Proof.Gen.KernelIdeal.Frame
import proofs.«419935_j81939386073613_2_alg».proof.Proof.Gen.ReferenceIdeal
import proofs.«419935_j81939386073613_2_alg».proof.Proof.Gen.Pre_finite_inputs
import proofs.«419935_j81939386073613_2_alg».proof.Proof.KFinal
import proofs.«419935_j81939386073613_2_alg».proof.Proof.RefFinal
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference terminates and leaves its arguments alone: its run, the result forgotten. -/
theorem frame_referenceIdeal : Cert.frame_ReferenceIdeal := fun m ρ _ =>
  (θ_run Cert.ReferenceIdeal.defs _ _).mono (fun _ h c => (h c).2) (Cert.ReferenceIdeal.RefFinal.run m ρ)

/-- No rewrite was applied when the kernel program was idealized. -/
theorem preserves : Cert.preserves_Kernel_KernelIdeal := trivial

/-- From memories that agree on the twelve arguments both idealized programs end with the network's value of those
    arguments in their result buffers. -/
theorem algebraic : Cert.algebraic_KernelIdeal_ReferenceIdeal := by
  intro m ρ m' ρ' _ hagree
  refine ⟨fun c => Gcn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.KFinal.run m ρ, ?_⟩
  refine (θ_run Cert.ReferenceIdeal.defs _ _).mono (fun _ h c => ⟨(h c).1.trans ?_, (h c).2⟩)
    (Cert.ReferenceIdeal.RefFinal.run m' ρ')
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
